-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x4096 : Shape := ⟨3, ![2, 2048, 4096]⟩
abbrev S352256x64 : Shape := ⟨2, ![352256, 64]⟩
abbrev S704512 : Shape := ⟨1, ![704512]⟩
abbrev S_ : Shape := ⟨0, ![]⟩

class Facts : Prop where
  bcast_S_S2x2048x4096 : S_.BroadcastsInDim S2x2048x4096 (![] : Fin 0 → Fin S2x2048x4096.rank)
  reducesTo_S2x2048x4096_S_d0_1_2 : S2x2048x4096.ReducesTo [0, 1, 2] S_
  h_S_ : 0 < S_.numel
  bcast_S_S704512 : S_.BroadcastsInDim S704512 (![] : Fin 0 → Fin S704512.rank)
  reducesTo_S704512_S_d0 : S704512.ReducesTo [0] S_

variable [Facts]

def fn_part1 {F : FTy → Type} [FloatOps F] (main_v13 : IVec S_ 1) (main_v16 : IVec S704512 1) : IVec S_ 1 :=
  let main_c_5 : IVec S_ 1 := constantI S_ 1 1#1
  let main_v17 : IVec S_ 1 := (fun x v => Host.reduce IntOp.andi x v reducesTo_S704512_S_d0 h_S_) main_v16 main_c_5
  let main_v18 : IVec S_ 1 := andi main_v13 main_v17
  main_v18

def fn {F : FTy → Type} [FloatOps F] (main_arg0 : FVec F S2x2048x4096 .f32) (main_arg1 : IVec S352256x64 32) (main_arg2 : FVec F S704512 .f32) (main_arg3 : IVec S352256x64 32) (main_arg4 : FVec F S704512 .f32) (main_arg5 : IVec S352256x64 32) (main_arg6 : FVec F S704512 .f32) : IVec S_ 1 :=
  let main_v0 : FVec F S2x2048x4096 .f32 := Host.absf main_arg0
  let main_cst : FVec F S_ .f32 := constant S_ .f32 0x7F800000#32
  let main_v1 : FVec F S2x2048x4096 .f32 := broadcastInDim S2x2048x4096 ![] bcast_S_S2x2048x4096 main_cst
  let main_v2 : IVec S2x2048x4096 1 := cmpf .olt main_v0 main_v1
  let main_c : IVec S_ 1 := constantI S_ 1 1#1
  let main_v3 : IVec S_ 1 := (fun x v => Host.reduce IntOp.andi x v reducesTo_S2x2048x4096_S_d0_1_2 h_S_) main_v2 main_c
  let main_v4 : FVec F S704512 .f32 := Host.absf main_arg2
  let main_cst_0 : FVec F S_ .f32 := constant S_ .f32 0x7F800000#32
  let main_v5 : FVec F S704512 .f32 := broadcastInDim S704512 ![] bcast_S_S704512 main_cst_0
  let main_v6 : IVec S704512 1 := cmpf .olt main_v4 main_v5
  let main_c_1 : IVec S_ 1 := constantI S_ 1 1#1
  let main_v7 : IVec S_ 1 := (fun x v => Host.reduce IntOp.andi x v reducesTo_S704512_S_d0 h_S_) main_v6 main_c_1
  let main_v8 : IVec S_ 1 := andi main_v3 main_v7
  let main_v9 : FVec F S704512 .f32 := Host.absf main_arg4
  let main_cst_2 : FVec F S_ .f32 := constant S_ .f32 0x7F800000#32
  let main_v10 : FVec F S704512 .f32 := broadcastInDim S704512 ![] bcast_S_S704512 main_cst_2
  let main_v11 : IVec S704512 1 := cmpf .olt main_v9 main_v10
  let main_c_3 : IVec S_ 1 := constantI S_ 1 1#1
  let main_v12 : IVec S_ 1 := (fun x v => Host.reduce IntOp.andi x v reducesTo_S704512_S_d0 h_S_) main_v11 main_c_3
  let main_v13 : IVec S_ 1 := andi main_v8 main_v12
  let main_v14 : FVec F S704512 .f32 := Host.absf main_arg6
  let main_cst_4 : FVec F S_ .f32 := constant S_ .f32 0x7F800000#32
  let main_v15 : FVec F S704512 .f32 := broadcastInDim S704512 ![] bcast_S_S704512 main_cst_4
  let main_v16 : IVec S704512 1 := cmpf .olt main_v14 main_v15
  fn_part1 (F := F) main_v13 main_v16
-- ==== Kernel.lean ====
abbrev S2x2048x4096 : Shape := ⟨3, ![2, 2048, 4096]⟩
abbrev S352256x64 : Shape := ⟨2, ![352256, 64]⟩
abbrev S704512 : Shape := ⟨1, ![704512]⟩
abbrev S11008x32x64 : Shape := ⟨3, ![11008, 32, 64]⟩
abbrev S11008x32x2 : Shape := ⟨3, ![11008, 32, 2]⟩
abbrev S11008x4096 : Shape := ⟨2, ![11008, 4096]⟩
abbrev S128x32x64 : Shape := ⟨3, ![128, 32, 64]⟩
abbrev S128x32x2 : Shape := ⟨3, ![128, 32, 2]⟩
abbrev S128x4096 : Shape := ⟨2, ![128, 4096]⟩
abbrev S128x32x1 : Shape := ⟨3, ![128, 32, 1]⟩
abbrev S128x32x128 : Shape := ⟨3, ![128, 32, 128]⟩
abbrev S4096x86x64 : Shape := ⟨3, ![4096, 86, 64]⟩
abbrev S4096x86x2 : Shape := ⟨3, ![4096, 86, 2]⟩
abbrev S4096x11008 : Shape := ⟨2, ![4096, 11008]⟩
abbrev S128x86x64 : Shape := ⟨3, ![128, 86, 64]⟩
abbrev S128x86x2 : Shape := ⟨3, ![128, 86, 2]⟩
abbrev S128x11008 : Shape := ⟨2, ![128, 11008]⟩
abbrev S128x86x1 : Shape := ⟨3, ![128, 86, 1]⟩
abbrev S128x86x128 : Shape := ⟨3, ![128, 86, 128]⟩
abbrev S4096x4096 : Shape := ⟨2, ![4096, 4096]⟩
abbrev S1024x4096 : Shape := ⟨2, ![1024, 4096]⟩
abbrev S256x4096 : Shape := ⟨2, ![256, 4096]⟩
abbrev S1024x256 : Shape := ⟨2, ![1024, 256]⟩
abbrev S1024x1024 : Shape := ⟨2, ![1024, 1024]⟩

abbrev nBuf : Space → Nat
  | .hbm => 21
  | .vmem => 33
  | .smem => 0
  | _ => 0

abbrev bufTy : (tb : Table) → Fin (tcTables nBuf tb) → BufTy
  | .hbm, ⟨0, _⟩ => ⟨S2x2048x4096, .f32⟩
  | .hbm, ⟨1, _⟩ => ⟨S352256x64, .i32⟩
  | .hbm, ⟨2, _⟩ => ⟨S704512, .f32⟩
  | .hbm, ⟨3, _⟩ => ⟨S352256x64, .i32⟩
  | .hbm, ⟨4, _⟩ => ⟨S704512, .f32⟩
  | .hbm, ⟨5, _⟩ => ⟨S352256x64, .i32⟩
  | .hbm, ⟨6, _⟩ => ⟨S704512, .f32⟩
  | .hbm, ⟨7, _⟩ => ⟨S11008x32x64, .i32⟩
  | .hbm, ⟨8, _⟩ => ⟨S11008x32x2, .f32⟩
  | .hbm, ⟨9, _⟩ => ⟨S11008x4096, .bf16⟩
  | .hbm, ⟨10, _⟩ => ⟨S11008x32x64, .i32⟩
  | .hbm, ⟨11, _⟩ => ⟨S11008x32x2, .f32⟩
  | .hbm, ⟨12, _⟩ => ⟨S11008x4096, .bf16⟩
  | .hbm, ⟨13, _⟩ => ⟨S4096x86x64, .i32⟩
  | .hbm, ⟨14, _⟩ => ⟨S4096x86x2, .f32⟩
  | .hbm, ⟨15, _⟩ => ⟨S4096x11008, .bf16⟩
  | .hbm, ⟨16, _⟩ => ⟨S4096x4096, .f32⟩
  | .hbm, ⟨17, _⟩ => ⟨S4096x4096, .bf16⟩
  | .hbm, ⟨18, _⟩ => ⟨S4096x11008, .bf16⟩
  | .hbm, ⟨19, _⟩ => ⟨S4096x4096, .f32⟩
  | .hbm, ⟨20, _⟩ => ⟨S2x2048x4096, .f32⟩
  | .local _ .vmem, ⟨0, _⟩ => ⟨S128x32x64, .i32⟩
  | .local _ .vmem, ⟨1, _⟩ => ⟨S128x32x64, .i32⟩
  | .local _ .vmem, ⟨2, _⟩ => ⟨S128x32x2, .f32⟩
  | .local _ .vmem, ⟨3, _⟩ => ⟨S128x32x2, .f32⟩
  | .local _ .vmem, ⟨4, _⟩ => ⟨S128x4096, .bf16⟩
  | .local _ .vmem, ⟨5, _⟩ => ⟨S128x4096, .bf16⟩
  | .local _ .vmem, ⟨6, _⟩ => ⟨S128x32x64, .i32⟩
  | .local _ .vmem, ⟨7, _⟩ => ⟨S128x32x64, .i32⟩
  | .local _ .vmem, ⟨8, _⟩ => ⟨S128x32x2, .f32⟩
  | .local _ .vmem, ⟨9, _⟩ => ⟨S128x32x2, .f32⟩
  | .local _ .vmem, ⟨10, _⟩ => ⟨S128x4096, .bf16⟩
  | .local _ .vmem, ⟨11, _⟩ => ⟨S128x4096, .bf16⟩
  | .local _ .vmem, ⟨12, _⟩ => ⟨S128x86x64, .i32⟩
  | .local _ .vmem, ⟨13, _⟩ => ⟨S128x86x64, .i32⟩
  | .local _ .vmem, ⟨14, _⟩ => ⟨S128x86x2, .f32⟩
  | .local _ .vmem, ⟨15, _⟩ => ⟨S128x86x2, .f32⟩
  | .local _ .vmem, ⟨16, _⟩ => ⟨S128x11008, .bf16⟩
  | .local _ .vmem, ⟨17, _⟩ => ⟨S128x11008, .bf16⟩
  | .local _ .vmem, ⟨18, _⟩ => ⟨S1024x4096, .bf16⟩
  | .local _ .vmem, ⟨19, _⟩ => ⟨S1024x4096, .bf16⟩
  | .local _ .vmem, ⟨20, _⟩ => ⟨S256x4096, .bf16⟩
  | .local _ .vmem, ⟨21, _⟩ => ⟨S256x4096, .bf16⟩
  | .local _ .vmem, ⟨22, _⟩ => ⟨S256x4096, .bf16⟩
  | .local _ .vmem, ⟨23, _⟩ => ⟨S256x4096, .bf16⟩
  | .local _ .vmem, ⟨24, _⟩ => ⟨S1024x256, .bf16⟩
  | .local _ .vmem, ⟨25, _⟩ => ⟨S1024x256, .bf16⟩
  | .local _ .vmem, ⟨26, _⟩ => ⟨S1024x256, .bf16⟩
  | .local _ .vmem, ⟨27, _⟩ => ⟨S1024x256, .bf16⟩
  | .local _ .vmem, ⟨28, _⟩ => ⟨S1024x256, .bf16⟩
  | .local _ .vmem, ⟨29, _⟩ => ⟨S1024x256, .bf16⟩
  | .local _ .vmem, ⟨30, _⟩ => ⟨S1024x1024, .f32⟩
  | .local _ .vmem, ⟨31, _⟩ => ⟨S1024x1024, .f32⟩
  | .local _ .vmem, ⟨32, _⟩ => ⟨S1024x1024, .f32⟩
  | _, _ => ⟨S2x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc3_stg3_0 : Ref sig .tc := ⟨.vmem, 24, rfl⟩
abbrev cc3_stg3_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg1_1 : Ref sig .tc := ⟨.vmem, 29, rfl⟩
abbrev cc4_stg2_0 : Ref sig .tc := ⟨.vmem, 30, rfl⟩
abbrev cc4_stg2_1 : Ref sig .tc := ⟨.vmem, 31, rfl⟩
abbrev cc4_scratch0 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc3_sem3_0 : DmaSem sig := 24
abbrev cc3_sem3_1 : DmaSem sig := 25
abbrev cc4_sem0_0 : DmaSem sig := 26
abbrev cc4_sem0_1 : DmaSem sig := 27
abbrev cc4_sem1_0 : DmaSem sig := 28
abbrev cc4_sem1_1 : DmaSem sig := 29
abbrev cc4_sem2_0 : DmaSem sig := 30
abbrev cc4_sem2_1 : DmaSem sig := 31

abbrev nD : Nat := 1
abbrev τ : Topo := Topo.v7x

variable {F : FTy → Type} [FloatOps F]

abbrev grid0 : Pipeline.Grid := ⟨1, ![86], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x32x64 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x32x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![86], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x32x64 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S128x32x2 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S128x4096 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![32], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S128x86x64 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S128x86x2 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S128x11008 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨2, ![4, 43], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S1024x4096 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S256x4096 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S256x4096 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![false, true]

abbrev stage3_3 : Fin 2 → Memref sig .tc .vmem S1024x256 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev grid4 : Pipeline.Grid := ⟨3, ![4, 4, 43], ![false, false, false]⟩

def k4_cond2 (i : grid4.Coords) : BitVec 1 :=
  let arg2 : BitVec 32 := BitVec.ofNat 32 (i 2).val
  let c42_i32 : BitVec 32 := 42#32
  let v13 : BitVec 1 := Scalar.cmpi .eq arg2 c42_i32
  let v14 : BitVec 32 := Scalar.extui v13
  let c0_i32_8 : BitVec 32 := 0#32
  let v15 : BitVec 1 := Scalar.cmpi .ne v14 c0_i32_8
  v15

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S1024x256 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 2 → Memref sig .tc .vmem S1024x256 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, true]

abbrev stage4_2 : Fin 2 → Memref sig .tc .vmem S1024x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

class Facts₀ : Prop where
  shapeCasts_S352256x64_S11008x32x64 : S352256x64.ShapeCasts S11008x32x64
  shapeCasts_S704512_S11008x32x2 : S704512.ShapeCasts S11008x32x2
  inb_S128x32x64_S128x32x64_0_0_0 : ∀ a, (![0, 0, 0] : Fin 3 → Nat) a + S128x32x64.size a ≤ S128x32x64.size a
  h_S128x32x64 : 0 < S128x32x64.numel
  shapeCasts_S128x32x64_S128x32x64 : S128x32x64.ShapeCasts S128x32x64
  inb_S128x32x2_S128x32x2_0_0_0 : ∀ a, (![0, 0, 0] : Fin 3 → Nat) a + S128x32x2.size a ≤ S128x32x2.size a
  h_S128x32x2 : 0 < S128x32x2.numel
  shapeCasts_S128x32x2_S128x32x2 : S128x32x2.ShapeCasts S128x32x2
  slices_S128x32x2_o0_0_0_S128x32x1 : S128x32x2.Slices ![0, 0, 0] S128x32x1
  broadcasts_S128x32x1_S128x32x64 : S128x32x1.Broadcasts S128x32x64
  slices_S128x32x2_o0_0_1_S128x32x1 : S128x32x2.Slices ![0, 0, 1] S128x32x1
  concatenates_S128x32x64_S128x32x64_S128x32x128_d2 : Shape.Concatenates [S128x32x64, S128x32x64] S128x32x128 2
  shapeCasts_S128x32x128_S128x4096 : S128x32x128.ShapeCasts S128x4096
  bitsLt_bf16_f32 : FTy.bits .bf16 < FTy.bits .f32
  inb_S128x4096_S128x4096_0_0 : ∀ a, (![0, 0] : Fin 2 → Nat) a + S128x4096.size a ≤ S128x4096.size a
  h_S128x4096 : 0 < S128x4096.numel
  packedbf16_S128x4096_S128x4096_0_0 : (Rect.unit (s := S128x4096) ![0, 0] S128x4096.size inb_S128x4096_S128x4096_0_0).PackedRows (EltTy.packing .bf16)
  shapeCasts_S352256x64_S4096x86x64 : S352256x64.ShapeCasts S4096x86x64
  shapeCasts_S704512_S4096x86x2 : S704512.ShapeCasts S4096x86x2
  inb_S128x86x64_S128x86x64_0_0_0 : ∀ a, (![0, 0, 0] : Fin 3 → Nat) a + S128x86x64.size a ≤ S128x86x64.size a
  h_S128x86x64 : 0 < S128x86x64.numel
  shapeCasts_S128x86x64_S128x86x64 : S128x86x64.ShapeCasts S128x86x64
  inb_S128x86x2_S128x86x2_0_0_0 : ∀ a, (![0, 0, 0] : Fin 3 → Nat) a + S128x86x2.size a ≤ S128x86x2.size a
  h_S128x86x2 : 0 < S128x86x2.numel
  shapeCasts_S128x86x2_S128x86x2 : S128x86x2.ShapeCasts S128x86x2
  slices_S128x86x2_o0_0_0_S128x86x1 : S128x86x2.Slices ![0, 0, 0] S128x86x1
  broadcasts_S128x86x1_S128x86x64 : S128x86x1.Broadcasts S128x86x64
  slices_S128x86x2_o0_0_1_S128x86x1 : S128x86x2.Slices ![0, 0, 1] S128x86x1
  concatenates_S128x86x64_S128x86x64_S128x86x128_d2 : Shape.Concatenates [S128x86x64, S128x86x64] S128x86x128 2
  shapeCasts_S128x86x128_S128x11008 : S128x86x128.ShapeCasts S128x11008
  inb_S128x11008_S128x11008_0_0 : ∀ a, (![0, 0] : Fin 2 → Nat) a + S128x11008.size a ≤ S128x11008.size a
  h_S128x11008 : 0 < S128x11008.numel
  packedbf16_S128x11008_S128x11008_0_0 : (Rect.unit (s := S128x11008) ![0, 0] S128x11008.size inb_S128x11008_S128x11008_0_0).PackedRows (EltTy.packing .bf16)
  shapeCasts_S2x2048x4096_S4096x4096 : S2x2048x4096.ShapeCasts S4096x4096
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S1024x256_S1024x256_0_0 : ∀ a, (![0, 0] : Fin 2 → Nat) a + S1024x256.size a ≤ S1024x256.size a
  h_S1024x256 : 0 < S1024x256.numel
  packedbf16_S1024x256_S1024x256_0_0 : (Rect.unit (s := S1024x256) ![0, 0] S1024x256.size inb_S1024x256_S1024x256_0_0).PackedRows (EltTy.packing .bf16)
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S1024x256_S1024x256 : S1024x256.ShapeCasts S1024x256
  shapeCasts_S4096x4096_S2x2048x4096 : S4096x4096.ShapeCasts S2x2048x4096
  dot_S1024x4096_S256x4096_S1024x256_1_1_0_0_n_n_wf : DotDims.WF S1024x4096 S256x4096 S1024x256 [1] [1] [0] [0] [] []
  dot_S1024x256_S1024x256_S1024x1024_1_1_0_0_n_n_wf : DotDims.WF S1024x256 S1024x256 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x32x64.size a ≤ S11008x32x64.size a
  hwx0_0 : ∀ i : grid0.Coords, EltTy.bits .i32 = 32 ∨ (Rect.block (s := S11008x32x64) S128x32x64.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x32x2.size a ≤ S11008x32x2.size a
  hwx0_1 : ∀ i : grid0.Coords, EltTy.bits .f32 = 32 ∨ (Rect.block (s := S11008x32x2) S128x32x2.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x4096.size a ≤ S11008x4096.size a
  hwx0_2 : ∀ i : grid0.Coords, EltTy.bits .bf16 = 32 ∨ (Rect.block (s := S11008x4096) S128x4096.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x32x64.size a ≤ S11008x32x64.size a
  hwx1_0 : ∀ i : grid1.Coords, EltTy.bits .i32 = 32 ∨ (Rect.block (s := S11008x32x64) S128x32x64.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x32x2.size a ≤ S11008x32x2.size a
  hwx1_1 : ∀ i : grid1.Coords, EltTy.bits .f32 = 32 ∨ (Rect.block (s := S11008x32x2) S128x32x2.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S128x4096.size a ≤ S11008x4096.size a
  hwx1_2 : ∀ i : grid1.Coords, EltTy.bits .bf16 = 32 ∨ (Rect.block (s := S11008x4096) S128x4096.size (cc1_transform_2 i) (hinb1_2 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S128x86x64.size a ≤ S4096x86x64.size a
  hwx2_0 : ∀ i : grid2.Coords, EltTy.bits .i32 = 32 ∨ (Rect.block (s := S4096x86x64) S128x86x64.size (cc2_transform_0 i) (hinb2_0 i)).WholeWords (EltTy.packing .i32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S128x86x2.size a ≤ S4096x86x2.size a
  hwx2_1 : ∀ i : grid2.Coords, EltTy.bits .f32 = 32 ∨ (Rect.block (s := S4096x86x2) S128x86x2.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S128x11008.size a ≤ S4096x11008.size a
  hwx2_2 : ∀ i : grid2.Coords, EltTy.bits .bf16 = 32 ∨ (Rect.block (s := S4096x11008) S128x11008.size (cc2_transform_2 i) (hinb2_2 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x4096.size a ≤ S4096x4096.size a
  hwx3_0 : ∀ i : grid3.Coords, EltTy.bits .bf16 = 32 ∨ (Rect.block (s := S4096x4096) S1024x4096.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S256x4096.size a ≤ S11008x4096.size a
  hwx3_1 : ∀ i : grid3.Coords, EltTy.bits .bf16 = 32 ∨ (Rect.block (s := S11008x4096) S256x4096.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S256x4096.size a ≤ S11008x4096.size a
  hwx3_2 : ∀ i : grid3.Coords, EltTy.bits .bf16 = 32 ∨ (Rect.block (s := S11008x4096) S256x4096.size (cc3_transform_2 i) (hinb3_2 i)).WholeWords (EltTy.packing .bf16)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1024x256.size a ≤ S4096x11008.size a
  hwx3_3 : ∀ i : grid3.Coords, EltTy.bits .bf16 = 32 ∨ (Rect.block (s := S4096x11008) S1024x256.size (cc3_transform_3 i) (hinb3_3 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1024x256.size a ≤ S4096x11008.size a
  hwx4_0 : ∀ i : grid4.Coords, EltTy.bits .bf16 = 32 ∨ (Rect.block (s := S4096x11008) S1024x256.size (cc4_transform_0 i) (hinb4_0 i)).WholeWords (EltTy.packing .bf16)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1024x256.size a ≤ S4096x11008.size a
  hwx4_1 : ∀ i : grid4.Coords, EltTy.bits .bf16 = 32 ∨ (Rect.block (s := S4096x11008) S1024x256.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1024x1024.size a ≤ S4096x4096.size a
  hwx4_2 : ∀ i : grid4.Coords, EltTy.bits .f32 = 32 ∨ (Rect.block (s := S4096x4096) S1024x1024.size (cc4_transform_2 i) (hinb4_2 i)).WholeWords (EltTy.packing .f32)

variable [Facts₀]

def dot_S1024x4096_S256x4096_S1024x256_1_1_0_0_n_n : DotDims S1024x4096 S256x4096 S1024x256 where
  lhsContracting := [1]
  rhsContracting := [1]
  lhsNonContracting := [0]
  rhsNonContracting := [0]
  lhsBatch := []
  rhsBatch := []
  wf := dot_S1024x4096_S256x4096_S1024x256_1_1_0_0_n_n_wf
def dot_S1024x256_S1024x256_S1024x1024_1_1_0_0_n_n : DotDims S1024x256 S1024x256 S1024x1024 where
  lhsContracting := [1]
  rhsContracting := [1]
  lhsNonContracting := [0]
  rhsNonContracting := [0]
  lhsBatch := []
  rhsBatch := []
  wf := dot_S1024x256_S1024x256_S1024x1024_1_1_0_0_n_n_wf

abbrev win0_0 : Pipeline.Window sig grid0 :=
  Pipeline.Window.ofSpec (Memref.whole main_v0) S128x32x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x32x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S128x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v3) S128x32x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S128x32x2.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S128x4096.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v6) S128x86x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v7) S128x86x2.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v8) S128x11008.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v10) S1024x4096.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v2) S256x4096.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v5) S256x4096.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v11) S1024x256.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v11) S1024x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v8) S1024x256.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v12) S1024x1024.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev idle4 : Fin 3 → grid4.Coords → Bool := fun | 0 => fun _ => false | 1 => fun _ => false | 2 => fun i => !(k4_cond2 i == 1#1) | ⟨_ + 3, h⟩ => absurd h (Nat.not_lt.2 (Nat.le_add_left _ _))

class Facts : Prop extends Facts₀ where

variable [Facts]
-- ==== ReferenceIdeal.lean ====
abbrev S2x2048x4096 : Shape := ⟨3, ![2, 2048, 4096]⟩
abbrev S352256x64 : Shape := ⟨2, ![352256, 64]⟩
abbrev S704512 : Shape := ⟨1, ![704512]⟩
abbrev S_ : Shape := ⟨0, ![]⟩
abbrev S352256x128 : Shape := ⟨2, ![352256, 128]⟩
abbrev S704512x64 : Shape := ⟨2, ![704512, 64]⟩
abbrev S704512x1 : Shape := ⟨2, ![704512, 1]⟩
abbrev S11008x4096 : Shape := ⟨2, ![11008, 4096]⟩
abbrev S4096x11008 : Shape := ⟨2, ![4096, 11008]⟩
abbrev S2x2048x11008 : Shape := ⟨3, ![2, 2048, 11008]⟩

abbrev nBuf : Space → Nat
  | .hbm => 77
  | .vmem => 0
  | .smem => 0
  | _ => 0

abbrev bufTy : (tb : Table) → Fin (tcTables nBuf tb) → BufTy
  | .hbm, ⟨0, _⟩ => ⟨S2x2048x4096, .f32⟩
  | .hbm, ⟨1, _⟩ => ⟨S352256x64, .i32⟩
  | .hbm, ⟨2, _⟩ => ⟨S704512, .f32⟩
  | .hbm, ⟨3, _⟩ => ⟨S352256x64, .i32⟩
  | .hbm, ⟨4, _⟩ => ⟨S704512, .f32⟩
  | .hbm, ⟨5, _⟩ => ⟨S352256x64, .i32⟩
  | .hbm, ⟨6, _⟩ => ⟨S704512, .f32⟩
  | .hbm, ⟨7, _⟩ => ⟨S_, .i32⟩
  | .hbm, ⟨8, _⟩ => ⟨S352256x64, .i32⟩
  | .hbm, ⟨9, _⟩ => ⟨S352256x64, .i32⟩
  | .hbm, ⟨10, _⟩ => ⟨S_, .i32⟩
  | .hbm, ⟨11, _⟩ => ⟨S352256x64, .i32⟩
  | .hbm, ⟨12, _⟩ => ⟨S352256x64, .i32⟩
  | .hbm, ⟨13, _⟩ => ⟨S_, .i32⟩
  | .hbm, ⟨14, _⟩ => ⟨S352256x64, .i32⟩
  | .hbm, ⟨15, _⟩ => ⟨S352256x64, .i32⟩
  | .hbm, ⟨16, _⟩ => ⟨S_, .i32⟩
  | .hbm, ⟨17, _⟩ => ⟨S352256x64, .i32⟩
  | .hbm, ⟨18, _⟩ => ⟨S352256x64, .i32⟩
  | .hbm, ⟨19, _⟩ => ⟨S352256x128, .i32⟩
  | .hbm, ⟨20, _⟩ => ⟨S704512x64, .i32⟩
  | .hbm, ⟨21, _⟩ => ⟨S704512x64, .f32⟩
  | .hbm, ⟨22, _⟩ => ⟨S704512x1, .f32⟩
  | .hbm, ⟨23, _⟩ => ⟨S704512x64, .f32⟩
  | .hbm, ⟨24, _⟩ => ⟨S704512x64, .f32⟩
  | .hbm, ⟨25, _⟩ => ⟨S11008x4096, .f32⟩
  | .hbm, ⟨26, _⟩ => ⟨S_, .i32⟩
  | .hbm, ⟨27, _⟩ => ⟨S352256x64, .i32⟩
  | .hbm, ⟨28, _⟩ => ⟨S352256x64, .i32⟩
  | .hbm, ⟨29, _⟩ => ⟨S_, .i32⟩
  | .hbm, ⟨30, _⟩ => ⟨S352256x64, .i32⟩
  | .hbm, ⟨31, _⟩ => ⟨S352256x64, .i32⟩
  | .hbm, ⟨32, _⟩ => ⟨S_, .i32⟩
  | .hbm, ⟨33, _⟩ => ⟨S352256x64, .i32⟩
  | .hbm, ⟨34, _⟩ => ⟨S352256x64, .i32⟩
  | .hbm, ⟨35, _⟩ => ⟨S_, .i32⟩
  | .hbm, ⟨36, _⟩ => ⟨S352256x64, .i32⟩
  | .hbm, ⟨37, _⟩ => ⟨S352256x64, .i32⟩
  | .hbm, ⟨38, _⟩ => ⟨S352256x128, .i32⟩
  | .hbm, ⟨39, _⟩ => ⟨S704512x64, .i32⟩
  | .hbm, ⟨40, _⟩ => ⟨S704512x64, .f32⟩
  | .hbm, ⟨41, _⟩ => ⟨S704512x1, .f32⟩
  | .hbm, ⟨42, _⟩ => ⟨S704512x64, .f32⟩
  | .hbm, ⟨43, _⟩ => ⟨S704512x64, .f32⟩
  | .hbm, ⟨44, _⟩ => ⟨S11008x4096, .f32⟩
  | .hbm, ⟨45, _⟩ => ⟨S_, .i32⟩
  | .hbm, ⟨46, _⟩ => ⟨S352256x64, .i32⟩
  | .hbm, ⟨47, _⟩ => ⟨S352256x64, .i32⟩
  | .hbm, ⟨48, _⟩ => ⟨S_, .i32⟩
  | .hbm, ⟨49, _⟩ => ⟨S352256x64, .i32⟩
  | .hbm, ⟨50, _⟩ => ⟨S352256x64, .i32⟩
  | .hbm, ⟨51, _⟩ => ⟨S_, .i32⟩
  | .hbm, ⟨52, _⟩ => ⟨S352256x64, .i32⟩
  | .hbm, ⟨53, _⟩ => ⟨S352256x64, .i32⟩
  | .hbm, ⟨54, _⟩ => ⟨S_, .i32⟩
  | .hbm, ⟨55, _⟩ => ⟨S352256x64, .i32⟩
  | .hbm, ⟨56, _⟩ => ⟨S352256x64, .i32⟩
  | .hbm, ⟨57, _⟩ => ⟨S352256x128, .i32⟩
  | .hbm, ⟨58, _⟩ => ⟨S704512x64, .i32⟩
  | .hbm, ⟨59, _⟩ => ⟨S704512x64, .f32⟩
  | .hbm, ⟨60, _⟩ => ⟨S704512x1, .f32⟩
  | .hbm, ⟨61, _⟩ => ⟨S704512x64, .f32⟩
  | .hbm, ⟨62, _⟩ => ⟨S704512x64, .f32⟩
  | .hbm, ⟨63, _⟩ => ⟨S4096x11008, .f32⟩
  | .hbm, ⟨64, _⟩ => ⟨S2x2048x11008, .f32⟩
  | .hbm, ⟨65, _⟩ => ⟨S2x2048x11008, .f32⟩
  | .hbm, ⟨66, _⟩ => ⟨S2x2048x11008, .f32⟩
  | .hbm, ⟨67, _⟩ => ⟨S2x2048x11008, .f32⟩
  | .hbm, ⟨68, _⟩ => ⟨S_, .f32⟩
  | .hbm, ⟨69, _⟩ => ⟨S2x2048x11008, .f32⟩
  | .hbm, ⟨70, _⟩ => ⟨S2x2048x11008, .f32⟩
  | .hbm, ⟨71, _⟩ => ⟨S_, .f32⟩
  | .hbm, ⟨72, _⟩ => ⟨S2x2048x11008, .f32⟩
  | .hbm, ⟨73, _⟩ => ⟨S2x2048x11008, .f32⟩
  | .hbm, ⟨74, _⟩ => ⟨S2x2048x11008, .f32⟩
  | .hbm, ⟨75, _⟩ => ⟨S2x2048x11008, .f32⟩
  | .hbm, ⟨76, _⟩ => ⟨S2x2048x4096, .f32⟩
  | _, _ => ⟨S2x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_c_1 : Ref sig .tc := ⟨.hbm, 13, rfl⟩
abbrev main_v4 : Ref sig .tc := ⟨.hbm, 14, rfl⟩
abbrev main_v5 : Ref sig .tc := ⟨.hbm, 15, rfl⟩
abbrev main_c_2 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c_3 : Ref sig .tc := ⟨.hbm, 26, rfl⟩
abbrev main_v15 : Ref sig .tc := ⟨.hbm, 27, rfl⟩
abbrev main_v16 : Ref sig .tc := ⟨.hbm, 28, rfl⟩
abbrev main_c_4 : Ref sig .tc := ⟨.hbm, 29, rfl⟩
abbrev main_v17 : Ref sig .tc := ⟨.hbm, 30, rfl⟩
abbrev main_v18 : Ref sig .tc := ⟨.hbm, 31, rfl⟩
abbrev main_c_5 : Ref sig .tc := ⟨.hbm, 32, rfl⟩
abbrev main_v19 : Ref sig .tc := ⟨.hbm, 33, rfl⟩
abbrev main_v20 : Ref sig .tc := ⟨.hbm, 34, rfl⟩
abbrev main_c_6 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_7 : Ref sig .tc := ⟨.hbm, 45, rfl⟩
abbrev main_v30 : Ref sig .tc := ⟨.hbm, 46, rfl⟩
abbrev main_v31 : Ref sig .tc := ⟨.hbm, 47, rfl⟩
abbrev main_c_8 : Ref sig .tc := ⟨.hbm, 48, rfl⟩
abbrev main_v32 : Ref sig .tc := ⟨.hbm, 49, rfl⟩
abbrev main_v33 : Ref sig .tc := ⟨.hbm, 50, rfl⟩
abbrev main_c_9 : Ref sig .tc := ⟨.hbm, 51, rfl⟩
abbrev main_v34 : Ref sig .tc := ⟨.hbm, 52, rfl⟩
abbrev main_v35 : Ref sig .tc := ⟨.hbm, 53, rfl⟩
abbrev main_c_10 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call0_v0 : Ref sig .tc := ⟨.hbm, 66, rfl⟩
abbrev main_call0_v1 : Ref sig .tc := ⟨.hbm, 67, rfl⟩
abbrev main_call0_cst : Ref sig .tc := ⟨.hbm, 68, rfl⟩
abbrev main_call0_v2 : Ref sig .tc := ⟨.hbm, 69, rfl⟩
abbrev main_call0_v3 : Ref sig .tc := ⟨.hbm, 70, rfl⟩
abbrev main_call0_cst_0 : Ref sig .tc := ⟨.hbm, 71, rfl⟩
abbrev main_call0_v4 : Ref sig .tc := ⟨.hbm, 72, rfl⟩
abbrev main_call0_v5 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩

abbrev nD : Nat := 1
abbrev τ : Topo := Topo.v7x

variable {F : FTy → Type} [FloatOps F]

class Facts₀ : Prop where
  bcast_S_S352256x64 : S_.BroadcastsInDim S352256x64 (![] : Fin 0 → Fin S352256x64.rank)
  concatenates_S352256x64_S352256x64_S352256x128_d1 : Shape.Concatenates [S352256x64, S352256x64] S352256x128 1
  shapeCasts_S352256x128_S704512x64 : S352256x128.ShapeCasts S704512x64
  bcast_S704512_S704512x1_0 : S704512.BroadcastsInDim S704512x1 (![0] : Fin 1 → Fin S704512x1.rank)
  bcast_S704512x1_S704512x64_0_1 : S704512x1.BroadcastsInDim S704512x64 (![0, 1] : Fin 2 → Fin S704512x64.rank)
  shapeCasts_S704512x64_S11008x4096 : S704512x64.ShapeCasts S11008x4096
  shapeCasts_S704512x64_S4096x11008 : S704512x64.ShapeCasts S4096x11008
  bcast_S_S2x2048x11008 : S_.BroadcastsInDim S2x2048x11008 (![] : Fin 0 → Fin S2x2048x11008.rank)
  dot_S2x2048x4096_S11008x4096_S2x2048x11008_2_1_01_0_n_n_wf : DotDims.WF S2x2048x4096 S11008x4096 S2x2048x11008 [2] [1] [0, 1] [0] [] []
  dot_S2x2048x11008_S4096x11008_S2x2048x4096_2_1_01_0_n_n_wf : DotDims.WF S2x2048x11008 S4096x11008 S2x2048x4096 [2] [1] [0, 1] [0] [] []

variable [Facts₀]

def dot_S2x2048x4096_S11008x4096_S2x2048x11008_2_1_01_0_n_n : DotDims S2x2048x4096 S11008x4096 S2x2048x11008 where
  lhsContracting := [2]
  rhsContracting := [1]
  lhsNonContracting := [0, 1]
  rhsNonContracting := [0]
  lhsBatch := []
  rhsBatch := []
  wf := dot_S2x2048x4096_S11008x4096_S2x2048x11008_2_1_01_0_n_n_wf
def dot_S2x2048x11008_S4096x11008_S2x2048x4096_2_1_01_0_n_n : DotDims S2x2048x11008 S4096x11008 S2x2048x4096 where
  lhsContracting := [2]
  rhsContracting := [1]
  lhsNonContracting := [0, 1]
  rhsNonContracting := [0]
  lhsBatch := []
  rhsBatch := []
  wf := dot_S2x2048x11008_S4096x11008_S2x2048x4096_2_1_01_0_n_n_wf

class Facts : Prop extends Facts₀ where

variable [Facts]
-- ==== Proof.K.Reg0.lean ====
/-
  The first dequantisation call (grid of 86 points, one per 128 rows of the [11008, 4096] weight matrix), at the
  buffer contents `V` the call is entered with.

  At point `t` the call reads rows `128 t … 128 t + 127` of the packed words (as [128, 32, 64]) and of the scales (as
  [128, 32, 2]) and stores one [128, 4096] block: the words' high nibbles times the first scale of their pair, then
  their low nibbles times the second, concatenated along the last axis and flattened. Nothing else is touched:
  the block a point leaves depends on that point's two input blocks only.
-/
import proofs.«424885_j32023276159510_1_alg».proof.Proof.Gen.Kernel.Launch
import proofs.«424885_j32023276159510_1_alg».proof.Proof.Gen.Kernel.Skeleton
import proofs.«424885_j32023276159510_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the call reads -/

/-- Window `w`'s block at point `t`, read off the array the call finds. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The packed words' staging buffer holds the point's block at every point: the window moves with the point and is
    fetched whenever it moves. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for the scales' staging buffer. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## What a point stores -/

/-- The whole [128, 32, 64] block of words, -/
abbrev rw0 : Rect S128x32x64 := Rect.unit (s := S128x32x64) ![0, 0, 0] S128x32x64.size inb_S128x32x64_S128x32x64_0_0_0
/-- the whole [128, 32, 2] block of scales, -/
abbrev rs0 : Rect S128x32x2 := Rect.unit (s := S128x32x2) ![0, 0, 0] S128x32x2.size inb_S128x32x2_S128x32x2_0_0_0
/-- and the whole [128, 4096] block of dequantised weights. -/
abbrev ro0 : Rect S128x4096 := Rect.unit (s := S128x4096) ![0, 0] S128x4096.size inb_S128x4096_S128x4096_0_0

/-- The output block after the body: its one store, of the dequantised values of the two input blocks. -/
def out0_2 (x0 : Vec F S128x32x64 .i32) (x1 : Vec F S128x32x2 .f32) : Vec F S128x4096 .bf16 :=
  View.canon [⟨ro0, k0_pay1 (View.ld x0 rw0) (View.ld x1 rs0)⟩]

/-- That store covers the block. -/
theorem cover0_2 (p0 : Vec F S128x4096 .bf16) (y : S128x4096.Idx) :
    ∃ pc ∈ ([⟨ro0, p0⟩] : List (View.Piece (Elt F) S128x4096 .bf16)), y ∈ pc.1.set :=
  View.cover_of_tiled [⟨ro0, p0⟩] S128x4096.size (by rfl) y

/-! ## The body's run -/

set_option maxHeartbeats 1000000 in
/-- On whole staging buffers, the inputs' at `x0`, `x1` and the output's at anything, the body runs to its end leaving
    the inputs as they were and the output at `out0_2 x0 x1`. -/
theorem sound_kernel0 (c : Dev nD) (E : Set ℕ) (i : grid0.Coords)
    (arg1 : Memref sig .tc .vmem S128x32x64 .i32) (harg1 : arg1.IsWhole) (arg2 : Memref sig .tc .vmem S128x32x2 .f32) (harg2 : arg2.IsWhole)
    (arg3 : Memref sig .tc .vmem S128x4096 .bf16) (harg3 : arg3.IsWhole)
    (x0 : Vec F S128x32x64 .i32) (x1 : Vec F S128x32x2 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__dequant_kernel i arg1 harg1 arg2 harg2 arg3 harg3) K := by
  simp only [cc0__dequant_kernel_eq_skeleton]; unfold cc0__dequant_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The call's proof data -/

/-- Arrays as found; after the body each input buffer at its block and the output buffer at `out0_2` of the two
    blocks; the invariant is the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation at a point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The input buffers hold the point's blocks, so the body's run applies; the invariant and the core's debts pass
    through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Reg1.lean ====
/-
  The second dequantisation call (grid of 86 points, one per 128 rows of the [11008, 4096] weight matrix), at the
  buffer contents `V` the call is entered with.

  At point `t` the call reads rows `128 t … 128 t + 127` of the packed words (as [128, 32, 64]) and of the scales (as
  [128, 32, 2]) and stores one [128, 4096] block: the words' high nibbles times the first scale of their pair, then
  their low nibbles times the second, concatenated along the last axis and flattened. Nothing else is touched:
  the block a point leaves depends on that point's two input blocks only.
-/
import proofs.«424885_j32023276159510_1_alg».proof.Proof.Gen.Kernel.Launch
import proofs.«424885_j32023276159510_1_alg».proof.Proof.Gen.Kernel.Skeleton
import proofs.«424885_j32023276159510_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the call reads -/

/-- Window `w`'s block at point `t`, read off the array the call finds. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The packed words' staging buffer holds the point's block at every point: the window moves with the point and is
    fetched whenever it moves. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for the scales' staging buffer. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## What a point stores -/

/-- The whole [128, 32, 64] block of words, -/
abbrev rw1 : Rect S128x32x64 := Rect.unit (s := S128x32x64) ![0, 0, 0] S128x32x64.size inb_S128x32x64_S128x32x64_0_0_0
/-- the whole [128, 32, 2] block of scales, -/
abbrev rs1 : Rect S128x32x2 := Rect.unit (s := S128x32x2) ![0, 0, 0] S128x32x2.size inb_S128x32x2_S128x32x2_0_0_0
/-- and the whole [128, 4096] block of dequantised weights. -/
abbrev ro1 : Rect S128x4096 := Rect.unit (s := S128x4096) ![0, 0] S128x4096.size inb_S128x4096_S128x4096_0_0

/-- The output block after the body: its one store, of the dequantised values of the two input blocks. -/
def out1_2 (x0 : Vec F S128x32x64 .i32) (x1 : Vec F S128x32x2 .f32) : Vec F S128x4096 .bf16 :=
  View.canon [⟨ro1, k1_pay1 (View.ld x0 rw1) (View.ld x1 rs1)⟩]

/-- That store covers the block. -/
theorem cover1_2 (p0 : Vec F S128x4096 .bf16) (y : S128x4096.Idx) :
    ∃ pc ∈ ([⟨ro1, p0⟩] : List (View.Piece (Elt F) S128x4096 .bf16)), y ∈ pc.1.set :=
  View.cover_of_tiled [⟨ro1, p0⟩] S128x4096.size (by rfl) y

/-! ## The body's run -/

set_option maxHeartbeats 1000000 in
/-- On whole staging buffers, the inputs' at `x0`, `x1` and the output's at anything, the body runs to its end leaving
    the inputs as they were and the output at `out1_2 x0 x1`. -/
theorem sound_kernel1 (c : Dev nD) (E : Set ℕ) (i : grid1.Coords)
    (arg1 : Memref sig .tc .vmem S128x32x64 .i32) (harg1 : arg1.IsWhole) (arg2 : Memref sig .tc .vmem S128x32x2 .f32) (harg2 : arg2.IsWhole)
    (arg3 : Memref sig .tc .vmem S128x4096 .bf16) (harg3 : arg3.IsWhole)
    (x0 : Vec F S128x32x64 .i32) (x1 : Vec F S128x32x2 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__dequant_kernel i arg1 harg1 arg2 harg2 arg3 harg3) K := by
  simp only [cc1__dequant_kernel_eq_skeleton]; unfold cc1__dequant_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The call's proof data -/

/-- Arrays as found; after the body each input buffer at its block and the output buffer at `out1_2` of the two
    blocks; the invariant is the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation at a point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The input buffers hold the point's blocks, so the body's run applies; the invariant and the core's debts pass
    through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Reg2.lean ====
/-
  The third dequantisation call (grid of 32 points, one per 128 rows of the [4096, 11008] weight matrix), at the
  buffer contents `V` the call is entered with.

  At point `t` the call reads rows `128 t … 128 t + 127` of the packed words (as [128, 86, 64]) and of the scales (as
  [128, 86, 2]) and stores one [128, 11008] block: the words' high nibbles times the first scale of their pair, then
  their low nibbles times the second, concatenated along the last axis and flattened. Nothing else is touched:
  the block a point leaves depends on that point's two input blocks only.
-/
import proofs.«424885_j32023276159510_1_alg».proof.Proof.Gen.Kernel.Launch
import proofs.«424885_j32023276159510_1_alg».proof.Proof.Gen.Kernel.Skeleton
import proofs.«424885_j32023276159510_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the call reads -/

/-- Window `w`'s block at point `t`, read off the array the call finds. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The packed words' staging buffer holds the point's block at every point: the window moves with the point and is
    fetched whenever it moves. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The same for the scales' staging buffer. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## What a point stores -/

/-- The whole [128, 86, 64] block of words, -/
abbrev rw2 : Rect S128x86x64 := Rect.unit (s := S128x86x64) ![0, 0, 0] S128x86x64.size inb_S128x86x64_S128x86x64_0_0_0
/-- the whole [128, 86, 2] block of scales, -/
abbrev rs2 : Rect S128x86x2 := Rect.unit (s := S128x86x2) ![0, 0, 0] S128x86x2.size inb_S128x86x2_S128x86x2_0_0_0
/-- and the whole [128, 11008] block of dequantised weights. -/
abbrev ro2 : Rect S128x11008 := Rect.unit (s := S128x11008) ![0, 0] S128x11008.size inb_S128x11008_S128x11008_0_0

/-- The output block after the body: its one store, of the dequantised values of the two input blocks. -/
def out2_2 (x0 : Vec F S128x86x64 .i32) (x1 : Vec F S128x86x2 .f32) : Vec F S128x11008 .bf16 :=
  View.canon [⟨ro2, k2_pay1 (View.ld x0 rw2) (View.ld x1 rs2)⟩]

/-- That store covers the block. -/
theorem cover2_2 (p0 : Vec F S128x11008 .bf16) (y : S128x11008.Idx) :
    ∃ pc ∈ ([⟨ro2, p0⟩] : List (View.Piece (Elt F) S128x11008 .bf16)), y ∈ pc.1.set :=
  View.cover_of_tiled [⟨ro2, p0⟩] S128x11008.size (by rfl) y

/-! ## The body's run -/

set_option maxHeartbeats 1000000 in
/-- On whole staging buffers, the inputs' at `x0`, `x1` and the output's at anything, the body runs to its end leaving
    the inputs as they were and the output at `out2_2 x0 x1`. -/
theorem sound_kernel2 (c : Dev nD) (E : Set ℕ) (i : grid2.Coords)
    (arg1 : Memref sig .tc .vmem S128x86x64 .i32) (harg1 : arg1.IsWhole) (arg2 : Memref sig .tc .vmem S128x86x2 .f32) (harg2 : arg2.IsWhole)
    (arg3 : Memref sig .tc .vmem S128x11008 .bf16) (harg3 : arg3.IsWhole)
    (x0 : Vec F S128x86x64 .i32) (x1 : Vec F S128x86x2 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__dequant_kernel i arg1 harg1 arg2 harg2 arg3 harg3) K := by
  simp only [cc2__dequant_kernel_eq_skeleton]; unfold cc2__dequant_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The call's proof data -/

/-- Arrays as found; after the body each input buffer at its block and the output buffer at `out2_2` of the two
    blocks; the invariant is the scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation at a point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The input buffers hold the point's blocks, so the body's run applies; the invariant and the core's debts pass
    through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Reg3.lean ====
/-
  The gate call (grid 4 × 43: a block of 1024 input rows against a block of 256 hidden features), at the buffer
  contents `V` the call is entered with.

  At point `(i, j)` the call reads rows `1024 i …` of the [4096, 4096] input and rows `256 j …` of the two
  dequantised [11008, 4096] matrices, and stores one [1024, 256] block: `silu (x W1ᵀ) · (x W3ᵀ)` restricted to those
  rows and features. The input block is fetched only when `i` changes; its staging buffer still holds the block at
  every point. The block a point leaves depends on that point's three input blocks only.
-/
import proofs.«424885_j32023276159510_1_alg».proof.Proof.Gen.Kernel.Launch
import proofs.«424885_j32023276159510_1_alg».proof.Proof.Gen.Kernel.Skeleton
import proofs.«424885_j32023276159510_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the call reads -/

/-- Window `w`'s block at point `t`, read off the array the call finds. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The input rows' staging buffer holds the point's block at every point, fetched there or not: where it is not
    fetched the block index has not moved. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The same for the first weight matrix's staging buffer, -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- and for the second's. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## What a point stores -/

/-- The whole [1024, 4096] block of input rows, -/
abbrev rx3 : Rect S1024x4096 := Rect.unit (s := S1024x4096) ![0, 0] S1024x4096.size inb_S1024x4096_S1024x4096_0_0
/-- a whole [256, 4096] block of weight rows, -/
abbrev rm3 : Rect S256x4096 := Rect.unit (s := S256x4096) ![0, 0] S256x4096.size inb_S256x4096_S256x4096_0_0
/-- and the whole [1024, 256] block of gated activations. -/
abbrev ro3 : Rect S1024x256 := Rect.unit (s := S1024x256) ![0, 0] S1024x256.size inb_S1024x256_S1024x256_0_0

/-- The output block after the body: its one store, of the gated activations of the three input blocks. -/
def out3_3 (x0 : Vec F S1024x4096 .bf16) (x1 x2 : Vec F S256x4096 .bf16) : Vec F S1024x256 .bf16 :=
  View.canon [⟨ro3, k3_pay1 (View.ld x0 rx3) (View.ld x1 rm3) (View.ld x2 rm3)⟩]

/-- That store covers the block. -/
theorem cover3_3 (p0 : Vec F S1024x256 .bf16) (y : S1024x256.Idx) :
    ∃ pc ∈ ([⟨ro3, p0⟩] : List (View.Piece (Elt F) S1024x256 .bf16)), y ∈ pc.1.set :=
  View.cover_of_tiled [⟨ro3, p0⟩] S1024x256.size (by rfl) y

/-! ## The body's run -/

set_option maxHeartbeats 1000000 in
/-- On whole staging buffers, the inputs' at `x0`, `x1`, `x2` and the output's at anything, the body runs to its end
    leaving the inputs as they were and the output at `out3_3 x0 x1 x2`. -/
theorem sound_kernel3 (c : Dev nD) (E : Set ℕ) (i : grid3.Coords)
    (arg2 : Memref sig .tc .vmem S1024x4096 .bf16) (harg2 : arg2.IsWhole) (arg3 : Memref sig .tc .vmem S256x4096 .bf16) (harg3 : arg3.IsWhole)
    (arg4 : Memref sig .tc .vmem S256x4096 .bf16) (harg4 : arg4.IsWhole) (arg5 : Memref sig .tc .vmem S1024x256 .bf16) (harg5 : arg5.IsWhole)
    (x0 : Vec F S1024x4096 .bf16) (x1 x2 : Vec F S256x4096 .bf16) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out3_3 x0 x1 x2)) -∗ K ⟨⟩))
      ⊢ wp frame (wpE (defs₀ (F := F)) Variants.none c none) E (cc3__gate_kernel i arg2 harg2 arg3 harg3 arg4 harg4 arg5 harg5) K := by
  simp only [cc3__gate_kernel_eq_skeleton]; unfold cc3__gate_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-! ## The call's proof data -/

/-- Arrays as found; after the body each input buffer at its block and the output buffer at `out3_3` of the three
    blocks; the invariant is the scoped rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3_3 (iblk3 V c 0 t) (iblk3 V c 1 t) (iblk3 V c 2 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation at a point -/

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The input buffers hold the point's blocks, so the body's run applies; the invariant and the core's debts pass
    through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.K.Defs4.lean ====
import proofs.«424885_j32023276159510_1_alg».proof.Proof.Gen.Kernel.Launch
import proofs.«424885_j32023276159510_1_alg».proof.Proof.Gen.Kernel.Skeleton
import proofs.«424885_j32023276159510_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 4 (the down projection): the accumulator point by point, the invariant, the proof data

The grid is (i, j, k) with k innermost, 43 steps of k per output block. The kernel keeps a
1024×1024 accumulator in a scratch buffer: at k = 0 it is zeroed, at every k the product of the two
input blocks is added to it, and at k = 42 it is copied into the output window's buffer, which the
pipeline then writes back. So the accumulator after point n depends on the accumulator after point
n - 1 unless n is a multiple of 43. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The accumulator after the body at position `n`: at the first step of a run of 43 (n ≡ 0 mod 43)
    the product of the two blocks added to the zero block; at any other step the product added to
    the accumulator the step before left. -/
def acc4 (c : Dev nD) : (n : ℕ) → n < cfg4.N → Vec F S1024x1024 .f32
  | 0, hn => k4_pay2 (iblk4 V c 0 ⟨0, hn⟩) (iblk4 V c 1 ⟨0, hn⟩) (k4_pay1 (F := F))
  | n + 1, hn =>
    if (n + 1) % 43 = 0 then
      k4_pay2 (iblk4 V c 0 ⟨n + 1, hn⟩) (iblk4 V c 1 ⟨n + 1, hn⟩) (k4_pay1 (F := F))
    else
      k4_pay2 (iblk4 V c 0 ⟨n + 1, hn⟩) (iblk4 V c 1 ⟨n + 1, hn⟩) (acc4 c n (Nat.lt_of_succ_lt hn))

/-- At the first step of a run the accumulator restarts from the zero block. -/
theorem acc4_reset (c : Dev nD) (t : Fin cfg4.N) (h : t.val % 43 = 0) :
    acc4 V c t.val t.isLt = k4_pay2 (iblk4 V c 0 t) (iblk4 V c 1 t) (k4_pay1 (F := F)) := by
  obtain ⟨n, hn⟩ := t
  cases n with
  | zero => rfl
  | succ n => exact if_pos h

/-- At any other step it continues from what the step before left. -/
theorem acc4_step (c : Dev nD) (t : Fin cfg4.N) (h : ¬ t.val % 43 = 0) :
    acc4 V c t.val t.isLt = k4_pay2 (iblk4 V c 0 t) (iblk4 V c 1 t) (acc4 V c (t.val - 1) (by omega)) := by
  obtain ⟨n, hn⟩ := t
  cases n with
  | zero => exact absurd (Nat.zero_mod _) h
  | succ n => exact (if_neg h).trans rfl

/-- The scratch accumulator as a memref: the whole scoped buffer the body is called with. -/
abbrev scM4 : Memref sig .tc .vmem S1024x1024 .f32 := Memref.whole cc4_scratch0

/-- The region invariant before position `n`. Before the first point: every scoped buffer that is no
    staging buffer at some contents, the generator register at some state. Afterwards the same with
    the accumulator named: it holds what the point before left in it. -/
def PhiS4 (c : Dev nD) : (n : ℕ) → n ≤ cfg4.N → sProp 𝕄
  | 0, _ => Pipeline.ΦA spec4 c
  | n + 1, hn => iprop(iprop(owns (c : Thread nD τ) scM4 fullShare (acc4 V c n hn)
      ∗ Pipeline.scopedRestBut (Ix := Unit) (Name := ℕ) (U := UR sig nD τ) (Lvl := ℕ) (Val := Elt F) spec4 c [cc4_scratch0])
      ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(owns (c : Thread nD τ) scM4 fullShare (acc4 V c n hn)
      ∗ Pipeline.scopedRestBut (Ix := Unit) (Name := ℕ) (U := UR sig nD τ) (Lvl := ℕ) (Val := Elt F) spec4 c [cc4_scratch0])
      ∗ (∃ r, prngReg c r)) := rfl

theorem PhiS4_pos (c : Dev nD) (n : ℕ) (h : n ≤ cfg4.N) (hz : n ≠ 0) :
    PhiS4 V c n h = iprop(iprop(owns (c : Thread nD τ) scM4 fullShare (acc4 V c (n - 1) (by omega))
      ∗ Pipeline.scopedRestBut (Ix := Unit) (Name := ℕ) (U := UR sig nD τ) (Lvl := ℕ) (Val := Elt F) spec4 c [cc4_scratch0])
      ∗ (∃ r, prngReg c r)) := by
  cases n with
  | zero => exact absurd rfl hz
  | succ n => rfl

/-- The proof data of the pipeline on core `c`: the arrays as the region finds them; after the body
    each input's buffer at its block, the output's buffer at the accumulator (consulted only at the
    last step of a run, where the body copies the accumulator into it); the invariant above; nothing
    owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => acc4 V c t.val t.isLt
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = acc4 V c t.val t.isLt := by dsimp only [dat4]

/-- The invariant at a point's start, restated at the point's position. -/
theorem PhiS4_castSucc (c : Dev nD) (t : Fin cfg4.N) :
    (dat4 V c).Φ t.castSucc = PhiS4 V c t.val (Nat.le_of_lt t.isLt) := by
  dsimp only [dat4]; simp only [Fin.coe_castSucc]

theorem owed4 (c : Dev nD) (t : Fin (cfg4.N + 1)) : (dat4 V c).owed t = 0 := rfl
theorem share4 (c : Dev nD) (w : Fin cfg4.W) : (dat4 V c).q w = fullShare := rfl

end Cert.Kernel.Hand

end
-- ==== Proof.K.Fold.lean ====
/-
  The buffer contents between the items of the program's main function, from the launch to the return.

  Main is: two reshapes, dequantise (call 0); two reshapes, dequantise (call 1); two reshapes, dequantise (call 2);
  a reshape and a change of format, the gate call (3), the down projection (4); a last reshape. A stretch of host
  operations maps the contents by the operations' own fold; a call changes only its windows' arrays, each to what
  its write-backs leave. `WJ` is the contents after item `J - 1`; `UJ` the same read at a core's own references,
  which is what a call's proof data take.
-/
import proofs.«424885_j32023276159510_1_alg».proof.Proof.K.Reg0
import proofs.«424885_j32023276159510_1_alg».proof.Proof.K.Reg1
import proofs.«424885_j32023276159510_1_alg».proof.Proof.K.Reg2
import proofs.«424885_j32023276159510_1_alg».proof.Proof.K.Reg3
import proofs.«424885_j32023276159510_1_alg».proof.Proof.K.Defs4
import proofs.«424885_j32023276159510_1_alg».proof.Proof.Gen.Kernel.Regions

set_option maxRecDepth 16384

noncomputable section

namespace Cert.Kernel.Hand

open Cert.Kernel Cert.Kernel.Gen
open Idealize.ShloMosaic Idealize.ShloMosaic.TcCoe
open Idealize.SL Idealize.SL.Sem
open Idealize.ShloMosaic.Pipeline (Dat)

variable {F : FTy → Type} [FloatOps F]

variable (m : (ℓ : Loc nD τ sig) → Buf (Elt F) ℓ)

/-- Core `c`'s buffers at launch. -/
abbrev W0 : Dev nD → Valuation τ sig (Elt F) := fun c b => m ((c : Dev nD), b)
/-- After the host stretch `hostOps0`. -/
abbrev W1 : Dev nD → Valuation τ sig (Elt F) := fun c => StableHlo.after hostOps0 (W0 m c)
abbrev U1 : (c : Dev nD) → (b : Ref sig .tc) → Buf (Elt F) ((c : Thread nD τ).loc b) := fun c b => W1 m c b
/-- After call 0: its arrays at what its write-backs leave, every other buffer as the call found it. -/
def W2 (c : Dev nD) : Valuation τ sig (Elt F) :=
  Pipeline.withArrays spec0 c (W1 m c) fun w => (dat0 (U1 m) c).arrAt w cfg0.N
theorem W2_arr (c : Dev nD) (w : Fin cfg0.W) :
    W2 m c (Proc.devRef .tc (Pipeline.arrRef spec0 w)) = (dat0 (U1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev U2 : (c : Dev nD) → (b : Ref sig .tc) → Buf (Elt F) ((c : Thread nD τ).loc b) := fun c b => W2 m c b
theorem hF0 (c : Dev nD) (w : Fin cfg0.W) : (dat0 (U1 m) c).arrAt w cfg0.N = U2 m c (Pipeline.arrRef spec0 w) :=
  (W2_arr m c w).symm
theorem hrest0 (c : Dev nD) : ∀ b, b ∉ Finset.univ.image (Pipeline.arrRef spec0) → U2 m c b = U1 m c b :=
  fun b hb => W2_of_ne m c b fun w e => hb (Finset.mem_image.mpr ⟨w, Finset.mem_univ _, e⟩)
/-- After the host stretch `hostOps1`. -/
abbrev W3 : Dev nD → Valuation τ sig (Elt F) := fun c => StableHlo.after hostOps1 (W2 m c)
abbrev U3 : (c : Dev nD) → (b : Ref sig .tc) → Buf (Elt F) ((c : Thread nD τ).loc b) := fun c b => W3 m c b
/-- After call 1: its arrays at what its write-backs leave, every other buffer as the call found it. -/
def W4 (c : Dev nD) : Valuation τ sig (Elt F) :=
  Pipeline.withArrays spec1 c (W3 m c) fun w => (dat1 (U3 m) c).arrAt w cfg1.N
theorem W4_arr (c : Dev nD) (w : Fin cfg1.W) :
    W4 m c (Proc.devRef .tc (Pipeline.arrRef spec1 w)) = (dat1 (U3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev U4 : (c : Dev nD) → (b : Ref sig .tc) → Buf (Elt F) ((c : Thread nD τ).loc b) := fun c b => W4 m c b
theorem hF1 (c : Dev nD) (w : Fin cfg1.W) : (dat1 (U3 m) c).arrAt w cfg1.N = U4 m c (Pipeline.arrRef spec1 w) :=
  (W4_arr m c w).symm
theorem hrest1 (c : Dev nD) : ∀ b, b ∉ Finset.univ.image (Pipeline.arrRef spec1) → U4 m c b = U3 m c b :=
  fun b hb => W4_of_ne m c b fun w e => hb (Finset.mem_image.mpr ⟨w, Finset.mem_univ _, e⟩)
/-- After the host stretch `hostOps2`. -/
abbrev W5 : Dev nD → Valuation τ sig (Elt F) := fun c => StableHlo.after hostOps2 (W4 m c)
abbrev U5 : (c : Dev nD) → (b : Ref sig .tc) → Buf (Elt F) ((c : Thread nD τ).loc b) := fun c b => W5 m c b
/-- After call 2: its arrays at what its write-backs leave, every other buffer as the call found it. -/
def W6 (c : Dev nD) : Valuation τ sig (Elt F) :=
  Pipeline.withArrays spec2 c (W5 m c) fun w => (dat2 (U5 m) c).arrAt w cfg2.N
theorem W6_arr (c : Dev nD) (w : Fin cfg2.W) :
    W6 m c (Proc.devRef .tc (Pipeline.arrRef spec2 w)) = (dat2 (U5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev U6 : (c : Dev nD) → (b : Ref sig .tc) → Buf (Elt F) ((c : Thread nD τ).loc b) := fun c b => W6 m c b
theorem hF2 (c : Dev nD) (w : Fin cfg2.W) : (dat2 (U5 m) c).arrAt w cfg2.N = U6 m c (Pipeline.arrRef spec2 w) :=
  (W6_arr m c w).symm
theorem hrest2 (c : Dev nD) : ∀ b, b ∉ Finset.univ.image (Pipeline.arrRef spec2) → U6 m c b = U5 m c b :=
  fun b hb => W6_of_ne m c b fun w e => hb (Finset.mem_image.mpr ⟨w, Finset.mem_univ _, e⟩)
/-- After the host stretch `hostOps3`. -/
abbrev W7 : Dev nD → Valuation τ sig (Elt F) := fun c => StableHlo.after hostOps3 (W6 m c)
abbrev U7 : (c : Dev nD) → (b : Ref sig .tc) → Buf (Elt F) ((c : Thread nD τ).loc b) := fun c b => W7 m c b
/-- After call 3: its arrays at what its write-backs leave, every other buffer as the call found it. -/
def W8 (c : Dev nD) : Valuation τ sig (Elt F) :=
  Pipeline.withArrays spec3 c (W7 m c) fun w => (dat3 (U7 m) c).arrAt w cfg3.N
theorem W8_arr (c : Dev nD) (w : Fin cfg3.W) :
    W8 m c (Proc.devRef .tc (Pipeline.arrRef spec3 w)) = (dat3 (U7 m) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m c (Proc.devRef .tc b) = W7 m c (Proc.devRef .tc b) := by
  unfold W8; exact Pipeline.withArrays_of_ne spec3 c _ _ b hb
abbrev U8 : (c : Dev nD) → (b : Ref sig .tc) → Buf (Elt F) ((c : Thread nD τ).loc b) := fun c b => W8 m c b
theorem hF3 (c : Dev nD) (w : Fin cfg3.W) : (dat3 (U7 m) c).arrAt w cfg3.N = U8 m c (Pipeline.arrRef spec3 w) :=
  (W8_arr m c w).symm
theorem hrest3 (c : Dev nD) : ∀ b, b ∉ Finset.univ.image (Pipeline.arrRef spec3) → U8 m c b = U7 m c b :=
  fun b hb => W8_of_ne m c b fun w e => hb (Finset.mem_image.mpr ⟨w, Finset.mem_univ _, e⟩)
/-- After call 4: its arrays at what its write-backs leave, every other buffer as the call found it. -/
def W9 (c : Dev nD) : Valuation τ sig (Elt F) :=
  Pipeline.withArrays spec4 c (W8 m c) fun w => (dat4 (U8 m) c).arrAt w cfg4.N
theorem W9_arr (c : Dev nD) (w : Fin cfg4.W) :
    W9 m c (Proc.devRef .tc (Pipeline.arrRef spec4 w)) = (dat4 (U8 m) c).arrAt w cfg4.N := by
  unfold W9; exact Pipeline.withArrays_arr spec4 launch4.win.arr_inj c _ _ w
theorem W9_of_ne (c : Dev nD) (b : Ref sig .tc) (hb : ∀ w, Pipeline.arrRef spec4 w ≠ b) :
    W9 m c (Proc.devRef .tc b) = W8 m c (Proc.devRef .tc b) := by
  unfold W9; exact Pipeline.withArrays_of_ne spec4 c _ _ b hb
abbrev U9 : (c : Dev nD) → (b : Ref sig .tc) → Buf (Elt F) ((c : Thread nD τ).loc b) := fun c b => W9 m c b
theorem hF4 (c : Dev nD) (w : Fin cfg4.W) : (dat4 (U8 m) c).arrAt w cfg4.N = U9 m c (Pipeline.arrRef spec4 w) :=
  (W9_arr m c w).symm
theorem hrest4 (c : Dev nD) : ∀ b, b ∉ Finset.univ.image (Pipeline.arrRef spec4) → U9 m c b = U8 m c b :=
  fun b hb => W9_of_ne m c b fun w e => hb (Finset.mem_image.mpr ⟨w, Finset.mem_univ _, e⟩)
/-- After the host stretch `hostOps5`. -/
abbrev W10 : Dev nD → Valuation τ sig (Elt F) := fun c => StableHlo.after hostOps5 (W9 m c)
abbrev U10 : (c : Dev nD) → (b : Ref sig .tc) → Buf (Elt F) ((c : Thread nD τ).loc b) := fun c b => W10 m c b

/-- A host stretch leaves every buffer it does not write as it found it. -/
theorem W1_keep (c : Dev nD) (r : Ref sig .tc) (h : r ∉ hostOps0_W) : W1 m c r = W0 m c r :=
  StableHlo.after_of_writes_sub hostOps0 _ hostOps0_writes h
theorem W3_keep (c : Dev nD) (r : Ref sig .tc) (h : r ∉ hostOps1_W) : W3 m c r = W2 m c r :=
  StableHlo.after_of_writes_sub hostOps1 _ hostOps1_writes h
theorem W5_keep (c : Dev nD) (r : Ref sig .tc) (h : r ∉ hostOps2_W) : W5 m c r = W4 m c r :=
  StableHlo.after_of_writes_sub hostOps2 _ hostOps2_writes h
theorem W7_keep (c : Dev nD) (r : Ref sig .tc) (h : r ∉ hostOps3_W) : W7 m c r = W6 m c r :=
  StableHlo.after_of_writes_sub hostOps3 _ hostOps3_writes h
theorem W10_keep (c : Dev nD) (r : Ref sig .tc) (h : r ∉ hostOps5_W) : W10 m c r = W9 m c r :=
  StableHlo.after_of_writes_sub hostOps5 _ hostOps5_writes h

end Cert.Kernel.Hand

end
-- ==== Proof.K.Reg4.lean ====
import proofs.«424885_j32023276159510_1_alg».proof.Proof.K.Defs4
import Idealize.ShloMosaic.Lib.Pipeline.Value

/-! # Region 4 (the down projection): the body at every point

Three control cases per point, by the innermost grid coordinate k: at k = 0 the accumulator is
zeroed before the product is added; at 0 < k < 42 the product is added to what the step before
left; at k = 42 the same, and the accumulator is then copied into the output window's buffer.
Each case is run once on symbolic whole memrefs; the body obligation picks the case from the
point's position modulo 43. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body's branch conditions -/

/-- The first conditional's test, from the grid coordinates: k = 0. -/
abbrev cond4_0 (i : grid4.Coords) : Prop := (Scalar.cmpi .ne (Scalar.extui (Scalar.cmpi .eq (BitVec.ofNat 32 (i 2).val) 0#32)) 0#32) = 1#1
/-- It holds at the positions ≡ 0 (mod 43). -/
theorem hcond4_0 : ∀ t : Fin cfg4.N, cond4_0 (grid4.coords t) ↔ t.val % 43 = 0 :=
  (by decide +kernel : ∀ t : Fin grid4.N, cond4_0 (grid4.coords t) ↔ t.val % 43 = 0)

/-- The second conditional's test: k = 42. -/
abbrev cond4_1 (i : grid4.Coords) : Prop := k4_cond2 i = 1#1
/-- It holds at the positions ≡ 42 (mod 43). -/
theorem hcond4_1 : ∀ t : Fin cfg4.N, cond4_1 (grid4.coords t) ↔ t.val % 43 = 42 :=
  (by decide +kernel : ∀ t : Fin grid4.N, cond4_1 (grid4.coords t) ↔ t.val % 43 = 42)

/-! ## Where the windows are idle -/

theorem liveAt4_0 : ∀ t : Fin cfg4.N, cfg4.idle 0 (grid4.coords t) = false := fun _ => rfl
theorem liveAt4_1 : ∀ t : Fin cfg4.N, cfg4.idle 1 (grid4.coords t) = false := fun _ => rfl
/-- Away from k = 42 the output window is idle: the body stores nothing into it, -/
theorem idleAt4_2 : ∀ t : Fin cfg4.N, ¬cond4_1 (grid4.coords t) → cfg4.idle 2 (grid4.coords t) = true := by decide +kernel
/-- and the pipeline does not write it back. -/
theorem noFlush4_2 : ∀ t : Fin cfg4.N, ¬cond4_1 (grid4.coords t) → (cfg4.win 2).flush t = false := by decide +kernel
/-- At k = 42 it is live. -/
theorem liveAt4_2 : ∀ t : Fin cfg4.N, cond4_1 (grid4.coords t) → cfg4.idle 2 (grid4.coords t) = false := by decide +kernel

/-! ## Whole-buffer accesses -/

/-- The zero offsets, as a constant function. -/
theorem off4 : (![0, 0] : Fin 2 → ℕ) = fun _ => 0 := funext fun a => by fin_cases a <;> rfl

/-- A load of the whole 1024×256 buffer reads its contents. -/
theorem ldA4 {sp : Space} (v : View sig .tc sp S1024x256 .bf16) (f : v.ty.Contents (Elt F)) :
    View.readAt (Elt F) v (Rect.unit (s := S1024x256) ![0, 0] S1024x256.size inb_S1024x256_S1024x256_0_0).toLoadRect f = v.read (Elt F) f := by
  rw [View.readAt_eq_ld, View.ld_unit_zero (S := S1024x256) off4]

/-- A load of the whole 1024×1024 buffer reads its contents. -/
theorem ldB4 {sp : Space} (v : View sig .tc sp S1024x1024 .f32) (f : v.ty.Contents (Elt F)) :
    View.readAt (Elt F) v (Rect.unit (s := S1024x1024) ![0, 0] S1024x1024.size inb_S1024x1024_S1024x1024_0_0).toLoadRect f = v.read (Elt F) f := by
  rw [View.readAt_eq_ld, View.ld_unit_zero (S := S1024x1024) off4]

/-- After stores the last of which fills the whole 1024×1024 buffer, the buffer reads as that store's payload. -/
theorem stB4 {sp : Space} (v : View sig .tc sp S1024x1024 .f32) (f : v.ty.Contents (Elt F)) (w : Vec F S1024x1024 .f32)
    (L : List (View.Piece (Elt F) S1024x1024 .f32)) :
    v.read (Elt F) (v.writes (Elt F) f (⟨Rect.unit (s := S1024x1024) ![0, 0] S1024x1024.size inb_S1024x1024_S1024x1024_0_0, w⟩ :: L)) = w := by
  have hcov : ∀ y : S1024x1024.Idx, ∃ p ∈ ((⟨Rect.unit (s := S1024x1024) ![0, 0] S1024x1024.size inb_S1024x1024_S1024x1024_0_0, w⟩ : View.Piece (Elt F) S1024x1024 .f32) :: L), y ∈ p.1.set :=
    fun y => ⟨(⟨Rect.unit (s := S1024x1024) ![0, 0] S1024x1024.size inb_S1024x1024_S1024x1024_0_0, w⟩ : View.Piece (Elt F) S1024x1024 .f32), List.mem_cons_self,
      View.mem_set_unit_zero (S := S1024x1024) off4 inb_S1024x1024_S1024x1024_0_0 y⟩
  rw [View.read_writes_eq_canon v f _ hcov, View.canon_cons_unit_zero (S := S1024x1024) off4]

/-- A load of the whole buffer after one store that filled it reads the payload. -/
theorem rcB4 {sp : Space} (v : View sig .tc sp S1024x1024 .f32) (w : Vec F S1024x1024 .f32) :
    v.readCov [(⟨Rect.unit (s := S1024x1024) ![0, 0] S1024x1024.size inb_S1024x1024_S1024x1024_0_0, w⟩ : View.Piece (Elt F) S1024x1024 .f32)]
      (Rect.unit (s := S1024x1024) ![0, 0] S1024x1024.size inb_S1024x1024_S1024x1024_0_0).toLoadRect = w :=
  View.readCov_unit_zero (S := S1024x1024) v off4 _ w

/-! ## The body, case by case, on symbolic whole memrefs -/

set_option maxHeartbeats 1000000 in
/-- k = 0: the accumulator, whatever it held, ends at the product added to the zero block; the inputs
    and the output window's buffer are handed back as found. -/
theorem run4_A (c : Dev nD) (i : grid4.Coords) (arg3 : Memref sig .tc .vmem S1024x256 .bf16) (harg3 : arg3.IsWhole) (arg4 : Memref sig .tc .vmem S1024x256 .bf16) (harg4 : arg4.IsWhole) (arg5 : Memref sig .tc .vmem S1024x1024 .f32) (harg5 : arg5.IsWhole) (arg6 : Memref sig .tc .vmem S1024x1024 .f32) (harg6 : arg6.IsWhole)
    (hc0 : cond4_0 i) (hc1 : ¬cond4_1 i)
    (x0 : Vec F S1024x256 .bf16) (x1 : Vec F S1024x256 .bf16) (xi2 : Vec F S1024x1024 .f32) (E : Set ℕ) (K : PUnit → sProp 𝕄) :
    iprop(owns (c : Thread nD τ) arg3 fullShare x0 ∗ owns (c : Thread nD τ) arg4 fullShare x1 ∗ owns (c : Thread nD τ) arg5 fullShare xi2
        ∗ (∃ d, owns (c : Thread nD τ) arg6 fullShare d)
        ∗ (iprop(owns (c : Thread nD τ) arg3 fullShare x0 ∗ owns (c : Thread nD τ) arg4 fullShare x1 ∗ owns (c : Thread nD τ) arg5 fullShare xi2
            ∗ owns (c : Thread nD τ) arg6 fullShare (k4_pay2 x0 x1 (k4_pay1 (F := F)))) -∗ K ⟨⟩))
      ⊢ wp frame (wpE (defs₀ (F := F)) Variants.none c none) E (cc4__down_kernel i arg3 harg3 arg4 harg4 arg5 harg5 arg6 harg6) K := by
  simp only [cc4__down_kernel_eq_skeleton]; unfold cc4__down_kernel_skel
  unfold owns
  iintro ⟨⟨%f0, %hf0, H0⟩, ⟨%f1, %hf1, H1⟩, ⟨%f2, %hf2, H2⟩, ⟨%ds, %fs, -, HS⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  sl_unfold_run_names
  rw [stB4, ldA4, ldA4, rcB4]

set_option maxHeartbeats 1000000 in
/-- 0 < k < 42: the accumulator at `xs` ends at the product added to `xs`. -/
theorem run4_B (c : Dev nD) (i : grid4.Coords) (arg3 : Memref sig .tc .vmem S1024x256 .bf16) (harg3 : arg3.IsWhole) (arg4 : Memref sig .tc .vmem S1024x256 .bf16) (harg4 : arg4.IsWhole) (arg5 : Memref sig .tc .vmem S1024x1024 .f32) (harg5 : arg5.IsWhole) (arg6 : Memref sig .tc .vmem S1024x1024 .f32) (harg6 : arg6.IsWhole)
    (hc0 : ¬cond4_0 i) (hc1 : ¬cond4_1 i)
    (x0 : Vec F S1024x256 .bf16) (x1 : Vec F S1024x256 .bf16) (xi2 : Vec F S1024x1024 .f32) (xs : Vec F S1024x1024 .f32) (E : Set ℕ) (K : PUnit → sProp 𝕄) :
    iprop(owns (c : Thread nD τ) arg3 fullShare x0 ∗ owns (c : Thread nD τ) arg4 fullShare x1 ∗ owns (c : Thread nD τ) arg5 fullShare xi2
        ∗ owns (c : Thread nD τ) arg6 fullShare xs
        ∗ (iprop(owns (c : Thread nD τ) arg3 fullShare x0 ∗ owns (c : Thread nD τ) arg4 fullShare x1 ∗ owns (c : Thread nD τ) arg5 fullShare xi2
            ∗ owns (c : Thread nD τ) arg6 fullShare (k4_pay2 x0 x1 xs)) -∗ K ⟨⟩))
      ⊢ wp frame (wpE (defs₀ (F := F)) Variants.none c none) E (cc4__down_kernel i arg3 harg3 arg4 harg4 arg5 harg5 arg6 harg6) K := by
  simp only [cc4__down_kernel_eq_skeleton]; unfold cc4__down_kernel_skel
  unfold owns
  iintro ⟨⟨%f0, %hf0, H0⟩, ⟨%f1, %hf1, H1⟩, ⟨%f2, %hf2, H2⟩, ⟨%fs, %hfs, HS⟩, Hk⟩
  subst hf0; subst hf1; subst hf2; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  sl_unfold_run_names
  rw [stB4, ldA4, ldA4, ldB4]

set_option maxHeartbeats 1000000 in
/-- k = 42: the accumulator at `xs` ends at the product added to `xs`, and so does the output window's
    buffer, whatever it held. -/
theorem run4_C (c : Dev nD) (i : grid4.Coords) (arg3 : Memref sig .tc .vmem S1024x256 .bf16) (harg3 : arg3.IsWhole) (arg4 : Memref sig .tc .vmem S1024x256 .bf16) (harg4 : arg4.IsWhole) (arg5 : Memref sig .tc .vmem S1024x1024 .f32) (harg5 : arg5.IsWhole) (arg6 : Memref sig .tc .vmem S1024x1024 .f32) (harg6 : arg6.IsWhole)
    (hc0 : ¬cond4_0 i) (hc1 : cond4_1 i)
    (x0 : Vec F S1024x256 .bf16) (x1 : Vec F S1024x256 .bf16) (xs : Vec F S1024x1024 .f32) (E : Set ℕ) (K : PUnit → sProp 𝕄) :
    iprop(owns (c : Thread nD τ) arg3 fullShare x0 ∗ owns (c : Thread nD τ) arg4 fullShare x1 ∗ (∃ d, owns (c : Thread nD τ) arg5 fullShare d)
        ∗ owns (c : Thread nD τ) arg6 fullShare xs
        ∗ (iprop(owns (c : Thread nD τ) arg3 fullShare x0 ∗ owns (c : Thread nD τ) arg4 fullShare x1
            ∗ owns (c : Thread nD τ) arg5 fullShare (k4_pay2 x0 x1 xs)
            ∗ owns (c : Thread nD τ) arg6 fullShare (k4_pay2 x0 x1 xs)) -∗ K ⟨⟩))
      ⊢ wp frame (wpE (defs₀ (F := F)) Variants.none c none) E (cc4__down_kernel i arg3 harg3 arg4 harg4 arg5 harg5 arg6 harg6) K := by
  simp only [cc4__down_kernel_eq_skeleton]; unfold cc4__down_kernel_skel
  unfold owns
  iintro ⟨⟨%f0, %hf0, H0⟩, ⟨%f1, %hf1, H1⟩, ⟨%d2, %f2, -, H2⟩, ⟨%fs, %hfs, HS⟩, Hk⟩
  subst hf0; subst hf1; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_run_names
    rw [stB4, rcB4, ldA4, ldA4, ldB4]
  iexists _; isplitr
  swap; · iexact HS
  ipureintro
  sl_unfold_run_names
  rw [stB4, ldA4, ldA4, ldB4]

/-! ## The inputs' buffers at a point -/

/-- Input window 0's current staging buffer holds its block at every point, fetched there or not. -/
theorem before4_0 (c : Dev nD) (t : Fin cfg4.N) (d) : (dat4 V c).before 0 t d = iblk4 V c 0 t :=
  ((dat4 V c).before_in_eq_fetched 0 rfl (fun _ => rfl) (fun _ _ _ => rfl)
      (fun t => by rw [after4_0]; unfold Dat.blockOf iblk4; rw [A_eq4]; try rfl) t d).trans
    (by unfold Dat.fetched Dat.blockOf iblk4; rw [A_eq4]; try rfl)

/-- The same for input window 1. -/
theorem before4_1 (c : Dev nD) (t : Fin cfg4.N) (d) : (dat4 V c).before 1 t d = iblk4 V c 1 t :=
  ((dat4 V c).before_in_eq_fetched 1 rfl (fun _ => rfl) (fun _ _ _ => rfl)
      (fun t => by rw [after4_1]; unfold Dat.blockOf iblk4; rw [A_eq4]; try rfl) t d).trans
    (by unfold Dat.fetched Dat.blockOf iblk4; rw [A_eq4]; try rfl)

/-! ## The invariant, opened at the accumulator -/

/-- What the launch hands the region, with the accumulator split off the other scoped buffers. -/
theorem PhiA4_eq (c : Dev nD) :
    (Pipeline.ΦA spec4 c : sProp 𝕄)
      = iprop(iprop((∃ d, owns (c : Thread nD τ) scM4 fullShare d)
          ∗ Pipeline.scopedRestBut (Ix := Unit) (Name := ℕ) (U := UR sig nD τ) (Lvl := ℕ) (Val := Elt F) spec4 c [cc4_scratch0])
        ∗ (∃ r, prngReg c r)) := by
  unfold Pipeline.ΦA; rw [scopedRest4_split]; simp only [scM4, owns_whole]; try rfl

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t)

set_option maxHeartbeats 4800000 in
/-- The body at any point. The inputs' memrefs hold their blocks; the position modulo 43 says which
    case the point is in; the invariant hands the body the accumulator at what the point before left
    (at anything before the first point) and takes it back at this point's contents; away from
    k = 42 the output window's buffer is handed back as found, at k = 42 it ends at the accumulator. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).owesAt () t.succ = (dat4 V c).owesAt () t.castSucc from rfl]
  rw [show (dat4 V c).Φ t.succ = PhiS4 V c (t.val + 1) t.isLt from rfl, PhiS4_succ]
  have hN : t.val < 688 := lt_of_lt_of_eq t.isLt (show cfg4.N = 688 from N_4)
  rw [show (dat4 V c).leavesExact 0 t = owns (c : Thread nD τ) (st4_0 t) fullShare ((dat4 V c).after 0 t) from by
    unfold Dat.leavesExact; rw [liveAt4_0 t], after4_0]
  rw [show (dat4 V c).leavesExact 1 t = owns (c : Thread nD τ) (st4_1 t) fullShare ((dat4 V c).after 1 t) from by
    unfold Dat.leavesExact; rw [liveAt4_1 t], after4_1]
  by_cases h0 : t.val % 43 = 0
  · have h1 : ¬t.val % 43 = 42 := by omega
    rw [Dat.leavesExact_idle (dat4 V c) 2 t (idleAt4_2 t (fun h => h1 ((hcond4_1 t).mp h))) (noFlush4_2 t (fun h => h1 ((hcond4_1 t).mp h)))]
    rw [acc4_reset V c t h0]
    by_cases hz : t.val = 0
    · rw [PhiS4_castSucc V c t, PhiS4_zero V c _ _ hz, PhiA4_eq]
      iintro ⟨⟨⟨HS, HR⟩, Hg⟩, Ho, ⟨%d0, H0⟩, ⟨%d1, H1⟩, ⟨%d2, H2⟩⟩
      iapply (run4_A c (grid4.coords t) _ _ _ _ _ _ _ _ ((hcond4_0 t).mpr h0) (fun h => h1 ((hcond4_1 t).mp h)) (iblk4 V c 0 t) (iblk4 V c 1 t) _ Set.univ _)
      isplitl [H0]; · iexact H0
      isplitl [H1]; · iexact H1
      isplitl [H2]; · iexact H2
      isplitl [HS]; · iexact HS
      iintro ⟨H0, H1, H2, HS⟩
      isplitl [HS HR Hg]
      · isplitr [Hg]
        · isplitl [HS]; · iexact HS
          iexact HR
        iexact Hg
      isplitl [Ho]; · iexact Ho
      isplitl [H0]; · iexact H0
      isplitl [H1]; · iexact H1
      iexists _; iexact H2
    · rw [PhiS4_castSucc V c t, PhiS4_pos V c _ _ hz]
      iintro ⟨⟨⟨HS, HR⟩, Hg⟩, Ho, ⟨%d0, H0⟩, ⟨%d1, H1⟩, ⟨%d2, H2⟩⟩
      iapply (run4_A c (grid4.coords t) _ _ _ _ _ _ _ _ ((hcond4_0 t).mpr h0) (fun h => h1 ((hcond4_1 t).mp h)) (iblk4 V c 0 t) (iblk4 V c 1 t) _ Set.univ _)
      isplitl [H0]; · iexact H0
      isplitl [H1]; · iexact H1
      isplitl [H2]; · iexact H2
      isplitl [HS]; · iexists _; iexact HS
      iintro ⟨H0, H1, H2, HS⟩
      isplitl [HS HR Hg]
      · isplitr [Hg]
        · isplitl [HS]; · iexact HS
          iexact HR
        iexact Hg
      isplitl [Ho]; · iexact Ho
      isplitl [H0]; · iexact H0
      isplitl [H1]; · iexact H1
      iexists _; iexact H2
  · have hz : t.val ≠ 0 := fun h => h0 (by rw [h])
    rw [acc4_step V c t h0]
    rw [PhiS4_castSucc V c t, PhiS4_pos V c _ _ hz]
    by_cases h1 : t.val % 43 = 42
    · rw [show (dat4 V c).leavesExact 2 t = owns (c : Thread nD τ) (st4_2 t) fullShare ((dat4 V c).after 2 t) from by
        unfold Dat.leavesExact; rw [liveAt4_2 t ((hcond4_1 t).mpr h1)], after4_2, acc4_step V c t h0]
      iintro ⟨⟨⟨HS, HR⟩, Hg⟩, Ho, ⟨%d0, H0⟩, ⟨%d1, H1⟩, ⟨%d2, H2⟩⟩
      iapply (run4_C c (grid4.coords t) _ _ _ _ _ _ _ _ (fun h => h0 ((hcond4_0 t).mp h)) ((hcond4_1 t).mpr h1) (iblk4 V c 0 t) (iblk4 V c 1 t) _ Set.univ _)
      isplitl [H0]; · iexact H0
      isplitl [H1]; · iexact H1
      isplitl [H2]; · iexists _; iexact H2
      isplitl [HS]; · iexact HS
      iintro ⟨H0, H1, H2, HS⟩
      isplitl [HS HR Hg]
      · isplitr [Hg]
        · isplitl [HS]; · iexact HS
          iexact HR
        iexact Hg
      isplitl [Ho]; · iexact Ho
      isplitl [H0]; · iexact H0
      isplitl [H1]; · iexact H1
      iexact H2
    · rw [Dat.leavesExact_idle (dat4 V c) 2 t (idleAt4_2 t (fun h => h1 ((hcond4_1 t).mp h))) (noFlush4_2 t (fun h => h1 ((hcond4_1 t).mp h)))]
      iintro ⟨⟨⟨HS, HR⟩, Hg⟩, Ho, ⟨%d0, H0⟩, ⟨%d1, H1⟩, ⟨%d2, H2⟩⟩
      iapply (run4_B c (grid4.coords t) _ _ _ _ _ _ _ _ (fun h => h0 ((hcond4_0 t).mp h)) (fun h => h1 ((hcond4_1 t).mp h)) (iblk4 V c 0 t) (iblk4 V c 1 t) _ _ Set.univ _)
      isplitl [H0]; · iexact H0
      isplitl [H1]; · iexact H1
      isplitl [H2]; · iexact H2
      isplitl [HS]; · iexact HS
      iintro ⟨H0, H1, H2, HS⟩
      isplitl [HS HR Hg]
      · isplitr [Hg]
        · isplitl [HS]; · iexact HS
          iexact HR
        iexact Hg
      isplitl [Ho]; · iexact Ho
      isplitl [H0]; · iexact H0
      isplitl [H1]; · iexact H1
      iexists _; iexact H2

/-- The library's body obligation, at every point. -/
theorem body_obligation4 (c : Dev nD) : BodyObligation (dat4 (F := F) V c) (defs₀ (F := F)) Variants.none () Set.univ := fun t => by
  rw [bigSep_W4, bigSep_W4]
  exact sound_body4 V c t

/-- What the launch hands the region is the invariant before the first point. -/
theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

/-- After any point the invariant gives the launch's back: the accumulator's contents are forgotten. -/
theorem Phi_out4 (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]
  iintro ⟨⟨HS, HR⟩, Hg⟩
  isplitr [Hg]
  · isplitl [HS]
    · iexists _; iexact HS
    iexact HR
  iexact Hg

/-- The same after the last point. -/
theorem hout4 (c : Dev nD) : (dat4 V c).Φ (Fin.last cfg4.N) ⊢ Pipeline.ΦA spec4 c :=
  Phi_out4 V c _ (by rw [Fin.val_last]; have : cfg4.N = 688 := N_4; omega)

end Cert.Kernel.Hand

end
-- ==== Proof.K.Run.lean ====
/-
  The program's main function as a list of segments — a host segment per stretch of host operations, a call segment
  per kernel call — and its launch: every weakly fair execution terminates, nothing faulting, and every final memory
  holds each unscoped buffer at the last contents of the fold (`W10`).

  Between two segments a core holds every unscoped buffer whole at the fold's contents there, its generator register
  at some state, and owes nothing. A call takes its windows' arrays out of those buffers, runs its schedule under
  the body obligation, and puts the arrays back at what its write-backs left.
-/
import proofs.«424885_j32023276159510_1_alg».proof.Proof.K.Fold
import proofs.«424885_j32023276159510_1_alg».proof.Proof.K.Reg4

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The proof data of the five calls and what rides between segments -/

/-- Each call's proof data at the contents the call is entered with. -/
def pdats : (p : Fin 5) → (c : Dev nD) → Dat τ (Elt F) Unit ℕ (UR sig nD τ) ℕ (Pipeline.pin (pcfgs (F := F)) adm p) c
  | ⟨0, _⟩ => fun c => dat0 (U1 m) c
  | ⟨1, _⟩ => fun c => dat1 (U3 m) c
  | ⟨2, _⟩ => fun c => dat2 (U5 m) c
  | ⟨3, _⟩ => fun c => dat3 (U7 m) c
  | ⟨4, _⟩ => fun c => dat4 (U8 m) c

abbrev 𝒱₀ : Variants := Variants.none
/-- No core owes another anything: no level is assigned. -/
abbrev L : GSem nD τ sig → Finset Unit := fun _ => ∅
abbrev lv : GSem nD τ sig → Unit → ℕ := fun _ _ => 0
/-- Beside the buffers: the core's generator register at some state, and its debts, none. -/
abbrev R (c : Dev nD) : sProp 𝕄 := iprop((∃ r, prngReg c r) ∗ ∃ W, owes (c : Thread nD τ) (0 : CellTallies nD τ sig Unit) W)

/-- A stretch of host operations as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- The last thread state without the debts: every unscoped buffer at `W10`, the generator register at some state. -/
abbrev Tlast (c : Dev nD) : sProp 𝕄 := iprop(StableHlo.held (c : Thread nD τ) (Pipeline.ucRefs τ sig) (W10 m c) ∗ ∃ r, prngReg c r)

/-- The class invariant of call 4 from the generator register and the scoped rest, whatever rides between, -/
theorem toΦA4 (c : Dev nD) (P : sProp 𝕄) :
    iprop((∃ r, prngReg c r) ∗ P ∗ Pipeline.scopedRest spec4 c) ⊢ (Pipeline.ΦA spec4 c : sProp 𝕄) := by
  unfold Pipeline.ΦA
  iintro ⟨Hp, -, Hr⟩
  isplitl [Hr]; · iexact Hr
  iexact Hp

/-- and back. -/
theorem ofΦA4 (c : Dev nD) :
    (Pipeline.ΦA spec4 c : sProp 𝕄) ⊢ iprop((∃ r, prngReg c r) ∗ BI.emp ∗ Pipeline.scopedRest spec4 c) := by
  unfold Pipeline.ΦA
  iintro ⟨Hr, Hp⟩
  isplitl [Hp]; · iexact Hp
  isplitr; · iempintro
  iexact Hr

/-! ## The calls as segments -/

set_option backward.isDefEq.respectTransparency.types false in
/-- Call 0 as a segment: entered with every unscoped buffer at `W1`, left with them at `W2`. Its arrays are split
    out of the unscoped buffers on entry and put back at their final contents on exit; the generator register goes
    into the call's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U1 m c) (U2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 as a segment: entered with every unscoped buffer at `W3`, left with them at `W4`. Its arrays are split
    out of the unscoped buffers on entry and put back at their final contents on exit; the generator register goes
    into the call's invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (U3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (U3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (U3 m c) (U4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 2 as a segment: entered with every unscoped buffer at `W5`, left with them at `W6`. Its arrays are split
    out of the unscoped buffers on entry and put back at their final contents on exit; the generator register goes
    into the call's invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (U5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (U5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (U5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (U5 m c) (U6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 3 as a segment: entered with every unscoped buffer at `W7`, left with them at `W8`. Its arrays are split
    out of the unscoped buffers on entry and put back at their final contents on exit; the generator register goes
    into the call's invariant and comes back; nothing is owed; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (U7 m) c).loose
  hwaits := Pipeline.hwaits_of_owed_zero _ _ _ _ L lv 3 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec3 c (U7 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (U7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (U7 m c) (U8 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 4 as a segment: entered with every unscoped buffer at `W8`, left with them at `W9`. Its arrays are split
    out of the unscoped buffers on entry and put back at their final contents on exit; the generator register goes
    into the call's invariant and comes back; nothing is owed; the kernel has no semaphore of its own. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (U8 m) c).loose
  hwaits := Pipeline.hwaits_of_owed_zero _ _ _ _ L lv 4 fun _ _ => rfl
  pre c := iprop(StableHlo.held (c : Thread nD τ) (Pipeline.ucRefs τ sig) (W8 m c) ∗ R c)
  post c := iprop(StableHlo.held (c : Thread nD τ) (Pipeline.ucRefs τ sig) (W9 m c) ∗ R c)
  X c := iprop(∃ r, prngReg c r)
  Y c := iprop(∃ r, prngReg c r)
  Z c := Pipeline.unscopedRest (Ix := Unit) (Name := ℕ) (U := UR sig nD τ) (Lvl := ℕ) spec4 c (U8 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (U8 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    exact (toΦA4 c _).trans (hin4 (U8 m) c)
  hout c := by
    rw [Pipeline.ownSems0_none]
    exact (hout4 (U8 m) c).trans (ofΦA4 c)
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (U8 m c) (U9 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Main as segments, and the launch -/

/-- Main's ten items in order. -/
abbrev mainSegs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)),
    .region (reg3 m),
    .region (reg4 m),
    .host (hseg hostOps5 hostOps5_sub hostOps5_fresh (W9 m)) ]

/-- Main is the run of those segments. -/
theorem main_run (c : Dev nD) : main (F := F) c = Pipeline.Seg.run (mainSegs m) := (main_chain c).trans (by chain_rfl)

set_option backward.isDefEq.respectTransparency.types false in
/-- From any memory with zero counters every weakly fair execution of main terminates, nothing faulting, and every
    final memory holds each unscoped buffer of each core at the fold's last contents. -/
theorem run_all (ρ : Dev nD → PrngReg) :
    θ_run defs (onTc (τ := τ) (main (F := F))) ⟨m, fun _ => 0, ρ⟩
      (fun r => ∀ c : Dev nD, ∀ b ∈ Pipeline.ucRefs τ sig, r.2.mem (((c : Thread nD τ)).1, b) = W10 m c b) :=
  Pipeline.θ_run_regions_kit (pcfgs (F := F)) adm (pdats m) () cellOf_inj emb₁ defs₀ 𝒱₀ L lv m ρ main (mainSegs m)
    (fun c Q => by rw [main_run m c])
    (by simp only [mainSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tlast m)
    (hch := ⟨fun _ => .rfl, fun _ => .rfl, fun _ => .rfl, fun _ => .rfl, fun _ => .rfl, fun _ => .rfl, fun _ => .rfl, fun _ => .rfl,
      fun _ => .rfl, fun _ => .rfl, fun c => by
        show iprop(StableHlo.held (c : Thread nD τ) (Pipeline.ucRefs τ sig) (W10 m c) ∗ R c) ⊢ _
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m c b)
    (hfin := fun c s' => by
      iintro ⟨⟨Hh, -⟩, HSI⟩
      unfold StableHlo.held
      imodintro
      iapply (pointsTo_read_all (Pipeline.ucRefs τ sig) (fun b => (((c : Thread nD τ)).1, b)) (W10 m c) s')
      isplitl [Hh] <;> iassumption)
    (hQ := fun s h c => h c)

/-- An unscoped reference of a core is among those the last thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.Kernel.Hand

end
-- ==== Proof.K.WalkArgs.lean ====
/-
  Every argument of the main function ends as launched.

  A buffer that no host stretch writes and that is no array of any call's windows is carried through every item
  unchanged: a host stretch keeps what it does not write, a call keeps what is not one of its arrays. The seven
  arguments are such buffers.
-/
import proofs.«424885_j32023276159510_1_alg».proof.Proof.K.Fold

set_option maxRecDepth 16384

noncomputable section

namespace Cert.Kernel.Hand

open Cert.Kernel Cert.Kernel.Gen
open Idealize.ShloMosaic Idealize.ShloMosaic.TcCoe
open Idealize.SL Idealize.SL.Sem
open Idealize.ShloMosaic.Pipeline (Dat)

variable {F : FTy → Type} [FloatOps F]

variable (m : (ℓ : Loc nD τ sig) → Buf (Elt F) ℓ)

/-! ## A buffer nothing touches, carried from the launch -/

/-- Through the first host stretch and call 0. -/
theorem W2_carried (c : Dev nD) (r : Ref sig .tc)
    (h0 : r ∉ hostOps0_W) (a0 : ∀ w, Pipeline.arrRef spec0 w ≠ r) :
    W2 m c r = m ((c : Thread nD τ).loc r) :=
  (W2_of_ne m c r a0).trans <| (W1_keep m c r h0).trans rfl

/-- On through the second host stretch and call 1. -/
theorem W4_carried (c : Dev nD) (r : Ref sig .tc)
    (h0 : r ∉ hostOps0_W) (a0 : ∀ w, Pipeline.arrRef spec0 w ≠ r)
    (h1 : r ∉ hostOps1_W) (a1 : ∀ w, Pipeline.arrRef spec1 w ≠ r) :
    W4 m c r = m ((c : Thread nD τ).loc r) :=
  (W4_of_ne m c r a1).trans <| (W3_keep m c r h1).trans <| W2_carried m c r h0 a0

/-- On through the third host stretch and call 2. -/
theorem W6_carried (c : Dev nD) (r : Ref sig .tc)
    (h0 : r ∉ hostOps0_W) (a0 : ∀ w, Pipeline.arrRef spec0 w ≠ r)
    (h1 : r ∉ hostOps1_W) (a1 : ∀ w, Pipeline.arrRef spec1 w ≠ r)
    (h2 : r ∉ hostOps2_W) (a2 : ∀ w, Pipeline.arrRef spec2 w ≠ r) :
    W6 m c r = m ((c : Thread nD τ).loc r) :=
  (W6_of_ne m c r a2).trans <| (W5_keep m c r h2).trans <| W4_carried m c r h0 a0 h1 a1

/-- On through the fourth host stretch, calls 3 and 4 and the last host stretch: to the return. -/
theorem W10_carried (c : Dev nD) (r : Ref sig .tc)
    (h0 : r ∉ hostOps0_W) (a0 : ∀ w, Pipeline.arrRef spec0 w ≠ r)
    (h1 : r ∉ hostOps1_W) (a1 : ∀ w, Pipeline.arrRef spec1 w ≠ r)
    (h2 : r ∉ hostOps2_W) (a2 : ∀ w, Pipeline.arrRef spec2 w ≠ r)
    (h3 : r ∉ hostOps3_W) (a3 : ∀ w, Pipeline.arrRef spec3 w ≠ r)
    (a4 : ∀ w, Pipeline.arrRef spec4 w ≠ r) (h5 : r ∉ hostOps5_W) :
    W10 m c r = m ((c : Thread nD τ).loc r) :=
  (W10_keep m c r h5).trans <| (W9_of_ne m c r a4).trans <| (W8_of_ne m c r a3).trans <|
    (W7_keep m c r h3).trans <| W6_carried m c r h0 a0 h1 a1 h2 a2

/-! ## The arguments -/

theorem W10_main_arg0 (c : Dev nD) : W10 m c main_arg0 = m ((c : Thread nD τ).loc main_arg0) :=
  W10_carried m c main_arg0 (by decide) (by decide) (by decide) (by decide) (by decide) (by decide)
    (by decide) (by decide) (by decide) (by decide)
theorem W10_main_arg1 (c : Dev nD) : W10 m c main_arg1 = m ((c : Thread nD τ).loc main_arg1) :=
  W10_carried m c main_arg1 (by decide) (by decide) (by decide) (by decide) (by decide) (by decide)
    (by decide) (by decide) (by decide) (by decide)
theorem W10_main_arg2 (c : Dev nD) : W10 m c main_arg2 = m ((c : Thread nD τ).loc main_arg2) :=
  W10_carried m c main_arg2 (by decide) (by decide) (by decide) (by decide) (by decide) (by decide)
    (by decide) (by decide) (by decide) (by decide)
theorem W10_main_arg3 (c : Dev nD) : W10 m c main_arg3 = m ((c : Thread nD τ).loc main_arg3) :=
  W10_carried m c main_arg3 (by decide) (by decide) (by decide) (by decide) (by decide) (by decide)
    (by decide) (by decide) (by decide) (by decide)
theorem W10_main_arg4 (c : Dev nD) : W10 m c main_arg4 = m ((c : Thread nD τ).loc main_arg4) :=
  W10_carried m c main_arg4 (by decide) (by decide) (by decide) (by decide) (by decide) (by decide)
    (by decide) (by decide) (by decide) (by decide)
theorem W10_main_arg5 (c : Dev nD) : W10 m c main_arg5 = m ((c : Thread nD τ).loc main_arg5) :=
  W10_carried m c main_arg5 (by decide) (by decide) (by decide) (by decide) (by decide) (by decide)
    (by decide) (by decide) (by decide) (by decide)
theorem W10_main_arg6 (c : Dev nD) : W10 m c main_arg6 = m ((c : Thread nD τ).loc main_arg6) :=
  W10_carried m c main_arg6 (by decide) (by decide) (by decide) (by decide) (by decide) (by decide)
    (by decide) (by decide) (by decide) (by decide)

end Cert.Kernel.Hand

end
-- ==== Proof.K.Frame.lean ====
/-
  What every run of the program ends with: the result buffer at the fold's last contents, and each of the seven
  argument arrays as launched — no host operation writes an argument and no call has one among its output arrays.
-/
import proofs.«424885_j32023276159510_1_alg».proof.Proof.K.Run
import proofs.«424885_j32023276159510_1_alg».proof.Proof.K.WalkArgs

noncomputable section

namespace Cert.Kernel.Hand

open Cert.Kernel Cert.Kernel.Gen
open Idealize.ShloMosaic Idealize.ShloMosaic.TcCoe
open Idealize.SL Idealize.SL.Sem

variable {F : FTy → Type} [FloatOps F]

variable (m : (ℓ : Loc nD τ sig) → Buf (Elt F) ℓ)

/-- Every weakly fair execution from `m` with zero counters terminates, nothing faulting, with the result buffer at
    `W10 m c main_v13` and the arguments unchanged. -/
theorem run_result (ρ : Dev nD → PrngReg) :
    θ_run defs (onTc (τ := τ) (main (F := F))) ⟨m, fun _ => 0, ρ⟩ (fun r => ∀ c : Dev nD,
      r.2.mem ((c.tc : Thread nD τ).loc main_v13) = W10 m c main_v13
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨h c _ (mem_uc main_v13 (by decide)),
      (h c _ (mem_uc main_arg0 (by decide))).trans (W10_main_arg0 m c),
      (h c _ (mem_uc main_arg1 (by decide))).trans (W10_main_arg1 m c),
      (h c _ (mem_uc main_arg2 (by decide))).trans (W10_main_arg2 m c),
      (h c _ (mem_uc main_arg3 (by decide))).trans (W10_main_arg3 m c),
      (h c _ (mem_uc main_arg4 (by decide))).trans (W10_main_arg4 m c),
      (h c _ (mem_uc main_arg5 (by decide))).trans (W10_main_arg5 m c),
      (h c _ (mem_uc main_arg6 (by decide))).trans (W10_main_arg6 m c)⟩) (run_all m ρ)

/-- The frame: the program runs to its end and its argument arrays end as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => (h c).2) (run_result m ρ)

end Cert.Kernel.Hand

end
-- ==== Proof.KI.Reg0.lean ====
/-
  The first dequantisation call (grid of 86 points, one per 128 rows of the [11008, 4096] weight matrix), at the
  buffer contents `V` the call is entered with.

  At point `t` the call reads rows `128 t … 128 t + 127` of the packed words (as [128, 32, 64]) and of the scales (as
  [128, 32, 2]) and stores one [128, 4096] block: the words' high nibbles times the first scale of their pair, then
  their low nibbles times the second, concatenated along the last axis and flattened. Nothing else is touched:
  the block a point leaves depends on that point's two input blocks only.
-/
import proofs.«424885_j32023276159510_1_alg».proof.Proof.Gen.KernelIdeal.Launch
import proofs.«424885_j32023276159510_1_alg».proof.Proof.Gen.KernelIdeal.Skeleton
import proofs.«424885_j32023276159510_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the call reads -/

/-- Window `w`'s block at point `t`, read off the array the call finds. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The packed words' staging buffer holds the point's block at every point: the window moves with the point and is
    fetched whenever it moves. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for the scales' staging buffer. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## What a point stores -/

/-- The whole [128, 32, 64] block of words, -/
abbrev rw0 : Rect S128x32x64 := Rect.unit (s := S128x32x64) ![0, 0, 0] S128x32x64.size inb_S128x32x64_S128x32x64_0_0_0
/-- the whole [128, 32, 2] block of scales, -/
abbrev rs0 : Rect S128x32x2 := Rect.unit (s := S128x32x2) ![0, 0, 0] S128x32x2.size inb_S128x32x2_S128x32x2_0_0_0
/-- and the whole [128, 4096] block of dequantised weights. -/
abbrev ro0 : Rect S128x4096 := Rect.unit (s := S128x4096) ![0, 0] S128x4096.size inb_S128x4096_S128x4096_0_0

/-- The output block after the body: its one store, of the dequantised values of the two input blocks. -/
def out0_2 (x0 : Vec F S128x32x64 .i32) (x1 : Vec F S128x32x2 .f32) : Vec F S128x4096 .bf16 :=
  View.canon [⟨ro0, k0_pay1 (View.ld x0 rw0) (View.ld x1 rs0)⟩]

/-- That store covers the block. -/
theorem cover0_2 (p0 : Vec F S128x4096 .bf16) (y : S128x4096.Idx) :
    ∃ pc ∈ ([⟨ro0, p0⟩] : List (View.Piece (Elt F) S128x4096 .bf16)), y ∈ pc.1.set :=
  View.cover_of_tiled [⟨ro0, p0⟩] S128x4096.size (by rfl) y

/-! ## The body's run -/

set_option maxHeartbeats 1000000 in
/-- On whole staging buffers, the inputs' at `x0`, `x1` and the output's at anything, the body runs to its end leaving
    the inputs as they were and the output at `out0_2 x0 x1`. -/
theorem sound_kernel0 (c : Dev nD) (E : Set ℕ) (i : grid0.Coords)
    (arg1 : Memref sig .tc .vmem S128x32x64 .i32) (harg1 : arg1.IsWhole) (arg2 : Memref sig .tc .vmem S128x32x2 .f32) (harg2 : arg2.IsWhole)
    (arg3 : Memref sig .tc .vmem S128x4096 .bf16) (harg3 : arg3.IsWhole)
    (x0 : Vec F S128x32x64 .i32) (x1 : Vec F S128x32x2 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__dequant_kernel i arg1 harg1 arg2 harg2 arg3 harg3) K := by
  simp only [cc0__dequant_kernel_eq_skeleton]; unfold cc0__dequant_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The call's proof data -/

/-- Arrays as found; after the body each input buffer at its block and the output buffer at `out0_2` of the two
    blocks; the invariant is the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation at a point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The input buffers hold the point's blocks, so the body's run applies; the invariant and the core's debts pass
    through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Reg1.lean ====
/-
  The second dequantisation call (grid of 86 points, one per 128 rows of the [11008, 4096] weight matrix), at the
  buffer contents `V` the call is entered with.

  At point `t` the call reads rows `128 t … 128 t + 127` of the packed words (as [128, 32, 64]) and of the scales (as
  [128, 32, 2]) and stores one [128, 4096] block: the words' high nibbles times the first scale of their pair, then
  their low nibbles times the second, concatenated along the last axis and flattened. Nothing else is touched:
  the block a point leaves depends on that point's two input blocks only.
-/
import proofs.«424885_j32023276159510_1_alg».proof.Proof.Gen.KernelIdeal.Launch
import proofs.«424885_j32023276159510_1_alg».proof.Proof.Gen.KernelIdeal.Skeleton
import proofs.«424885_j32023276159510_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the call reads -/

/-- Window `w`'s block at point `t`, read off the array the call finds. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The packed words' staging buffer holds the point's block at every point: the window moves with the point and is
    fetched whenever it moves. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for the scales' staging buffer. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## What a point stores -/

/-- The whole [128, 32, 64] block of words, -/
abbrev rw1 : Rect S128x32x64 := Rect.unit (s := S128x32x64) ![0, 0, 0] S128x32x64.size inb_S128x32x64_S128x32x64_0_0_0
/-- the whole [128, 32, 2] block of scales, -/
abbrev rs1 : Rect S128x32x2 := Rect.unit (s := S128x32x2) ![0, 0, 0] S128x32x2.size inb_S128x32x2_S128x32x2_0_0_0
/-- and the whole [128, 4096] block of dequantised weights. -/
abbrev ro1 : Rect S128x4096 := Rect.unit (s := S128x4096) ![0, 0] S128x4096.size inb_S128x4096_S128x4096_0_0

/-- The output block after the body: its one store, of the dequantised values of the two input blocks. -/
def out1_2 (x0 : Vec F S128x32x64 .i32) (x1 : Vec F S128x32x2 .f32) : Vec F S128x4096 .bf16 :=
  View.canon [⟨ro1, k1_pay1 (View.ld x0 rw1) (View.ld x1 rs1)⟩]

/-- That store covers the block. -/
theorem cover1_2 (p0 : Vec F S128x4096 .bf16) (y : S128x4096.Idx) :
    ∃ pc ∈ ([⟨ro1, p0⟩] : List (View.Piece (Elt F) S128x4096 .bf16)), y ∈ pc.1.set :=
  View.cover_of_tiled [⟨ro1, p0⟩] S128x4096.size (by rfl) y

/-! ## The body's run -/

set_option maxHeartbeats 1000000 in
/-- On whole staging buffers, the inputs' at `x0`, `x1` and the output's at anything, the body runs to its end leaving
    the inputs as they were and the output at `out1_2 x0 x1`. -/
theorem sound_kernel1 (c : Dev nD) (E : Set ℕ) (i : grid1.Coords)
    (arg1 : Memref sig .tc .vmem S128x32x64 .i32) (harg1 : arg1.IsWhole) (arg2 : Memref sig .tc .vmem S128x32x2 .f32) (harg2 : arg2.IsWhole)
    (arg3 : Memref sig .tc .vmem S128x4096 .bf16) (harg3 : arg3.IsWhole)
    (x0 : Vec F S128x32x64 .i32) (x1 : Vec F S128x32x2 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__dequant_kernel i arg1 harg1 arg2 harg2 arg3 harg3) K := by
  simp only [cc1__dequant_kernel_eq_skeleton]; unfold cc1__dequant_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The call's proof data -/

/-- Arrays as found; after the body each input buffer at its block and the output buffer at `out1_2` of the two
    blocks; the invariant is the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation at a point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The input buffers hold the point's blocks, so the body's run applies; the invariant and the core's debts pass
    through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Reg2.lean ====
/-
  The third dequantisation call (grid of 32 points, one per 128 rows of the [4096, 11008] weight matrix), at the
  buffer contents `V` the call is entered with.

  At point `t` the call reads rows `128 t … 128 t + 127` of the packed words (as [128, 86, 64]) and of the scales (as
  [128, 86, 2]) and stores one [128, 11008] block: the words' high nibbles times the first scale of their pair, then
  their low nibbles times the second, concatenated along the last axis and flattened. Nothing else is touched:
  the block a point leaves depends on that point's two input blocks only.
-/
import proofs.«424885_j32023276159510_1_alg».proof.Proof.Gen.KernelIdeal.Launch
import proofs.«424885_j32023276159510_1_alg».proof.Proof.Gen.KernelIdeal.Skeleton
import proofs.«424885_j32023276159510_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the call reads -/

/-- Window `w`'s block at point `t`, read off the array the call finds. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The packed words' staging buffer holds the point's block at every point: the window moves with the point and is
    fetched whenever it moves. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The same for the scales' staging buffer. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## What a point stores -/

/-- The whole [128, 86, 64] block of words, -/
abbrev rw2 : Rect S128x86x64 := Rect.unit (s := S128x86x64) ![0, 0, 0] S128x86x64.size inb_S128x86x64_S128x86x64_0_0_0
/-- the whole [128, 86, 2] block of scales, -/
abbrev rs2 : Rect S128x86x2 := Rect.unit (s := S128x86x2) ![0, 0, 0] S128x86x2.size inb_S128x86x2_S128x86x2_0_0_0
/-- and the whole [128, 11008] block of dequantised weights. -/
abbrev ro2 : Rect S128x11008 := Rect.unit (s := S128x11008) ![0, 0] S128x11008.size inb_S128x11008_S128x11008_0_0

/-- The output block after the body: its one store, of the dequantised values of the two input blocks. -/
def out2_2 (x0 : Vec F S128x86x64 .i32) (x1 : Vec F S128x86x2 .f32) : Vec F S128x11008 .bf16 :=
  View.canon [⟨ro2, k2_pay1 (View.ld x0 rw2) (View.ld x1 rs2)⟩]

/-- That store covers the block. -/
theorem cover2_2 (p0 : Vec F S128x11008 .bf16) (y : S128x11008.Idx) :
    ∃ pc ∈ ([⟨ro2, p0⟩] : List (View.Piece (Elt F) S128x11008 .bf16)), y ∈ pc.1.set :=
  View.cover_of_tiled [⟨ro2, p0⟩] S128x11008.size (by rfl) y

/-! ## The body's run -/

set_option maxHeartbeats 1000000 in
/-- On whole staging buffers, the inputs' at `x0`, `x1` and the output's at anything, the body runs to its end leaving
    the inputs as they were and the output at `out2_2 x0 x1`. -/
theorem sound_kernel2 (c : Dev nD) (E : Set ℕ) (i : grid2.Coords)
    (arg1 : Memref sig .tc .vmem S128x86x64 .i32) (harg1 : arg1.IsWhole) (arg2 : Memref sig .tc .vmem S128x86x2 .f32) (harg2 : arg2.IsWhole)
    (arg3 : Memref sig .tc .vmem S128x11008 .bf16) (harg3 : arg3.IsWhole)
    (x0 : Vec F S128x86x64 .i32) (x1 : Vec F S128x86x2 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__dequant_kernel i arg1 harg1 arg2 harg2 arg3 harg3) K := by
  simp only [cc2__dequant_kernel_eq_skeleton]; unfold cc2__dequant_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The call's proof data -/

/-- Arrays as found; after the body each input buffer at its block and the output buffer at `out2_2` of the two
    blocks; the invariant is the scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation at a point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The input buffers hold the point's blocks, so the body's run applies; the invariant and the core's debts pass
    through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Reg3.lean ====
/-
  The gate call (grid 4 × 43: a block of 1024 input rows against a block of 256 hidden features), at the buffer
  contents `V` the call is entered with.

  At point `(i, j)` the call reads rows `1024 i …` of the [4096, 4096] input and rows `256 j …` of the two
  dequantised [11008, 4096] matrices, and stores one [1024, 256] block: `silu (x W1ᵀ) · (x W3ᵀ)` restricted to those
  rows and features. The input block is fetched only when `i` changes; its staging buffer still holds the block at
  every point. The block a point leaves depends on that point's three input blocks only.
-/
import proofs.«424885_j32023276159510_1_alg».proof.Proof.Gen.KernelIdeal.Launch
import proofs.«424885_j32023276159510_1_alg».proof.Proof.Gen.KernelIdeal.Skeleton
import proofs.«424885_j32023276159510_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the call reads -/

/-- Window `w`'s block at point `t`, read off the array the call finds. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The input rows' staging buffer holds the point's block at every point, fetched there or not: where it is not
    fetched the block index has not moved. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The same for the first weight matrix's staging buffer, -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- and for the second's. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## What a point stores -/

/-- The whole [1024, 4096] block of input rows, -/
abbrev rx3 : Rect S1024x4096 := Rect.unit (s := S1024x4096) ![0, 0] S1024x4096.size inb_S1024x4096_S1024x4096_0_0
/-- a whole [256, 4096] block of weight rows, -/
abbrev rm3 : Rect S256x4096 := Rect.unit (s := S256x4096) ![0, 0] S256x4096.size inb_S256x4096_S256x4096_0_0
/-- and the whole [1024, 256] block of gated activations. -/
abbrev ro3 : Rect S1024x256 := Rect.unit (s := S1024x256) ![0, 0] S1024x256.size inb_S1024x256_S1024x256_0_0

/-- The output block after the body: its one store, of the gated activations of the three input blocks. -/
def out3_3 (x0 : Vec F S1024x4096 .bf16) (x1 x2 : Vec F S256x4096 .bf16) : Vec F S1024x256 .bf16 :=
  View.canon [⟨ro3, k3_pay1 (View.ld x0 rx3) (View.ld x1 rm3) (View.ld x2 rm3)⟩]

/-- That store covers the block. -/
theorem cover3_3 (p0 : Vec F S1024x256 .bf16) (y : S1024x256.Idx) :
    ∃ pc ∈ ([⟨ro3, p0⟩] : List (View.Piece (Elt F) S1024x256 .bf16)), y ∈ pc.1.set :=
  View.cover_of_tiled [⟨ro3, p0⟩] S1024x256.size (by rfl) y

/-! ## The body's run -/

set_option maxHeartbeats 1000000 in
/-- On whole staging buffers, the inputs' at `x0`, `x1`, `x2` and the output's at anything, the body runs to its end
    leaving the inputs as they were and the output at `out3_3 x0 x1 x2`. -/
theorem sound_kernel3 (c : Dev nD) (E : Set ℕ) (i : grid3.Coords)
    (arg2 : Memref sig .tc .vmem S1024x4096 .bf16) (harg2 : arg2.IsWhole) (arg3 : Memref sig .tc .vmem S256x4096 .bf16) (harg3 : arg3.IsWhole)
    (arg4 : Memref sig .tc .vmem S256x4096 .bf16) (harg4 : arg4.IsWhole) (arg5 : Memref sig .tc .vmem S1024x256 .bf16) (harg5 : arg5.IsWhole)
    (x0 : Vec F S1024x4096 .bf16) (x1 x2 : Vec F S256x4096 .bf16) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out3_3 x0 x1 x2)) -∗ K ⟨⟩))
      ⊢ wp frame (wpE (defs₀ (F := F)) Variants.none c none) E (cc3__gate_kernel i arg2 harg2 arg3 harg3 arg4 harg4 arg5 harg5) K := by
  simp only [cc3__gate_kernel_eq_skeleton]; unfold cc3__gate_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-! ## The call's proof data -/

/-- Arrays as found; after the body each input buffer at its block and the output buffer at `out3_3` of the three
    blocks; the invariant is the scoped rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3_3 (iblk3 V c 0 t) (iblk3 V c 1 t) (iblk3 V c 2 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation at a point -/

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The input buffers hold the point's blocks, so the body's run applies; the invariant and the core's debts pass
    through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.Defs4.lean ====
import proofs.«424885_j32023276159510_1_alg».proof.Proof.Gen.KernelIdeal.Launch
import proofs.«424885_j32023276159510_1_alg».proof.Proof.Gen.KernelIdeal.Skeleton
import proofs.«424885_j32023276159510_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 4 (the down projection): the accumulator point by point, the invariant, the proof data

The grid is (i, j, k) with k innermost, 43 steps of k per output block. The kernel keeps a
1024×1024 accumulator in a scratch buffer: at k = 0 it is zeroed, at every k the product of the two
input blocks is added to it, and at k = 42 it is copied into the output window's buffer, which the
pipeline then writes back. So the accumulator after point n depends on the accumulator after point
n - 1 unless n is a multiple of 43. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The accumulator after the body at position `n`: at the first step of a run of 43 (n ≡ 0 mod 43)
    the product of the two blocks added to the zero block; at any other step the product added to
    the accumulator the step before left. -/
def acc4 (c : Dev nD) : (n : ℕ) → n < cfg4.N → Vec F S1024x1024 .f32
  | 0, hn => k4_pay2 (iblk4 V c 0 ⟨0, hn⟩) (iblk4 V c 1 ⟨0, hn⟩) (k4_pay1 (F := F))
  | n + 1, hn =>
    if (n + 1) % 43 = 0 then
      k4_pay2 (iblk4 V c 0 ⟨n + 1, hn⟩) (iblk4 V c 1 ⟨n + 1, hn⟩) (k4_pay1 (F := F))
    else
      k4_pay2 (iblk4 V c 0 ⟨n + 1, hn⟩) (iblk4 V c 1 ⟨n + 1, hn⟩) (acc4 c n (Nat.lt_of_succ_lt hn))

/-- At the first step of a run the accumulator restarts from the zero block. -/
theorem acc4_reset (c : Dev nD) (t : Fin cfg4.N) (h : t.val % 43 = 0) :
    acc4 V c t.val t.isLt = k4_pay2 (iblk4 V c 0 t) (iblk4 V c 1 t) (k4_pay1 (F := F)) := by
  obtain ⟨n, hn⟩ := t
  cases n with
  | zero => rfl
  | succ n => exact if_pos h

/-- At any other step it continues from what the step before left. -/
theorem acc4_step (c : Dev nD) (t : Fin cfg4.N) (h : ¬ t.val % 43 = 0) :
    acc4 V c t.val t.isLt = k4_pay2 (iblk4 V c 0 t) (iblk4 V c 1 t) (acc4 V c (t.val - 1) (by omega)) := by
  obtain ⟨n, hn⟩ := t
  cases n with
  | zero => exact absurd (Nat.zero_mod _) h
  | succ n => exact (if_neg h).trans rfl

/-- The scratch accumulator as a memref: the whole scoped buffer the body is called with. -/
abbrev scM4 : Memref sig .tc .vmem S1024x1024 .f32 := Memref.whole cc4_scratch0

/-- The region invariant before position `n`. Before the first point: every scoped buffer that is no
    staging buffer at some contents, the generator register at some state. Afterwards the same with
    the accumulator named: it holds what the point before left in it. -/
def PhiS4 (c : Dev nD) : (n : ℕ) → n ≤ cfg4.N → sProp 𝕄
  | 0, _ => Pipeline.ΦA spec4 c
  | n + 1, hn => iprop(iprop(owns (c : Thread nD τ) scM4 fullShare (acc4 V c n hn)
      ∗ Pipeline.scopedRestBut (Ix := Unit) (Name := ℕ) (U := UR sig nD τ) (Lvl := ℕ) (Val := Elt F) spec4 c [cc4_scratch0])
      ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(owns (c : Thread nD τ) scM4 fullShare (acc4 V c n hn)
      ∗ Pipeline.scopedRestBut (Ix := Unit) (Name := ℕ) (U := UR sig nD τ) (Lvl := ℕ) (Val := Elt F) spec4 c [cc4_scratch0])
      ∗ (∃ r, prngReg c r)) := rfl

theorem PhiS4_pos (c : Dev nD) (n : ℕ) (h : n ≤ cfg4.N) (hz : n ≠ 0) :
    PhiS4 V c n h = iprop(iprop(owns (c : Thread nD τ) scM4 fullShare (acc4 V c (n - 1) (by omega))
      ∗ Pipeline.scopedRestBut (Ix := Unit) (Name := ℕ) (U := UR sig nD τ) (Lvl := ℕ) (Val := Elt F) spec4 c [cc4_scratch0])
      ∗ (∃ r, prngReg c r)) := by
  cases n with
  | zero => exact absurd rfl hz
  | succ n => rfl

/-- The proof data of the pipeline on core `c`: the arrays as the region finds them; after the body
    each input's buffer at its block, the output's buffer at the accumulator (consulted only at the
    last step of a run, where the body copies the accumulator into it); the invariant above; nothing
    owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => acc4 V c t.val t.isLt
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = acc4 V c t.val t.isLt := by dsimp only [dat4]

/-- The invariant at a point's start, restated at the point's position. -/
theorem PhiS4_castSucc (c : Dev nD) (t : Fin cfg4.N) :
    (dat4 V c).Φ t.castSucc = PhiS4 V c t.val (Nat.le_of_lt t.isLt) := by
  dsimp only [dat4]; simp only [Fin.coe_castSucc]

theorem owed4 (c : Dev nD) (t : Fin (cfg4.N + 1)) : (dat4 V c).owed t = 0 := rfl
theorem share4 (c : Dev nD) (w : Fin cfg4.W) : (dat4 V c).q w = fullShare := rfl

end Cert.KernelIdeal.Hand

end
-- ==== Proof.KI.Fold.lean ====
/-
  The buffer contents between the items of the program's main function, from the launch to the return.

  Main is: two reshapes, dequantise (call 0); two reshapes, dequantise (call 1); two reshapes, dequantise (call 2);
  a reshape and a change of format, the gate call (3), the down projection (4); a last reshape. A stretch of host
  operations maps the contents by the operations' own fold; a call changes only its windows' arrays, each to what
  its write-backs leave. `WJ` is the contents after item `J - 1`; `UJ` the same read at a core's own references,
  which is what a call's proof data take.
-/
import proofs.«424885_j32023276159510_1_alg».proof.Proof.KI.Reg0
import proofs.«424885_j32023276159510_1_alg».proof.Proof.KI.Reg1
import proofs.«424885_j32023276159510_1_alg».proof.Proof.KI.Reg2
import proofs.«424885_j32023276159510_1_alg».proof.Proof.KI.Reg3
import proofs.«424885_j32023276159510_1_alg».proof.Proof.KI.Defs4
import proofs.«424885_j32023276159510_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat)

variable {F : FTy → Type} [FloatOps F]

variable (m : (ℓ : Loc nD τ sig) → Buf (Elt F) ℓ)

/-- Core `c`'s buffers at launch. -/
abbrev W0 : Dev nD → Valuation τ sig (Elt F) := fun c b => m ((c : Dev nD), b)
/-- After the host stretch `hostOps0`. -/
abbrev W1 : Dev nD → Valuation τ sig (Elt F) := fun c => StableHlo.after hostOps0 (W0 m c)
abbrev U1 : (c : Dev nD) → (b : Ref sig .tc) → Buf (Elt F) ((c : Thread nD τ).loc b) := fun c b => W1 m c b
/-- After call 0: its arrays at what its write-backs leave, every other buffer as the call found it. -/
def W2 (c : Dev nD) : Valuation τ sig (Elt F) :=
  Pipeline.withArrays spec0 c (W1 m c) fun w => (dat0 (U1 m) c).arrAt w cfg0.N
theorem W2_arr (c : Dev nD) (w : Fin cfg0.W) :
    W2 m c (Proc.devRef .tc (Pipeline.arrRef spec0 w)) = (dat0 (U1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev U2 : (c : Dev nD) → (b : Ref sig .tc) → Buf (Elt F) ((c : Thread nD τ).loc b) := fun c b => W2 m c b
theorem hF0 (c : Dev nD) (w : Fin cfg0.W) : (dat0 (U1 m) c).arrAt w cfg0.N = U2 m c (Pipeline.arrRef spec0 w) :=
  (W2_arr m c w).symm
theorem hrest0 (c : Dev nD) : ∀ b, b ∉ Finset.univ.image (Pipeline.arrRef spec0) → U2 m c b = U1 m c b :=
  fun b hb => W2_of_ne m c b fun w e => hb (Finset.mem_image.mpr ⟨w, Finset.mem_univ _, e⟩)
/-- After the host stretch `hostOps1`. -/
abbrev W3 : Dev nD → Valuation τ sig (Elt F) := fun c => StableHlo.after hostOps1 (W2 m c)
abbrev U3 : (c : Dev nD) → (b : Ref sig .tc) → Buf (Elt F) ((c : Thread nD τ).loc b) := fun c b => W3 m c b
/-- After call 1: its arrays at what its write-backs leave, every other buffer as the call found it. -/
def W4 (c : Dev nD) : Valuation τ sig (Elt F) :=
  Pipeline.withArrays spec1 c (W3 m c) fun w => (dat1 (U3 m) c).arrAt w cfg1.N
theorem W4_arr (c : Dev nD) (w : Fin cfg1.W) :
    W4 m c (Proc.devRef .tc (Pipeline.arrRef spec1 w)) = (dat1 (U3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev U4 : (c : Dev nD) → (b : Ref sig .tc) → Buf (Elt F) ((c : Thread nD τ).loc b) := fun c b => W4 m c b
theorem hF1 (c : Dev nD) (w : Fin cfg1.W) : (dat1 (U3 m) c).arrAt w cfg1.N = U4 m c (Pipeline.arrRef spec1 w) :=
  (W4_arr m c w).symm
theorem hrest1 (c : Dev nD) : ∀ b, b ∉ Finset.univ.image (Pipeline.arrRef spec1) → U4 m c b = U3 m c b :=
  fun b hb => W4_of_ne m c b fun w e => hb (Finset.mem_image.mpr ⟨w, Finset.mem_univ _, e⟩)
/-- After the host stretch `hostOps2`. -/
abbrev W5 : Dev nD → Valuation τ sig (Elt F) := fun c => StableHlo.after hostOps2 (W4 m c)
abbrev U5 : (c : Dev nD) → (b : Ref sig .tc) → Buf (Elt F) ((c : Thread nD τ).loc b) := fun c b => W5 m c b
/-- After call 2: its arrays at what its write-backs leave, every other buffer as the call found it. -/
def W6 (c : Dev nD) : Valuation τ sig (Elt F) :=
  Pipeline.withArrays spec2 c (W5 m c) fun w => (dat2 (U5 m) c).arrAt w cfg2.N
theorem W6_arr (c : Dev nD) (w : Fin cfg2.W) :
    W6 m c (Proc.devRef .tc (Pipeline.arrRef spec2 w)) = (dat2 (U5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev U6 : (c : Dev nD) → (b : Ref sig .tc) → Buf (Elt F) ((c : Thread nD τ).loc b) := fun c b => W6 m c b
theorem hF2 (c : Dev nD) (w : Fin cfg2.W) : (dat2 (U5 m) c).arrAt w cfg2.N = U6 m c (Pipeline.arrRef spec2 w) :=
  (W6_arr m c w).symm
theorem hrest2 (c : Dev nD) : ∀ b, b ∉ Finset.univ.image (Pipeline.arrRef spec2) → U6 m c b = U5 m c b :=
  fun b hb => W6_of_ne m c b fun w e => hb (Finset.mem_image.mpr ⟨w, Finset.mem_univ _, e⟩)
/-- After the host stretch `hostOps3`. -/
abbrev W7 : Dev nD → Valuation τ sig (Elt F) := fun c => StableHlo.after hostOps3 (W6 m c)
abbrev U7 : (c : Dev nD) → (b : Ref sig .tc) → Buf (Elt F) ((c : Thread nD τ).loc b) := fun c b => W7 m c b
/-- After call 3: its arrays at what its write-backs leave, every other buffer as the call found it. -/
def W8 (c : Dev nD) : Valuation τ sig (Elt F) :=
  Pipeline.withArrays spec3 c (W7 m c) fun w => (dat3 (U7 m) c).arrAt w cfg3.N
theorem W8_arr (c : Dev nD) (w : Fin cfg3.W) :
    W8 m c (Proc.devRef .tc (Pipeline.arrRef spec3 w)) = (dat3 (U7 m) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m c (Proc.devRef .tc b) = W7 m c (Proc.devRef .tc b) := by
  unfold W8; exact Pipeline.withArrays_of_ne spec3 c _ _ b hb
abbrev U8 : (c : Dev nD) → (b : Ref sig .tc) → Buf (Elt F) ((c : Thread nD τ).loc b) := fun c b => W8 m c b
theorem hF3 (c : Dev nD) (w : Fin cfg3.W) : (dat3 (U7 m) c).arrAt w cfg3.N = U8 m c (Pipeline.arrRef spec3 w) :=
  (W8_arr m c w).symm
theorem hrest3 (c : Dev nD) : ∀ b, b ∉ Finset.univ.image (Pipeline.arrRef spec3) → U8 m c b = U7 m c b :=
  fun b hb => W8_of_ne m c b fun w e => hb (Finset.mem_image.mpr ⟨w, Finset.mem_univ _, e⟩)
/-- After call 4: its arrays at what its write-backs leave, every other buffer as the call found it. -/
def W9 (c : Dev nD) : Valuation τ sig (Elt F) :=
  Pipeline.withArrays spec4 c (W8 m c) fun w => (dat4 (U8 m) c).arrAt w cfg4.N
theorem W9_arr (c : Dev nD) (w : Fin cfg4.W) :
    W9 m c (Proc.devRef .tc (Pipeline.arrRef spec4 w)) = (dat4 (U8 m) c).arrAt w cfg4.N := by
  unfold W9; exact Pipeline.withArrays_arr spec4 launch4.win.arr_inj c _ _ w
theorem W9_of_ne (c : Dev nD) (b : Ref sig .tc) (hb : ∀ w, Pipeline.arrRef spec4 w ≠ b) :
    W9 m c (Proc.devRef .tc b) = W8 m c (Proc.devRef .tc b) := by
  unfold W9; exact Pipeline.withArrays_of_ne spec4 c _ _ b hb
abbrev U9 : (c : Dev nD) → (b : Ref sig .tc) → Buf (Elt F) ((c : Thread nD τ).loc b) := fun c b => W9 m c b
theorem hF4 (c : Dev nD) (w : Fin cfg4.W) : (dat4 (U8 m) c).arrAt w cfg4.N = U9 m c (Pipeline.arrRef spec4 w) :=
  (W9_arr m c w).symm
theorem hrest4 (c : Dev nD) : ∀ b, b ∉ Finset.univ.image (Pipeline.arrRef spec4) → U9 m c b = U8 m c b :=
  fun b hb => W9_of_ne m c b fun w e => hb (Finset.mem_image.mpr ⟨w, Finset.mem_univ _, e⟩)
/-- After the host stretch `hostOps5`. -/
abbrev W10 : Dev nD → Valuation τ sig (Elt F) := fun c => StableHlo.after hostOps5 (W9 m c)
abbrev U10 : (c : Dev nD) → (b : Ref sig .tc) → Buf (Elt F) ((c : Thread nD τ).loc b) := fun c b => W10 m c b

/-- A host stretch leaves every buffer it does not write as it found it. -/
theorem W1_keep (c : Dev nD) (r : Ref sig .tc) (h : r ∉ hostOps0_W) : W1 m c r = W0 m c r :=
  StableHlo.after_of_writes_sub hostOps0 _ hostOps0_writes h
theorem W3_keep (c : Dev nD) (r : Ref sig .tc) (h : r ∉ hostOps1_W) : W3 m c r = W2 m c r :=
  StableHlo.after_of_writes_sub hostOps1 _ hostOps1_writes h
theorem W5_keep (c : Dev nD) (r : Ref sig .tc) (h : r ∉ hostOps2_W) : W5 m c r = W4 m c r :=
  StableHlo.after_of_writes_sub hostOps2 _ hostOps2_writes h
theorem W7_keep (c : Dev nD) (r : Ref sig .tc) (h : r ∉ hostOps3_W) : W7 m c r = W6 m c r :=
  StableHlo.after_of_writes_sub hostOps3 _ hostOps3_writes h
theorem W10_keep (c : Dev nD) (r : Ref sig .tc) (h : r ∉ hostOps5_W) : W10 m c r = W9 m c r :=
  StableHlo.after_of_writes_sub hostOps5 _ hostOps5_writes h

end Cert.KernelIdeal.Hand

end
-- ==== Proof.KI.Reg4.lean ====
import proofs.«424885_j32023276159510_1_alg».proof.Proof.KI.Defs4
import Idealize.ShloMosaic.Lib.Pipeline.Value

/-! # Region 4 (the down projection): the body at every point

Three control cases per point, by the innermost grid coordinate k: at k = 0 the accumulator is
zeroed before the product is added; at 0 < k < 42 the product is added to what the step before
left; at k = 42 the same, and the accumulator is then copied into the output window's buffer.
Each case is run once on symbolic whole memrefs; the body obligation picks the case from the
point's position modulo 43. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body's branch conditions -/

/-- The first conditional's test, from the grid coordinates: k = 0. -/
abbrev cond4_0 (i : grid4.Coords) : Prop := (Scalar.cmpi .ne (Scalar.extui (Scalar.cmpi .eq (BitVec.ofNat 32 (i 2).val) 0#32)) 0#32) = 1#1
/-- It holds at the positions ≡ 0 (mod 43). -/
theorem hcond4_0 : ∀ t : Fin cfg4.N, cond4_0 (grid4.coords t) ↔ t.val % 43 = 0 :=
  (by decide +kernel : ∀ t : Fin grid4.N, cond4_0 (grid4.coords t) ↔ t.val % 43 = 0)

/-- The second conditional's test: k = 42. -/
abbrev cond4_1 (i : grid4.Coords) : Prop := k4_cond2 i = 1#1
/-- It holds at the positions ≡ 42 (mod 43). -/
theorem hcond4_1 : ∀ t : Fin cfg4.N, cond4_1 (grid4.coords t) ↔ t.val % 43 = 42 :=
  (by decide +kernel : ∀ t : Fin grid4.N, cond4_1 (grid4.coords t) ↔ t.val % 43 = 42)

/-! ## Where the windows are idle -/

theorem liveAt4_0 : ∀ t : Fin cfg4.N, cfg4.idle 0 (grid4.coords t) = false := fun _ => rfl
theorem liveAt4_1 : ∀ t : Fin cfg4.N, cfg4.idle 1 (grid4.coords t) = false := fun _ => rfl
/-- Away from k = 42 the output window is idle: the body stores nothing into it, -/
theorem idleAt4_2 : ∀ t : Fin cfg4.N, ¬cond4_1 (grid4.coords t) → cfg4.idle 2 (grid4.coords t) = true := by decide +kernel
/-- and the pipeline does not write it back. -/
theorem noFlush4_2 : ∀ t : Fin cfg4.N, ¬cond4_1 (grid4.coords t) → (cfg4.win 2).flush t = false := by decide +kernel
/-- At k = 42 it is live. -/
theorem liveAt4_2 : ∀ t : Fin cfg4.N, cond4_1 (grid4.coords t) → cfg4.idle 2 (grid4.coords t) = false := by decide +kernel

/-! ## Whole-buffer accesses -/

/-- The zero offsets, as a constant function. -/
theorem off4 : (![0, 0] : Fin 2 → ℕ) = fun _ => 0 := funext fun a => by fin_cases a <;> rfl

/-- A load of the whole 1024×256 buffer reads its contents. -/
theorem ldA4 {sp : Space} (v : View sig .tc sp S1024x256 .bf16) (f : v.ty.Contents (Elt F)) :
    View.readAt (Elt F) v (Rect.unit (s := S1024x256) ![0, 0] S1024x256.size inb_S1024x256_S1024x256_0_0).toLoadRect f = v.read (Elt F) f := by
  rw [View.readAt_eq_ld, View.ld_unit_zero (S := S1024x256) off4]

/-- A load of the whole 1024×1024 buffer reads its contents. -/
theorem ldB4 {sp : Space} (v : View sig .tc sp S1024x1024 .f32) (f : v.ty.Contents (Elt F)) :
    View.readAt (Elt F) v (Rect.unit (s := S1024x1024) ![0, 0] S1024x1024.size inb_S1024x1024_S1024x1024_0_0).toLoadRect f = v.read (Elt F) f := by
  rw [View.readAt_eq_ld, View.ld_unit_zero (S := S1024x1024) off4]

/-- After stores the last of which fills the whole 1024×1024 buffer, the buffer reads as that store's payload. -/
theorem stB4 {sp : Space} (v : View sig .tc sp S1024x1024 .f32) (f : v.ty.Contents (Elt F)) (w : Vec F S1024x1024 .f32)
    (L : List (View.Piece (Elt F) S1024x1024 .f32)) :
    v.read (Elt F) (v.writes (Elt F) f (⟨Rect.unit (s := S1024x1024) ![0, 0] S1024x1024.size inb_S1024x1024_S1024x1024_0_0, w⟩ :: L)) = w := by
  have hcov : ∀ y : S1024x1024.Idx, ∃ p ∈ ((⟨Rect.unit (s := S1024x1024) ![0, 0] S1024x1024.size inb_S1024x1024_S1024x1024_0_0, w⟩ : View.Piece (Elt F) S1024x1024 .f32) :: L), y ∈ p.1.set :=
    fun y => ⟨(⟨Rect.unit (s := S1024x1024) ![0, 0] S1024x1024.size inb_S1024x1024_S1024x1024_0_0, w⟩ : View.Piece (Elt F) S1024x1024 .f32), List.mem_cons_self,
      View.mem_set_unit_zero (S := S1024x1024) off4 inb_S1024x1024_S1024x1024_0_0 y⟩
  rw [View.read_writes_eq_canon v f _ hcov, View.canon_cons_unit_zero (S := S1024x1024) off4]

/-- A load of the whole buffer after one store that filled it reads the payload. -/
theorem rcB4 {sp : Space} (v : View sig .tc sp S1024x1024 .f32) (w : Vec F S1024x1024 .f32) :
    v.readCov [(⟨Rect.unit (s := S1024x1024) ![0, 0] S1024x1024.size inb_S1024x1024_S1024x1024_0_0, w⟩ : View.Piece (Elt F) S1024x1024 .f32)]
      (Rect.unit (s := S1024x1024) ![0, 0] S1024x1024.size inb_S1024x1024_S1024x1024_0_0).toLoadRect = w :=
  View.readCov_unit_zero (S := S1024x1024) v off4 _ w

/-! ## The body, case by case, on symbolic whole memrefs -/

set_option maxHeartbeats 1000000 in
/-- k = 0: the accumulator, whatever it held, ends at the product added to the zero block; the inputs
    and the output window's buffer are handed back as found. -/
theorem run4_A (c : Dev nD) (i : grid4.Coords) (arg3 : Memref sig .tc .vmem S1024x256 .bf16) (harg3 : arg3.IsWhole) (arg4 : Memref sig .tc .vmem S1024x256 .bf16) (harg4 : arg4.IsWhole) (arg5 : Memref sig .tc .vmem S1024x1024 .f32) (harg5 : arg5.IsWhole) (arg6 : Memref sig .tc .vmem S1024x1024 .f32) (harg6 : arg6.IsWhole)
    (hc0 : cond4_0 i) (hc1 : ¬cond4_1 i)
    (x0 : Vec F S1024x256 .bf16) (x1 : Vec F S1024x256 .bf16) (xi2 : Vec F S1024x1024 .f32) (E : Set ℕ) (K : PUnit → sProp 𝕄) :
    iprop(owns (c : Thread nD τ) arg3 fullShare x0 ∗ owns (c : Thread nD τ) arg4 fullShare x1 ∗ owns (c : Thread nD τ) arg5 fullShare xi2
        ∗ (∃ d, owns (c : Thread nD τ) arg6 fullShare d)
        ∗ (iprop(owns (c : Thread nD τ) arg3 fullShare x0 ∗ owns (c : Thread nD τ) arg4 fullShare x1 ∗ owns (c : Thread nD τ) arg5 fullShare xi2
            ∗ owns (c : Thread nD τ) arg6 fullShare (k4_pay2 x0 x1 (k4_pay1 (F := F)))) -∗ K ⟨⟩))
      ⊢ wp frame (wpE (defs₀ (F := F)) Variants.none c none) E (cc4__down_kernel i arg3 harg3 arg4 harg4 arg5 harg5 arg6 harg6) K := by
  simp only [cc4__down_kernel_eq_skeleton]; unfold cc4__down_kernel_skel
  unfold owns
  iintro ⟨⟨%f0, %hf0, H0⟩, ⟨%f1, %hf1, H1⟩, ⟨%f2, %hf2, H2⟩, ⟨%ds, %fs, -, HS⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  sl_unfold_run_names
  rw [stB4, ldA4, ldA4, rcB4]

set_option maxHeartbeats 1000000 in
/-- 0 < k < 42: the accumulator at `xs` ends at the product added to `xs`. -/
theorem run4_B (c : Dev nD) (i : grid4.Coords) (arg3 : Memref sig .tc .vmem S1024x256 .bf16) (harg3 : arg3.IsWhole) (arg4 : Memref sig .tc .vmem S1024x256 .bf16) (harg4 : arg4.IsWhole) (arg5 : Memref sig .tc .vmem S1024x1024 .f32) (harg5 : arg5.IsWhole) (arg6 : Memref sig .tc .vmem S1024x1024 .f32) (harg6 : arg6.IsWhole)
    (hc0 : ¬cond4_0 i) (hc1 : ¬cond4_1 i)
    (x0 : Vec F S1024x256 .bf16) (x1 : Vec F S1024x256 .bf16) (xi2 : Vec F S1024x1024 .f32) (xs : Vec F S1024x1024 .f32) (E : Set ℕ) (K : PUnit → sProp 𝕄) :
    iprop(owns (c : Thread nD τ) arg3 fullShare x0 ∗ owns (c : Thread nD τ) arg4 fullShare x1 ∗ owns (c : Thread nD τ) arg5 fullShare xi2
        ∗ owns (c : Thread nD τ) arg6 fullShare xs
        ∗ (iprop(owns (c : Thread nD τ) arg3 fullShare x0 ∗ owns (c : Thread nD τ) arg4 fullShare x1 ∗ owns (c : Thread nD τ) arg5 fullShare xi2
            ∗ owns (c : Thread nD τ) arg6 fullShare (k4_pay2 x0 x1 xs)) -∗ K ⟨⟩))
      ⊢ wp frame (wpE (defs₀ (F := F)) Variants.none c none) E (cc4__down_kernel i arg3 harg3 arg4 harg4 arg5 harg5 arg6 harg6) K := by
  simp only [cc4__down_kernel_eq_skeleton]; unfold cc4__down_kernel_skel
  unfold owns
  iintro ⟨⟨%f0, %hf0, H0⟩, ⟨%f1, %hf1, H1⟩, ⟨%f2, %hf2, H2⟩, ⟨%fs, %hfs, HS⟩, Hk⟩
  subst hf0; subst hf1; subst hf2; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  sl_unfold_run_names
  rw [stB4, ldA4, ldA4, ldB4]

set_option maxHeartbeats 1000000 in
/-- k = 42: the accumulator at `xs` ends at the product added to `xs`, and so does the output window's
    buffer, whatever it held. -/
theorem run4_C (c : Dev nD) (i : grid4.Coords) (arg3 : Memref sig .tc .vmem S1024x256 .bf16) (harg3 : arg3.IsWhole) (arg4 : Memref sig .tc .vmem S1024x256 .bf16) (harg4 : arg4.IsWhole) (arg5 : Memref sig .tc .vmem S1024x1024 .f32) (harg5 : arg5.IsWhole) (arg6 : Memref sig .tc .vmem S1024x1024 .f32) (harg6 : arg6.IsWhole)
    (hc0 : ¬cond4_0 i) (hc1 : cond4_1 i)
    (x0 : Vec F S1024x256 .bf16) (x1 : Vec F S1024x256 .bf16) (xs : Vec F S1024x1024 .f32) (E : Set ℕ) (K : PUnit → sProp 𝕄) :
    iprop(owns (c : Thread nD τ) arg3 fullShare x0 ∗ owns (c : Thread nD τ) arg4 fullShare x1 ∗ (∃ d, owns (c : Thread nD τ) arg5 fullShare d)
        ∗ owns (c : Thread nD τ) arg6 fullShare xs
        ∗ (iprop(owns (c : Thread nD τ) arg3 fullShare x0 ∗ owns (c : Thread nD τ) arg4 fullShare x1
            ∗ owns (c : Thread nD τ) arg5 fullShare (k4_pay2 x0 x1 xs)
            ∗ owns (c : Thread nD τ) arg6 fullShare (k4_pay2 x0 x1 xs)) -∗ K ⟨⟩))
      ⊢ wp frame (wpE (defs₀ (F := F)) Variants.none c none) E (cc4__down_kernel i arg3 harg3 arg4 harg4 arg5 harg5 arg6 harg6) K := by
  simp only [cc4__down_kernel_eq_skeleton]; unfold cc4__down_kernel_skel
  unfold owns
  iintro ⟨⟨%f0, %hf0, H0⟩, ⟨%f1, %hf1, H1⟩, ⟨%d2, %f2, -, H2⟩, ⟨%fs, %hfs, HS⟩, Hk⟩
  subst hf0; subst hf1; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_run_names
    rw [stB4, rcB4, ldA4, ldA4, ldB4]
  iexists _; isplitr
  swap; · iexact HS
  ipureintro
  sl_unfold_run_names
  rw [stB4, ldA4, ldA4, ldB4]

/-! ## The inputs' buffers at a point -/

/-- Input window 0's current staging buffer holds its block at every point, fetched there or not. -/
theorem before4_0 (c : Dev nD) (t : Fin cfg4.N) (d) : (dat4 V c).before 0 t d = iblk4 V c 0 t :=
  ((dat4 V c).before_in_eq_fetched 0 rfl (fun _ => rfl) (fun _ _ _ => rfl)
      (fun t => by rw [after4_0]; unfold Dat.blockOf iblk4; rw [A_eq4]; try rfl) t d).trans
    (by unfold Dat.fetched Dat.blockOf iblk4; rw [A_eq4]; try rfl)

/-- The same for input window 1. -/
theorem before4_1 (c : Dev nD) (t : Fin cfg4.N) (d) : (dat4 V c).before 1 t d = iblk4 V c 1 t :=
  ((dat4 V c).before_in_eq_fetched 1 rfl (fun _ => rfl) (fun _ _ _ => rfl)
      (fun t => by rw [after4_1]; unfold Dat.blockOf iblk4; rw [A_eq4]; try rfl) t d).trans
    (by unfold Dat.fetched Dat.blockOf iblk4; rw [A_eq4]; try rfl)

/-! ## The invariant, opened at the accumulator -/

/-- What the launch hands the region, with the accumulator split off the other scoped buffers. -/
theorem PhiA4_eq (c : Dev nD) :
    (Pipeline.ΦA spec4 c : sProp 𝕄)
      = iprop(iprop((∃ d, owns (c : Thread nD τ) scM4 fullShare d)
          ∗ Pipeline.scopedRestBut (Ix := Unit) (Name := ℕ) (U := UR sig nD τ) (Lvl := ℕ) (Val := Elt F) spec4 c [cc4_scratch0])
        ∗ (∃ r, prngReg c r)) := by
  unfold Pipeline.ΦA; rw [scopedRest4_split]; simp only [scM4, owns_whole]; try rfl

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t)

set_option maxHeartbeats 4800000 in
/-- The body at any point. The inputs' memrefs hold their blocks; the position modulo 43 says which
    case the point is in; the invariant hands the body the accumulator at what the point before left
    (at anything before the first point) and takes it back at this point's contents; away from
    k = 42 the output window's buffer is handed back as found, at k = 42 it ends at the accumulator. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).owesAt () t.succ = (dat4 V c).owesAt () t.castSucc from rfl]
  rw [show (dat4 V c).Φ t.succ = PhiS4 V c (t.val + 1) t.isLt from rfl, PhiS4_succ]
  have hN : t.val < 688 := lt_of_lt_of_eq t.isLt (show cfg4.N = 688 from N_4)
  rw [show (dat4 V c).leavesExact 0 t = owns (c : Thread nD τ) (st4_0 t) fullShare ((dat4 V c).after 0 t) from by
    unfold Dat.leavesExact; rw [liveAt4_0 t], after4_0]
  rw [show (dat4 V c).leavesExact 1 t = owns (c : Thread nD τ) (st4_1 t) fullShare ((dat4 V c).after 1 t) from by
    unfold Dat.leavesExact; rw [liveAt4_1 t], after4_1]
  by_cases h0 : t.val % 43 = 0
  · have h1 : ¬t.val % 43 = 42 := by omega
    rw [Dat.leavesExact_idle (dat4 V c) 2 t (idleAt4_2 t (fun h => h1 ((hcond4_1 t).mp h))) (noFlush4_2 t (fun h => h1 ((hcond4_1 t).mp h)))]
    rw [acc4_reset V c t h0]
    by_cases hz : t.val = 0
    · rw [PhiS4_castSucc V c t, PhiS4_zero V c _ _ hz, PhiA4_eq]
      iintro ⟨⟨⟨HS, HR⟩, Hg⟩, Ho, ⟨%d0, H0⟩, ⟨%d1, H1⟩, ⟨%d2, H2⟩⟩
      iapply (run4_A c (grid4.coords t) _ _ _ _ _ _ _ _ ((hcond4_0 t).mpr h0) (fun h => h1 ((hcond4_1 t).mp h)) (iblk4 V c 0 t) (iblk4 V c 1 t) _ Set.univ _)
      isplitl [H0]; · iexact H0
      isplitl [H1]; · iexact H1
      isplitl [H2]; · iexact H2
      isplitl [HS]; · iexact HS
      iintro ⟨H0, H1, H2, HS⟩
      isplitl [HS HR Hg]
      · isplitr [Hg]
        · isplitl [HS]; · iexact HS
          iexact HR
        iexact Hg
      isplitl [Ho]; · iexact Ho
      isplitl [H0]; · iexact H0
      isplitl [H1]; · iexact H1
      iexists _; iexact H2
    · rw [PhiS4_castSucc V c t, PhiS4_pos V c _ _ hz]
      iintro ⟨⟨⟨HS, HR⟩, Hg⟩, Ho, ⟨%d0, H0⟩, ⟨%d1, H1⟩, ⟨%d2, H2⟩⟩
      iapply (run4_A c (grid4.coords t) _ _ _ _ _ _ _ _ ((hcond4_0 t).mpr h0) (fun h => h1 ((hcond4_1 t).mp h)) (iblk4 V c 0 t) (iblk4 V c 1 t) _ Set.univ _)
      isplitl [H0]; · iexact H0
      isplitl [H1]; · iexact H1
      isplitl [H2]; · iexact H2
      isplitl [HS]; · iexists _; iexact HS
      iintro ⟨H0, H1, H2, HS⟩
      isplitl [HS HR Hg]
      · isplitr [Hg]
        · isplitl [HS]; · iexact HS
          iexact HR
        iexact Hg
      isplitl [Ho]; · iexact Ho
      isplitl [H0]; · iexact H0
      isplitl [H1]; · iexact H1
      iexists _; iexact H2
  · have hz : t.val ≠ 0 := fun h => h0 (by rw [h])
    rw [acc4_step V c t h0]
    rw [PhiS4_castSucc V c t, PhiS4_pos V c _ _ hz]
    by_cases h1 : t.val % 43 = 42
    · rw [show (dat4 V c).leavesExact 2 t = owns (c : Thread nD τ) (st4_2 t) fullShare ((dat4 V c).after 2 t) from by
        unfold Dat.leavesExact; rw [liveAt4_2 t ((hcond4_1 t).mpr h1)], after4_2, acc4_step V c t h0]
      iintro ⟨⟨⟨HS, HR⟩, Hg⟩, Ho, ⟨%d0, H0⟩, ⟨%d1, H1⟩, ⟨%d2, H2⟩⟩
      iapply (run4_C c (grid4.coords t) _ _ _ _ _ _ _ _ (fun h => h0 ((hcond4_0 t).mp h)) ((hcond4_1 t).mpr h1) (iblk4 V c 0 t) (iblk4 V c 1 t) _ Set.univ _)
      isplitl [H0]; · iexact H0
      isplitl [H1]; · iexact H1
      isplitl [H2]; · iexists _; iexact H2
      isplitl [HS]; · iexact HS
      iintro ⟨H0, H1, H2, HS⟩
      isplitl [HS HR Hg]
      · isplitr [Hg]
        · isplitl [HS]; · iexact HS
          iexact HR
        iexact Hg
      isplitl [Ho]; · iexact Ho
      isplitl [H0]; · iexact H0
      isplitl [H1]; · iexact H1
      iexact H2
    · rw [Dat.leavesExact_idle (dat4 V c) 2 t (idleAt4_2 t (fun h => h1 ((hcond4_1 t).mp h))) (noFlush4_2 t (fun h => h1 ((hcond4_1 t).mp h)))]
      iintro ⟨⟨⟨HS, HR⟩, Hg⟩, Ho, ⟨%d0, H0⟩, ⟨%d1, H1⟩, ⟨%d2, H2⟩⟩
      iapply (run4_B c (grid4.coords t) _ _ _ _ _ _ _ _ (fun h => h0 ((hcond4_0 t).mp h)) (fun h => h1 ((hcond4_1 t).mp h)) (iblk4 V c 0 t) (iblk4 V c 1 t) _ _ Set.univ _)
      isplitl [H0]; · iexact H0
      isplitl [H1]; · iexact H1
      isplitl [H2]; · iexact H2
      isplitl [HS]; · iexact HS
      iintro ⟨H0, H1, H2, HS⟩
      isplitl [HS HR Hg]
      · isplitr [Hg]
        · isplitl [HS]; · iexact HS
          iexact HR
        iexact Hg
      isplitl [Ho]; · iexact Ho
      isplitl [H0]; · iexact H0
      isplitl [H1]; · iexact H1
      iexists _; iexact H2

/-- The library's body obligation, at every point. -/
theorem body_obligation4 (c : Dev nD) : BodyObligation (dat4 (F := F) V c) (defs₀ (F := F)) Variants.none () Set.univ := fun t => by
  rw [bigSep_W4, bigSep_W4]
  exact sound_body4 V c t

/-- What the launch hands the region is the invariant before the first point. -/
theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

/-- After any point the invariant gives the launch's back: the accumulator's contents are forgotten. -/
theorem Phi_out4 (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]
  iintro ⟨⟨HS, HR⟩, Hg⟩
  isplitr [Hg]
  · isplitl [HS]
    · iexists _; iexact HS
    iexact HR
  iexact Hg

/-- The same after the last point. -/
theorem hout4 (c : Dev nD) : (dat4 V c).Φ (Fin.last cfg4.N) ⊢ Pipeline.ΦA spec4 c :=
  Phi_out4 V c _ (by rw [Fin.val_last]; have : cfg4.N = 688 := N_4; omega)

end Cert.KernelIdeal.Hand

end
-- ==== Proof.KI.Run.lean ====
/-
  The program's main function as a list of segments — a host segment per stretch of host operations, a call segment
  per kernel call — and its launch: every weakly fair execution terminates, nothing faulting, and every final memory
  holds each unscoped buffer at the last contents of the fold (`W10`).

  Between two segments a core holds every unscoped buffer whole at the fold's contents there, its generator register
  at some state, and owes nothing. A call takes its windows' arrays out of those buffers, runs its schedule under
  the body obligation, and puts the arrays back at what its write-backs left.
-/
import proofs.«424885_j32023276159510_1_alg».proof.Proof.KI.Fold
import proofs.«424885_j32023276159510_1_alg».proof.Proof.KI.Reg4

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The proof data of the five calls and what rides between segments -/

/-- Each call's proof data at the contents the call is entered with. -/
def pdats : (p : Fin 5) → (c : Dev nD) → Dat τ (Elt F) Unit ℕ (UR sig nD τ) ℕ (Pipeline.pin (pcfgs (F := F)) adm p) c
  | ⟨0, _⟩ => fun c => dat0 (U1 m) c
  | ⟨1, _⟩ => fun c => dat1 (U3 m) c
  | ⟨2, _⟩ => fun c => dat2 (U5 m) c
  | ⟨3, _⟩ => fun c => dat3 (U7 m) c
  | ⟨4, _⟩ => fun c => dat4 (U8 m) c

abbrev 𝒱₀ : Variants := Variants.none
/-- No core owes another anything: no level is assigned. -/
abbrev L : GSem nD τ sig → Finset Unit := fun _ => ∅
abbrev lv : GSem nD τ sig → Unit → ℕ := fun _ _ => 0
/-- Beside the buffers: the core's generator register at some state, and its debts, none. -/
abbrev R (c : Dev nD) : sProp 𝕄 := iprop((∃ r, prngReg c r) ∗ ∃ W, owes (c : Thread nD τ) (0 : CellTallies nD τ sig Unit) W)

/-- A stretch of host operations as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- The last thread state without the debts: every unscoped buffer at `W10`, the generator register at some state. -/
abbrev Tlast (c : Dev nD) : sProp 𝕄 := iprop(StableHlo.held (c : Thread nD τ) (Pipeline.ucRefs τ sig) (W10 m c) ∗ ∃ r, prngReg c r)

/-- The class invariant of call 4 from the generator register and the scoped rest, whatever rides between, -/
theorem toΦA4 (c : Dev nD) (P : sProp 𝕄) :
    iprop((∃ r, prngReg c r) ∗ P ∗ Pipeline.scopedRest spec4 c) ⊢ (Pipeline.ΦA spec4 c : sProp 𝕄) := by
  unfold Pipeline.ΦA
  iintro ⟨Hp, -, Hr⟩
  isplitl [Hr]; · iexact Hr
  iexact Hp

/-- and back. -/
theorem ofΦA4 (c : Dev nD) :
    (Pipeline.ΦA spec4 c : sProp 𝕄) ⊢ iprop((∃ r, prngReg c r) ∗ BI.emp ∗ Pipeline.scopedRest spec4 c) := by
  unfold Pipeline.ΦA
  iintro ⟨Hr, Hp⟩
  isplitl [Hp]; · iexact Hp
  isplitr; · iempintro
  iexact Hr

/-! ## The calls as segments -/

set_option backward.isDefEq.respectTransparency.types false in
/-- Call 0 as a segment: entered with every unscoped buffer at `W1`, left with them at `W2`. Its arrays are split
    out of the unscoped buffers on entry and put back at their final contents on exit; the generator register goes
    into the call's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U1 m c) (U2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 as a segment: entered with every unscoped buffer at `W3`, left with them at `W4`. Its arrays are split
    out of the unscoped buffers on entry and put back at their final contents on exit; the generator register goes
    into the call's invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (U3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (U3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (U3 m c) (U4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 2 as a segment: entered with every unscoped buffer at `W5`, left with them at `W6`. Its arrays are split
    out of the unscoped buffers on entry and put back at their final contents on exit; the generator register goes
    into the call's invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (U5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (U5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (U5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (U5 m c) (U6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 3 as a segment: entered with every unscoped buffer at `W7`, left with them at `W8`. Its arrays are split
    out of the unscoped buffers on entry and put back at their final contents on exit; the generator register goes
    into the call's invariant and comes back; nothing is owed; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (U7 m) c).loose
  hwaits := Pipeline.hwaits_of_owed_zero _ _ _ _ L lv 3 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec3 c (U7 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (U7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (U7 m c) (U8 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 4 as a segment: entered with every unscoped buffer at `W8`, left with them at `W9`. Its arrays are split
    out of the unscoped buffers on entry and put back at their final contents on exit; the generator register goes
    into the call's invariant and comes back; nothing is owed; the kernel has no semaphore of its own. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (U8 m) c).loose
  hwaits := Pipeline.hwaits_of_owed_zero _ _ _ _ L lv 4 fun _ _ => rfl
  pre c := iprop(StableHlo.held (c : Thread nD τ) (Pipeline.ucRefs τ sig) (W8 m c) ∗ R c)
  post c := iprop(StableHlo.held (c : Thread nD τ) (Pipeline.ucRefs τ sig) (W9 m c) ∗ R c)
  X c := iprop(∃ r, prngReg c r)
  Y c := iprop(∃ r, prngReg c r)
  Z c := Pipeline.unscopedRest (Ix := Unit) (Name := ℕ) (U := UR sig nD τ) (Lvl := ℕ) spec4 c (U8 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (U8 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    exact (toΦA4 c _).trans (hin4 (U8 m) c)
  hout c := by
    rw [Pipeline.ownSems0_none]
    exact (hout4 (U8 m) c).trans (ofΦA4 c)
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (U8 m c) (U9 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Main as segments, and the launch -/

/-- Main's ten items in order. -/
abbrev mainSegs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)),
    .region (reg3 m),
    .region (reg4 m),
    .host (hseg hostOps5 hostOps5_sub hostOps5_fresh (W9 m)) ]

/-- Main is the run of those segments. -/
theorem main_run (c : Dev nD) : main (F := F) c = Pipeline.Seg.run (mainSegs m) := (main_chain c).trans (by chain_rfl)

set_option backward.isDefEq.respectTransparency.types false in
/-- From any memory with zero counters every weakly fair execution of main terminates, nothing faulting, and every
    final memory holds each unscoped buffer of each core at the fold's last contents. -/
theorem run_all (ρ : Dev nD → PrngReg) :
    θ_run defs (onTc (τ := τ) (main (F := F))) ⟨m, fun _ => 0, ρ⟩
      (fun r => ∀ c : Dev nD, ∀ b ∈ Pipeline.ucRefs τ sig, r.2.mem (((c : Thread nD τ)).1, b) = W10 m c b) :=
  Pipeline.θ_run_regions_kit (pcfgs (F := F)) adm (pdats m) () cellOf_inj emb₁ defs₀ 𝒱₀ L lv m ρ main (mainSegs m)
    (fun c Q => by rw [main_run m c])
    (by simp only [mainSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tlast m)
    (hch := ⟨fun _ => .rfl, fun _ => .rfl, fun _ => .rfl, fun _ => .rfl, fun _ => .rfl, fun _ => .rfl, fun _ => .rfl, fun _ => .rfl,
      fun _ => .rfl, fun _ => .rfl, fun c => by
        show iprop(StableHlo.held (c : Thread nD τ) (Pipeline.ucRefs τ sig) (W10 m c) ∗ R c) ⊢ _
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m c b)
    (hfin := fun c s' => by
      iintro ⟨⟨Hh, -⟩, HSI⟩
      unfold StableHlo.held
      imodintro
      iapply (pointsTo_read_all (Pipeline.ucRefs τ sig) (fun b => (((c : Thread nD τ)).1, b)) (W10 m c) s')
      isplitl [Hh] <;> iassumption)
    (hQ := fun s h c => h c)

/-- An unscoped reference of a core is among those the last thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.KernelIdeal.Hand

end
-- ==== Proof.KI.WalkArgs.lean ====
/-
  Every argument of the main function ends as launched.

  A buffer that no host stretch writes and that is no array of any call's windows is carried through every item
  unchanged: a host stretch keeps what it does not write, a call keeps what is not one of its arrays. The seven
  arguments are such buffers.
-/
import proofs.«424885_j32023276159510_1_alg».proof.Proof.KI.Fold

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat)

variable {F : FTy → Type} [FloatOps F]

variable (m : (ℓ : Loc nD τ sig) → Buf (Elt F) ℓ)

/-! ## A buffer nothing touches, carried from the launch -/

/-- Through the first host stretch and call 0. -/
theorem W2_carried (c : Dev nD) (r : Ref sig .tc)
    (h0 : r ∉ hostOps0_W) (a0 : ∀ w, Pipeline.arrRef spec0 w ≠ r) :
    W2 m c r = m ((c : Thread nD τ).loc r) :=
  (W2_of_ne m c r a0).trans <| (W1_keep m c r h0).trans rfl

/-- On through the second host stretch and call 1. -/
theorem W4_carried (c : Dev nD) (r : Ref sig .tc)
    (h0 : r ∉ hostOps0_W) (a0 : ∀ w, Pipeline.arrRef spec0 w ≠ r)
    (h1 : r ∉ hostOps1_W) (a1 : ∀ w, Pipeline.arrRef spec1 w ≠ r) :
    W4 m c r = m ((c : Thread nD τ).loc r) :=
  (W4_of_ne m c r a1).trans <| (W3_keep m c r h1).trans <| W2_carried m c r h0 a0

/-- On through the third host stretch and call 2. -/
theorem W6_carried (c : Dev nD) (r : Ref sig .tc)
    (h0 : r ∉ hostOps0_W) (a0 : ∀ w, Pipeline.arrRef spec0 w ≠ r)
    (h1 : r ∉ hostOps1_W) (a1 : ∀ w, Pipeline.arrRef spec1 w ≠ r)
    (h2 : r ∉ hostOps2_W) (a2 : ∀ w, Pipeline.arrRef spec2 w ≠ r) :
    W6 m c r = m ((c : Thread nD τ).loc r) :=
  (W6_of_ne m c r a2).trans <| (W5_keep m c r h2).trans <| W4_carried m c r h0 a0 h1 a1

/-- On through the fourth host stretch, calls 3 and 4 and the last host stretch: to the return. -/
theorem W10_carried (c : Dev nD) (r : Ref sig .tc)
    (h0 : r ∉ hostOps0_W) (a0 : ∀ w, Pipeline.arrRef spec0 w ≠ r)
    (h1 : r ∉ hostOps1_W) (a1 : ∀ w, Pipeline.arrRef spec1 w ≠ r)
    (h2 : r ∉ hostOps2_W) (a2 : ∀ w, Pipeline.arrRef spec2 w ≠ r)
    (h3 : r ∉ hostOps3_W) (a3 : ∀ w, Pipeline.arrRef spec3 w ≠ r)
    (a4 : ∀ w, Pipeline.arrRef spec4 w ≠ r) (h5 : r ∉ hostOps5_W) :
    W10 m c r = m ((c : Thread nD τ).loc r) :=
  (W10_keep m c r h5).trans <| (W9_of_ne m c r a4).trans <| (W8_of_ne m c r a3).trans <|
    (W7_keep m c r h3).trans <| W6_carried m c r h0 a0 h1 a1 h2 a2

/-! ## The arguments -/

theorem W10_main_arg0 (c : Dev nD) : W10 m c main_arg0 = m ((c : Thread nD τ).loc main_arg0) :=
  W10_carried m c main_arg0 (by decide) (by decide) (by decide) (by decide) (by decide) (by decide)
    (by decide) (by decide) (by decide) (by decide)
theorem W10_main_arg1 (c : Dev nD) : W10 m c main_arg1 = m ((c : Thread nD τ).loc main_arg1) :=
  W10_carried m c main_arg1 (by decide) (by decide) (by decide) (by decide) (by decide) (by decide)
    (by decide) (by decide) (by decide) (by decide)
theorem W10_main_arg2 (c : Dev nD) : W10 m c main_arg2 = m ((c : Thread nD τ).loc main_arg2) :=
  W10_carried m c main_arg2 (by decide) (by decide) (by decide) (by decide) (by decide) (by decide)
    (by decide) (by decide) (by decide) (by decide)
theorem W10_main_arg3 (c : Dev nD) : W10 m c main_arg3 = m ((c : Thread nD τ).loc main_arg3) :=
  W10_carried m c main_arg3 (by decide) (by decide) (by decide) (by decide) (by decide) (by decide)
    (by decide) (by decide) (by decide) (by decide)
theorem W10_main_arg4 (c : Dev nD) : W10 m c main_arg4 = m ((c : Thread nD τ).loc main_arg4) :=
  W10_carried m c main_arg4 (by decide) (by decide) (by decide) (by decide) (by decide) (by decide)
    (by decide) (by decide) (by decide) (by decide)
theorem W10_main_arg5 (c : Dev nD) : W10 m c main_arg5 = m ((c : Thread nD τ).loc main_arg5) :=
  W10_carried m c main_arg5 (by decide) (by decide) (by decide) (by decide) (by decide) (by decide)
    (by decide) (by decide) (by decide) (by decide)
theorem W10_main_arg6 (c : Dev nD) : W10 m c main_arg6 = m ((c : Thread nD τ).loc main_arg6) :=
  W10_carried m c main_arg6 (by decide) (by decide) (by decide) (by decide) (by decide) (by decide)
    (by decide) (by decide) (by decide) (by decide)

end Cert.KernelIdeal.Hand

end
-- ==== Proof.KI.Frame.lean ====
/-
  What every run of the program ends with: the result buffer at the fold's last contents, and each of the seven
  argument arrays as launched — no host operation writes an argument and no call has one among its output arrays.
-/
import proofs.«424885_j32023276159510_1_alg».proof.Proof.KI.Run
import proofs.«424885_j32023276159510_1_alg».proof.Proof.KI.WalkArgs

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]

variable (m : (ℓ : Loc nD τ sig) → Buf (Elt F) ℓ)

/-- Every weakly fair execution from `m` with zero counters terminates, nothing faulting, with the result buffer at
    `W10 m c main_v13` and the arguments unchanged. -/
theorem run_result (ρ : Dev nD → PrngReg) :
    θ_run defs (onTc (τ := τ) (main (F := F))) ⟨m, fun _ => 0, ρ⟩ (fun r => ∀ c : Dev nD,
      r.2.mem ((c.tc : Thread nD τ).loc main_v13) = W10 m c main_v13
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨h c _ (mem_uc main_v13 (by decide)),
      (h c _ (mem_uc main_arg0 (by decide))).trans (W10_main_arg0 m c),
      (h c _ (mem_uc main_arg1 (by decide))).trans (W10_main_arg1 m c),
      (h c _ (mem_uc main_arg2 (by decide))).trans (W10_main_arg2 m c),
      (h c _ (mem_uc main_arg3 (by decide))).trans (W10_main_arg3 m c),
      (h c _ (mem_uc main_arg4 (by decide))).trans (W10_main_arg4 m c),
      (h c _ (mem_uc main_arg5 (by decide))).trans (W10_main_arg5 m c),
      (h c _ (mem_uc main_arg6 (by decide))).trans (W10_main_arg6 m c)⟩) (run_all m ρ)

/-- The frame: the program runs to its end and its argument arrays end as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => (h c).2) (run_result m ρ)

end Cert.KernelIdeal.Hand

end
-- ==== Proof.KI.Walk.lean ====
/-
  What the buffers hold between the items of the main function, read where the calls and the return read them.

  Three kinds of fact. A call's input that an earlier call wrote is that call's output array: nothing between the
  two writes it. A call's input that a host reshape wrote is the launched argument read at the index of the same
  row-major position; the change of format in front of call 3 is the identity at the extended reals. The returned
  buffer is call 4's output array cut back in two batches.
-/
import proofs.«424885_j32023276159510_1_alg».proof.Proof.KI.WalkArgs
import Idealize.ShloMosaic.Lib.StableHlo.Run
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat)
open Idealize.ShloMosaic.ValueIdx

section AnyFloat

variable {F : FTy → Type} [FloatOps F]

variable (m : (ℓ : Loc nD τ sig) → Buf (Elt F) ℓ)

/-! ## Which array a call's input is -/

/-- Call 3's second input is what call 0 left in its output array: nothing between writes it. -/
theorem U7_v2 (c : Dev nD) : U7 m c main_v2 = (dat0 (U1 m) c).arrAt 2 cfg0.N :=
  (W7_keep m c main_v2 (by decide)).trans <| (W6_of_ne m c main_v2 (by decide)).trans <|
    (W5_keep m c main_v2 (by decide)).trans <| (W4_of_ne m c main_v2 (by decide)).trans <|
    (W3_keep m c main_v2 (by decide)).trans <| W2_arr m c 2
/-- Call 3's third input is what call 1 left in its output array. -/
theorem U7_v5 (c : Dev nD) : U7 m c main_v5 = (dat1 (U3 m) c).arrAt 2 cfg1.N :=
  (W7_keep m c main_v5 (by decide)).trans <| (W6_of_ne m c main_v5 (by decide)).trans <|
    (W5_keep m c main_v5 (by decide)).trans <| W4_arr m c 2
/-- Call 4's second input is what call 2 left in its output array. -/
theorem U8_v8 (c : Dev nD) : U8 m c main_v8 = (dat2 (U5 m) c).arrAt 2 cfg2.N :=
  (W8_of_ne m c main_v8 (by decide)).trans <| (W7_keep m c main_v8 (by decide)).trans <| W6_arr m c 2
/-- Call 4's first input is what call 3 left in its output array. -/
theorem U8_v11 (c : Dev nD) : U8 m c main_v11 = (dat3 (U7 m) c).arrAt 3 cfg3.N :=
  W8_arr m c 3

/-! ## Reshapes read at an index

A reshape keeps the row-major position: the entry of the result at an index is the operand's entry at the index
of the same position. Each lemma below is that fact at one pair of shapes, with both indices written by coordinates. -/

section Casts
variable {α : Type}

/-- Rows split in groups of 32: row `r` is row `r % 32` of group `r / 32`. -/
theorem cast_rows_g32 (x : (⟨2, ![352256, 64]⟩ : Shape).Idx → α)
    (h : (⟨2, ![352256, 64]⟩ : Shape).ShapeCasts ⟨3, ![11008, 32, 64]⟩) (r : Fin 352256) (j : Fin 64) :
    shapeCast ⟨3, ![11008, 32, 64]⟩ x h
      (ix3 (⟨r.val / 32, by omega⟩ : Fin 11008) (⟨r.val % 32, by omega⟩ : Fin 32) j) = x (ix2 r j) :=
  shapeCast_apply x h _ _ (by
    rw [Shape.rowMajor_val_two, Shape.rowMajor_val_three]
    show r.val * 64 + j.val = (r.val / 32 * 32 + r.val % 32) * 64 + j.val
    omega)

/-- A vector of pairs split in groups of 32 pairs: entry `k` is half `k % 2` of pair `k / 2 % 32` of group `k / 64`. -/
theorem cast_pairs_g32 (x : (⟨1, ![704512]⟩ : Shape).Idx → α)
    (h : (⟨1, ![704512]⟩ : Shape).ShapeCasts ⟨3, ![11008, 32, 2]⟩) (k : Fin 704512) :
    shapeCast ⟨3, ![11008, 32, 2]⟩ x h
      (ix3 (⟨k.val / 64, by omega⟩ : Fin 11008) (⟨k.val / 2 % 32, by omega⟩ : Fin 32) (⟨k.val % 2, by omega⟩ : Fin 2))
      = x (ix1 k) :=
  shapeCast_apply x h _ _ (by
    rw [Shape.rowMajor_val_one, Shape.rowMajor_val_three]
    show k.val = (k.val / 64 * 32 + k.val / 2 % 32) * 2 + k.val % 2
    omega)

/-- Rows split in groups of 86. -/
theorem cast_rows_g86 (x : (⟨2, ![352256, 64]⟩ : Shape).Idx → α)
    (h : (⟨2, ![352256, 64]⟩ : Shape).ShapeCasts ⟨3, ![4096, 86, 64]⟩) (r : Fin 352256) (j : Fin 64) :
    shapeCast ⟨3, ![4096, 86, 64]⟩ x h
      (ix3 (⟨r.val / 86, by omega⟩ : Fin 4096) (⟨r.val % 86, by omega⟩ : Fin 86) j) = x (ix2 r j) :=
  shapeCast_apply x h _ _ (by
    rw [Shape.rowMajor_val_two, Shape.rowMajor_val_three]
    show r.val * 64 + j.val = (r.val / 86 * 86 + r.val % 86) * 64 + j.val
    omega)

/-- A vector of pairs split in groups of 86 pairs. -/
theorem cast_pairs_g86 (x : (⟨1, ![704512]⟩ : Shape).Idx → α)
    (h : (⟨1, ![704512]⟩ : Shape).ShapeCasts ⟨3, ![4096, 86, 2]⟩) (k : Fin 704512) :
    shapeCast ⟨3, ![4096, 86, 2]⟩ x h
      (ix3 (⟨k.val / 172, by omega⟩ : Fin 4096) (⟨k.val / 2 % 86, by omega⟩ : Fin 86) (⟨k.val % 2, by omega⟩ : Fin 2))
      = x (ix1 k) :=
  shapeCast_apply x h _ _ (by
    rw [Shape.rowMajor_val_one, Shape.rowMajor_val_three]
    show k.val = (k.val / 172 * 86 + k.val / 2 % 86) * 2 + k.val % 2
    omega)

/-- Two batches of 2048 rows laid one after the other: row `p` is row `p % 2048` of batch `p / 2048`. -/
theorem cast_batches_flat (x : (⟨3, ![2, 2048, 4096]⟩ : Shape).Idx → α)
    (h : (⟨3, ![2, 2048, 4096]⟩ : Shape).ShapeCasts ⟨2, ![4096, 4096]⟩) (p e : Fin 4096) :
    shapeCast ⟨2, ![4096, 4096]⟩ x h (ix2 p e)
      = x (ix3 (⟨p.val / 2048, by omega⟩ : Fin 2) (⟨p.val % 2048, by omega⟩ : Fin 2048) e) :=
  shapeCast_apply x h _ _ (by
    rw [Shape.rowMajor_val_three, Shape.rowMajor_val_two]
    show (p.val / 2048 * 2048 + p.val % 2048) * 4096 + e.val = p.val * 4096 + e.val
    omega)

/-- The rows cut back in two batches: row `t` of batch `b` is row `b * 2048 + t`. -/
theorem cast_flat_batches (x : (⟨2, ![4096, 4096]⟩ : Shape).Idx → α)
    (h : (⟨2, ![4096, 4096]⟩ : Shape).ShapeCasts ⟨3, ![2, 2048, 4096]⟩) (b : Fin 2) (t : Fin 2048) (d : Fin 4096) :
    shapeCast ⟨3, ![2, 2048, 4096]⟩ x h (ix3 b t d)
      = x (ix2 (⟨b.val * 2048 + t.val, by omega⟩ : Fin 4096) d) :=
  shapeCast_apply x h _ _ (by
    rw [Shape.rowMajor_val_two, Shape.rowMajor_val_three]
    show (b.val * 2048 + t.val) * 4096 + d.val = (b.val * 2048 + t.val) * 4096 + d.val
    rfl)

end Casts

/-! ## The reshaped inputs of the three dequantising calls -/

theorem U1_v0_eq (c : Dev nD) :
    (U1 m c main_v0 : S11008x32x64.Idx → Elt F (.i32)) =
      shapeCast S11008x32x64 (m ((c : Thread nD τ).loc main_arg1)) shapeCasts_S352256x64_S11008x32x64 := by
  show StableHlo.after hostOps0 _ (Proc.devRef .tc main_v0) = _
  after_results
  rfl
theorem U1_v1_eq (c : Dev nD) :
    (U1 m c main_v1 : S11008x32x2.Idx → Elt F (.f32)) =
      shapeCast S11008x32x2 (m ((c : Thread nD τ).loc main_arg2)) shapeCasts_S704512_S11008x32x2 := by
  show StableHlo.after hostOps0 _ (Proc.devRef .tc main_v1) = _
  after_results
  rfl

theorem U1_v0_apply (c : Dev nD) (r : Fin 352256) (j : Fin 64) :
    U1 m c main_v0 (ix3 (⟨r.val / 32, by omega⟩ : Fin 11008) (⟨r.val % 32, by omega⟩ : Fin 32) j)
      = m ((c : Thread nD τ).loc main_arg1) (ix2 r j) :=
  (congrFun (U1_v0_eq m c) _).trans (cast_rows_g32 _ _ r j)
theorem U1_v1_apply (c : Dev nD) (k : Fin 704512) :
    U1 m c main_v1 (ix3 (⟨k.val / 64, by omega⟩ : Fin 11008) (⟨k.val / 2 % 32, by omega⟩ : Fin 32) (⟨k.val % 2, by omega⟩ : Fin 2))
      = m ((c : Thread nD τ).loc main_arg2) (ix1 k) :=
  (congrFun (U1_v1_eq m c) _).trans (cast_pairs_g32 _ _ k)

theorem U3_v3_eq (c : Dev nD) :
    (U3 m c main_v3 : S11008x32x64.Idx → Elt F (.i32)) =
      shapeCast S11008x32x64 (m ((c : Thread nD τ).loc main_arg5)) shapeCasts_S352256x64_S11008x32x64 := by
  have e : (W2 m c main_arg5 : S352256x64.Idx → Elt F (.i32)) = m ((c : Thread nD τ).loc main_arg5) :=
    W2_carried m c main_arg5 (by decide) (by decide)
  have e' : (U3 m c main_v3 : S11008x32x64.Idx → Elt F (.i32)) =
      shapeCast S11008x32x64 (W2 m c main_arg5) shapeCasts_S352256x64_S11008x32x64 := by
    show StableHlo.after hostOps1 _ (Proc.devRef .tc main_v3) = _
    after_results
    rfl
  exact e'.trans (congrArg (fun x => shapeCast S11008x32x64 x shapeCasts_S352256x64_S11008x32x64) e)
theorem U3_v4_eq (c : Dev nD) :
    (U3 m c main_v4 : S11008x32x2.Idx → Elt F (.f32)) =
      shapeCast S11008x32x2 (m ((c : Thread nD τ).loc main_arg6)) shapeCasts_S704512_S11008x32x2 := by
  have e : (W2 m c main_arg6 : S704512.Idx → Elt F (.f32)) = m ((c : Thread nD τ).loc main_arg6) :=
    W2_carried m c main_arg6 (by decide) (by decide)
  have e' : (U3 m c main_v4 : S11008x32x2.Idx → Elt F (.f32)) =
      shapeCast S11008x32x2 (W2 m c main_arg6) shapeCasts_S704512_S11008x32x2 := by
    show StableHlo.after hostOps1 _ (Proc.devRef .tc main_v4) = _
    after_results
    rfl
  exact e'.trans (congrArg (fun x => shapeCast S11008x32x2 x shapeCasts_S704512_S11008x32x2) e)

theorem U3_v3_apply (c : Dev nD) (r : Fin 352256) (j : Fin 64) :
    U3 m c main_v3 (ix3 (⟨r.val / 32, by omega⟩ : Fin 11008) (⟨r.val % 32, by omega⟩ : Fin 32) j)
      = m ((c : Thread nD τ).loc main_arg5) (ix2 r j) :=
  (congrFun (U3_v3_eq m c) _).trans (cast_rows_g32 _ _ r j)
theorem U3_v4_apply (c : Dev nD) (k : Fin 704512) :
    U3 m c main_v4 (ix3 (⟨k.val / 64, by omega⟩ : Fin 11008) (⟨k.val / 2 % 32, by omega⟩ : Fin 32) (⟨k.val % 2, by omega⟩ : Fin 2))
      = m ((c : Thread nD τ).loc main_arg6) (ix1 k) :=
  (congrFun (U3_v4_eq m c) _).trans (cast_pairs_g32 _ _ k)

theorem U5_v6_eq (c : Dev nD) :
    (U5 m c main_v6 : S4096x86x64.Idx → Elt F (.i32)) =
      shapeCast S4096x86x64 (m ((c : Thread nD τ).loc main_arg3)) shapeCasts_S352256x64_S4096x86x64 := by
  have e : (W4 m c main_arg3 : S352256x64.Idx → Elt F (.i32)) = m ((c : Thread nD τ).loc main_arg3) :=
    W4_carried m c main_arg3 (by decide) (by decide) (by decide) (by decide)
  have e' : (U5 m c main_v6 : S4096x86x64.Idx → Elt F (.i32)) =
      shapeCast S4096x86x64 (W4 m c main_arg3) shapeCasts_S352256x64_S4096x86x64 := by
    show StableHlo.after hostOps2 _ (Proc.devRef .tc main_v6) = _
    after_results
    rfl
  exact e'.trans (congrArg (fun x => shapeCast S4096x86x64 x shapeCasts_S352256x64_S4096x86x64) e)
theorem U5_v7_eq (c : Dev nD) :
    (U5 m c main_v7 : S4096x86x2.Idx → Elt F (.f32)) =
      shapeCast S4096x86x2 (m ((c : Thread nD τ).loc main_arg4)) shapeCasts_S704512_S4096x86x2 := by
  have e : (W4 m c main_arg4 : S704512.Idx → Elt F (.f32)) = m ((c : Thread nD τ).loc main_arg4) :=
    W4_carried m c main_arg4 (by decide) (by decide) (by decide) (by decide)
  have e' : (U5 m c main_v7 : S4096x86x2.Idx → Elt F (.f32)) =
      shapeCast S4096x86x2 (W4 m c main_arg4) shapeCasts_S704512_S4096x86x2 := by
    show StableHlo.after hostOps2 _ (Proc.devRef .tc main_v7) = _
    after_results
    rfl
  exact e'.trans (congrArg (fun x => shapeCast S4096x86x2 x shapeCasts_S704512_S4096x86x2) e)

theorem U5_v6_apply (c : Dev nD) (r : Fin 352256) (j : Fin 64) :
    U5 m c main_v6 (ix3 (⟨r.val / 86, by omega⟩ : Fin 4096) (⟨r.val % 86, by omega⟩ : Fin 86) j)
      = m ((c : Thread nD τ).loc main_arg3) (ix2 r j) :=
  (congrFun (U5_v6_eq m c) _).trans (cast_rows_g86 _ _ r j)
theorem U5_v7_apply (c : Dev nD) (k : Fin 704512) :
    U5 m c main_v7 (ix3 (⟨k.val / 172, by omega⟩ : Fin 4096) (⟨k.val / 2 % 86, by omega⟩ : Fin 86) (⟨k.val % 2, by omega⟩ : Fin 2))
      = m ((c : Thread nD τ).loc main_arg4) (ix1 k) :=
  (congrFun (U5_v7_eq m c) _).trans (cast_pairs_g86 _ _ k)

/-! ## The activations: flattened, then changed in format -/

theorem U7_v10_eq (c : Dev nD) :
    (U7 m c main_v10 : S4096x4096.Idx → Elt F (.bf16)) =
      truncf .bf16 (shapeCast S4096x4096 (m ((c : Thread nD τ).loc main_arg0)) shapeCasts_S2x2048x4096_S4096x4096 :
        FVec F S4096x4096 .f32) bitsLt_bf16_f32 := by
  have e : (W6 m c main_arg0 : S2x2048x4096.Idx → Elt F (.f32)) = m ((c : Thread nD τ).loc main_arg0) :=
    W6_carried m c main_arg0 (by decide) (by decide) (by decide) (by decide) (by decide) (by decide)
  have e' : (U7 m c main_v10 : S4096x4096.Idx → Elt F (.bf16)) =
      truncf .bf16 (shapeCast S4096x4096 (W6 m c main_arg0) shapeCasts_S2x2048x4096_S4096x4096 :
        FVec F S4096x4096 .f32) bitsLt_bf16_f32 := by
    show StableHlo.after hostOps3 _ (Proc.devRef .tc main_v10) = _
    after_results
    rfl
  exact e'.trans (congrArg (fun x => truncf .bf16 (shapeCast S4096x4096 x shapeCasts_S2x2048x4096_S4096x4096 :
        FVec F S4096x4096 .f32) bitsLt_bf16_f32) e)

/-! ## The result: call 4's output array cut back in batches -/

theorem W10_v13_eq (c : Dev nD) :
    (W10 m c main_v13 : S2x2048x4096.Idx → Elt F (.f32)) =
      shapeCast S2x2048x4096 ((dat4 (U8 m) c).arrAt 2 cfg4.N : S4096x4096.Idx → Elt F (.f32))
        shapeCasts_S4096x4096_S2x2048x4096 := by
  have e : (W9 m c main_v12 : S4096x4096.Idx → Elt F (.f32)) = (dat4 (U8 m) c).arrAt 2 cfg4.N := W9_arr m c 2
  have e' : (W10 m c main_v13 : S2x2048x4096.Idx → Elt F (.f32)) =
      shapeCast S2x2048x4096 (W9 m c main_v12) shapeCasts_S4096x4096_S2x2048x4096 := by
    show StableHlo.after hostOps5 _ (Proc.devRef .tc main_v13) = _
    after_results
    rfl
  exact e'.trans (congrArg (fun x => shapeCast S2x2048x4096 x shapeCasts_S4096x4096_S2x2048x4096) e)

theorem W10_v13_apply (c : Dev nD) (b : Fin 2) (t : Fin 2048) (d : Fin 4096) :
    W10 m c main_v13 (ix3 b t d)
      = (dat4 (U8 m) c).arrAt 2 cfg4.N (ix2 (⟨b.val * 2048 + t.val, by omega⟩ : Fin 4096) d) :=
  (congrFun (W10_v13_eq m c) _).trans (cast_flat_batches _ _ b t d)

end AnyFloat

/-- At the extended reals the change of format is the identity: the bf16 activations read at row `p` are the
    launched ones at row `p % 2048` of batch `p / 2048`. -/
theorem U7_v10_apply (m : (ℓ : Loc nD τ sig) → Buf (Elt Ideal) ℓ) (c : Dev nD) (p e : Fin 4096) :
    U7 m c main_v10 (ix2 p e)
      = m ((c : Thread nD τ).loc main_arg0) (ix3 (⟨p.val / 2048, by omega⟩ : Fin 2) (⟨p.val % 2048, by omega⟩ : Fin 2048) e) :=
  (congrFun (U7_v10_eq m c) _).trans (cast_batches_flat _ _ p e)

end Cert.KernelIdeal.Hand

end
-- ==== Proof.Spec.lean ====
/-
  The mathematical content of the claim, stated once over plain coordinates, with no program in sight.

  A packed word carries two signed 4-bit values: its arithmetic shift right by four (`hi`) and its low nibble
  sign-extended, `((b &&& 15) ^^^ 8) - 8` (`lo`). Packed row `r` of a weight tensor dequantises to a run of 128
  consecutive entries of the flat weight matrix: the 64 high values scaled by `s (2r)`, then the 64 low values scaled by
  `s (2r+1)` (`deq`). Read as an [out, in] matrix with `in = 128 · ncb`, entry `(o, q)` lies in packed row
  `o · ncb + q / 128` at position `q % 128` (`Wa` for ncb = 32, `Wb` for ncb = 86).
  The layer itself: `gate` is `silu (x · W1ᵀ) · (x · W3ᵀ)` with `silu a = a · logistic a`, `down` is `h · W2ᵀ`, and
  `result` reads the [2, 2048, 4096] input as 4096 rows.
-/
import Idealize.ShloMosaic.PureOps.Ideal

noncomputable section

namespace Cert.Spec

open Idealize.ShloMosaic

/-- The high nibble of a packed word, signed: the arithmetic shift right by four, as a real. -/
def hi (b : BitVec 32) : EReal := (((b.sshiftRight' 4#32).toInt : ℝ) : EReal)

/-- The low nibble of a packed word, sign-extended from four bits, as a real. -/
def lo (b : BitVec 32) : EReal := (((((b &&& 15#32) ^^^ 8#32) - 8#32).toInt : ℝ) : EReal)

/-- Entry `j` of the 128 consecutive dequantised values packed row `r` produces. -/
def deq (w : Fin 352256 → Fin 64 → BitVec 32) (s : Fin 704512 → EReal) (r : Fin 352256) (j : Fin 128) : EReal :=
  if h : j.val < 64 then hi (w r ⟨j.val, h⟩) * s ⟨2 * r.val, by omega⟩
  else lo (w r ⟨j.val - 64, by omega⟩) * s ⟨2 * r.val + 1, by omega⟩

/-- The dequantised [11008, 4096] matrix (32 packed rows per matrix row). -/
def Wa (w : Fin 352256 → Fin 64 → BitVec 32) (s : Fin 704512 → EReal) (o : Fin 11008) (q : Fin 4096) : EReal :=
  deq w s ⟨o.val * 32 + q.val / 128, by omega⟩ ⟨q.val % 128, Nat.mod_lt _ (by decide)⟩

/-- The dequantised [4096, 11008] matrix (86 packed rows per matrix row). -/
def Wb (w : Fin 352256 → Fin 64 → BitVec 32) (s : Fin 704512 → EReal) (o : Fin 4096) (q : Fin 11008) : EReal :=
  deq w s ⟨o.val * 86 + q.val / 128, by omega⟩ ⟨q.val % 128, Nat.mod_lt _ (by decide)⟩

/-- The gated hidden activations: `silu (x W1ᵀ) · (x W3ᵀ)`, `silu a = a · logistic a`. -/
def gate (x : Fin 4096 → Fin 4096 → EReal) (W1 W3 : Fin 11008 → Fin 4096 → EReal) (p : Fin 4096) (k : Fin 11008) : EReal :=
  ((∑ d : Fin 4096, x p d * W1 k d) * Ideal.logistic (∑ d : Fin 4096, x p d * W1 k d)) * (∑ d : Fin 4096, x p d * W3 k d)

/-- The down projection `h W2ᵀ`. -/
def down (h : Fin 4096 → Fin 11008 → EReal) (W2 : Fin 4096 → Fin 11008 → EReal) (p d : Fin 4096) : EReal :=
  ∑ k : Fin 11008, h p k * W2 d k

/-- Row `p` of the input read as 4096 rows: batch `p / 2048`, position `p % 2048`. -/
def rows (x : Fin 2 → Fin 2048 → Fin 4096 → EReal) (p : Fin 4096) (e : Fin 4096) : EReal :=
  x ⟨p.val / 2048, by omega⟩ ⟨p.val % 2048, Nat.mod_lt _ (by decide)⟩ e

/-- The whole layer at batch `b`, position `t`, feature `d`. -/
def result (x : Fin 2 → Fin 2048 → Fin 4096 → EReal)
    (w1 : Fin 352256 → Fin 64 → BitVec 32) (s1 : Fin 704512 → EReal)
    (w2 : Fin 352256 → Fin 64 → BitVec 32) (s2 : Fin 704512 → EReal)
    (w3 : Fin 352256 → Fin 64 → BitVec 32) (s3 : Fin 704512 → EReal)
    (b : Fin 2) (t : Fin 2048) (d : Fin 4096) : EReal :=
  down (gate (rows x) (Wa w1 s1) (Wa w3 s3)) (Wb w2 s2) ⟨b.val * 2048 + t.val, by omega⟩ d

end Cert.Spec

end
-- ==== Proof.KI.Val0.lean ====
/-
  What the first dequantisation call leaves in its output array, entry by entry.

  A packed word carries two signed 4-bit values. At point `t` the call takes rows `128 t … 128 t + 127` of the words
  (as [128, 32, 64]) and of the scales (as [128, 32, 2]); entry `(p, q)` of the [128, 4096] block it stores lies in column
  block `q / 128` at position `q % 128`: below 64 it is the high value of word `q % 128` times the first scale of the pair,
  from 64 on the low value of word `q % 128 - 64` times the second. Row `p` of the block is row `128 t + p` of the arrays,
  the 86 blocks tile the 11008 rows (row `r` lies in block `r / 128`), so the array ends as the dequantised matrix of the
  words and scales the call found.
-/
import proofs.«424885_j32023276159510_1_alg».proof.Proof.KI.Reg0
import proofs.«424885_j32023276159510_1_alg».proof.Proof.Spec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

namespace Dq0

/-- On the vector unit an arithmetic shift right of a 32-bit word by four is the plain signed shift. -/
theorem shrsi_four (b : BitVec 32) : IntOp.shrsi .vector b 4#32 = b.sshiftRight' 4#32 := by
  unfold IntOp.shrsi
  rw [if_pos (by decide)]

theorem pay0_hi (x0 : Vec Ideal S128x32x64 .i32) (x1 : Vec Ideal S128x32x2 .f32) (p : Fin 128) (b : Fin 32) (j : Fin 128)
    (hj : j.val < 64) (q : Fin 4096) (hq : q.val = b.val * 128 + j.val) :
    k0_pay1 (F := Ideal) x0 x1 (ix2 p q) = Cert.Spec.hi (x0 (ix3 p b ⟨j.val, hj⟩)) * x1 (ix3 p b (0 : Fin 2)) := by
  unfold k0_pay1
  refine (truncf_apply _ bitsLt_bf16_f32 (ix2 p q)).trans ?_
  refine (shapeCast_apply _ _ (ix2 p q) (ix3 p b j) ?_).trans ?_
  · rw [Shape.rowMajor_val_three, Shape.rowMajor_val_two]
    show (p.val * 32 + b.val) * 128 + j.val = p.val * 4096 + q.val
    omega
  refine (concatenate_pair_apply_left (s₁ := S128x32x64) (s₂ := S128x32x64) _ _ _ _ (ix3 p b j) rfl (ix3 p b (⟨j.val, hj⟩ : Fin 64)) ?_).trans ?_
  · intro a
    match a with
    | ⟨0, _⟩ => rfl
    | ⟨1, _⟩ => rfl
    | ⟨2, _⟩ => rfl
  refine (mulf_apply _ _ _).trans ?_
  congr 1
  · show (((IntOp.shrsi .vector (shapeCast S128x32x64 x0 shapeCasts_S128x32x64_S128x32x64 (ix3 p b (⟨j.val, hj⟩ : Fin 64))) 4#32).toInt : ℝ) : EReal) = _
    rw [shapeCast_self, shrsi_four]
    rfl
  · refine (broadcastTo_apply _ _ _ (ix3 p b (0 : Fin 1)) ?_).trans ?_
    · intro a
      match a with
      | ⟨0, _⟩ => rfl
      | ⟨1, _⟩ => rfl
      | ⟨2, _⟩ => rfl
    refine (extractStridedSlice_apply _ _ _ _ (ix3 p b (0 : Fin 2)) ?_).trans ?_
    · intro a
      match a with
      | ⟨0, _⟩ => show p.val = 0 + p.val; omega
      | ⟨1, _⟩ => show b.val = 0 + b.val; omega
      | ⟨2, _⟩ => rfl
    rw [shapeCast_self]

theorem pay0_lo (x0 : Vec Ideal S128x32x64 .i32) (x1 : Vec Ideal S128x32x2 .f32) (p : Fin 128) (b : Fin 32) (j : Fin 128)
    (hj : 64 ≤ j.val) (q : Fin 4096) (hq : q.val = b.val * 128 + j.val) :
    k0_pay1 (F := Ideal) x0 x1 (ix2 p q) = Cert.Spec.lo (x0 (ix3 p b ⟨j.val - 64, by omega⟩)) * x1 (ix3 p b (1 : Fin 2)) := by
  unfold k0_pay1
  refine (truncf_apply _ bitsLt_bf16_f32 (ix2 p q)).trans ?_
  refine (shapeCast_apply _ _ (ix2 p q) (ix3 p b j) ?_).trans ?_
  · rw [Shape.rowMajor_val_three, Shape.rowMajor_val_two]
    show (p.val * 32 + b.val) * 128 + j.val = p.val * 4096 + q.val
    omega
  refine (concatenate_pair_apply_right (s₁ := S128x32x64) (s₂ := S128x32x64) _ _ _ _ (ix3 p b j) rfl rfl (ix3 p b (⟨j.val - 64, by omega⟩ : Fin 64)) ?_ ?_).trans ?_
  · intro a
    match a with
    | ⟨0, _⟩ => exact fun _ => rfl
    | ⟨1, _⟩ => exact fun _ => rfl
    | ⟨2, _⟩ => exact fun h => absurd rfl h
  · show j.val - 64 + 64 = j.val
    omega
  refine (mulf_apply _ _ _).trans ?_
  congr 1
  · show (((IntOp.subi (IntOp.xori (IntOp.andi (shapeCast S128x32x64 x0 shapeCasts_S128x32x64_S128x32x64 (ix3 p b (⟨j.val - 64, by omega⟩ : Fin 64))) 15#32) 8#32) 8#32).toInt : ℝ) : EReal) = _
    rw [shapeCast_self]
    rfl
  · refine (broadcastTo_apply _ _ _ (ix3 p b (0 : Fin 1)) ?_).trans ?_
    · intro a
      match a with
      | ⟨0, _⟩ => rfl
      | ⟨1, _⟩ => rfl
      | ⟨2, _⟩ => rfl
    refine (extractStridedSlice_apply _ _ _ _ (ix3 p b (1 : Fin 2)) ?_).trans ?_
    · intro a
      match a with
      | ⟨0, _⟩ => show p.val = 0 + p.val; omega
      | ⟨1, _⟩ => show b.val = 0 + b.val; omega
      | ⟨2, _⟩ => rfl
    rw [shapeCast_self]

/-- Two rank-3 indices with the same coordinates are the same index. -/
theorem ix3_congr {n0 n1 n2 : Nat} {a a' : Fin n0} {b b' : Fin n1} {e e' : Fin n2}
    (ha : a.val = a'.val) (hb : b.val = b'.val) (he : e.val = e'.val) : ix3 a b e = ix3 a' b' e' := by
  obtain rfl := Fin.ext ha
  obtain rfl := Fin.ext hb
  obtain rfl := Fin.ext he
  rfl

/-- The dequantised [11008, 4096] matrix of an array of packed words and an array of scales: packed row `r` is row
    `r / 32`, column block `r % 32` of the words; scale `k` is row `k / 64`, column block `k / 2 % 32`, entry `k % 2`
    of the scales. -/
def deq0 (A0 : S11008x32x64.Idx → BitVec 32) (A1 : S11008x32x2.Idx → EReal) (o : Fin 11008) (q : Fin 4096) : EReal :=
  Cert.Spec.Wa (fun r j => A0 (ix3 (⟨r.val / 32, by omega⟩ : Fin 11008) (⟨r.val % 32, Nat.mod_lt _ (by decide)⟩ : Fin 32) j))
    (fun k => A1 (ix3 (⟨k.val / 64, by omega⟩ : Fin 11008) (⟨k.val / 2 % 32, Nat.mod_lt _ (by decide)⟩ : Fin 32) (⟨k.val % 2, Nat.mod_lt _ (by decide)⟩ : Fin 2))) o q

/-- A block whose row `p` is row `o` of the arrays dequantises, at row `p`, to row `o` of the arrays' matrix. -/
theorem pay0_eq (A0 : S11008x32x64.Idx → BitVec 32) (A1 : S11008x32x2.Idx → EReal)
    (x0 : Vec Ideal S128x32x64 .i32) (x1 : Vec Ideal S128x32x2 .f32) (o : Fin 11008) (p : Fin 128) (q : Fin 4096)
    (h0 : ∀ (b : Fin 32) (j : Fin 64), x0 (ix3 p b j) = A0 (ix3 o b j))
    (h1 : ∀ (b : Fin 32) (e : Fin 2), x1 (ix3 p b e) = A1 (ix3 o b e)) :
    k0_pay1 (F := Ideal) x0 x1 (ix2 p q) = deq0 A0 A1 o q := by
  have hb : q.val / 128 < 32 := by have := q.isLt; omega
  have hq : q.val = (⟨q.val / 128, hb⟩ : Fin 32).val * 128 + (⟨q.val % 128, Nat.mod_lt _ (by decide)⟩ : Fin 128).val := by
    show q.val = q.val / 128 * 128 + q.val % 128
    omega
  have ho := o.isLt
  unfold deq0 Cert.Spec.Wa Cert.Spec.deq
  dsimp only
  split
  · next h =>
    rw [pay0_hi x0 x1 p ⟨q.val / 128, hb⟩ ⟨q.val % 128, Nat.mod_lt _ (by decide)⟩ h q hq, h0, h1]
    refine congrArg₂ (· * ·) (congrArg Cert.Spec.hi (congrArg A0 (ix3_congr ?_ ?_ rfl))) (congrArg A1 (ix3_congr ?_ ?_ ?_))
    all_goals dsimp only
    all_goals omega
  · next h =>
    rw [pay0_lo x0 x1 p ⟨q.val / 128, hb⟩ ⟨q.val % 128, Nat.mod_lt _ (by decide)⟩ (by dsimp only; omega) q hq, h0, h1]
    refine congrArg₂ (· * ·) (congrArg Cert.Spec.lo (congrArg A0 (ix3_congr ?_ ?_ rfl))) (congrArg A1 (ix3_congr ?_ ?_ ?_))
    all_goals dsimp only
    all_goals omega

variable (V : (c : Dev nD) → (b : Ref sig .tc) → Buf (Elt Ideal) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

/-- At point `t` every window sits at block `t` along the rows and at block 0 along the other axes. -/
theorem idx_facts0 : ∀ t : Fin cfg0.N, win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = t.val ∧ win0_2.index t (1 : Fin 2) = 0 :=
  (by decide +kernel : ∀ t : Fin grid0.N, _)

/-- Row `p` of the words' block at point `t` is row `128 t + p` of the words' array. -/
theorem iblk0_0_apply (c : Dev nD) (t : Fin cfg0.N) (p : Fin 128) (b : Fin 32) (j : Fin 64) (o : Fin 11008)
    (ho : o.val = t.val * 128 + p.val) :
    (iblk0 V c 0 t : Vec Ideal S128x32x64 .i32) (ix3 p b j) = (V c main_v0 : S11008x32x64.Idx → BitVec 32) (ix3 o b j) := by
  obtain ⟨e0, e1, e2, -⟩ := idx_facts0 t
  show V c main_v0 (((cfg0.win 0).blk t).view.emb (ix3 p b j)) = V c main_v0 (ix3 o b j)
  refine congrArg _ (funext fun a => Fin.ext ?_)
  match a with
  | ⟨0, _⟩ => show win0_0.index t (0 : Fin 3) * 128 + 1 * p.val = o.val; omega
  | ⟨1, _⟩ => show win0_0.index t (1 : Fin 3) * 32 + 1 * b.val = b.val; omega
  | ⟨2, _⟩ => show win0_0.index t (2 : Fin 3) * 64 + 1 * j.val = j.val; omega

/-- Row `p` of the scales' block at point `t` is row `128 t + p` of the scales' array. -/
theorem iblk0_1_apply (c : Dev nD) (t : Fin cfg0.N) (p : Fin 128) (b : Fin 32) (e : Fin 2) (o : Fin 11008)
    (ho : o.val = t.val * 128 + p.val) :
    (iblk0 V c 1 t : Vec Ideal S128x32x2 .f32) (ix3 p b e) = (V c main_v1 : S11008x32x2.Idx → EReal) (ix3 o b e) := by
  obtain ⟨-, -, -, e0, e1, e2, -⟩ := idx_facts0 t
  show V c main_v1 (((cfg0.win 1).blk t).view.emb (ix3 p b e)) = V c main_v1 (ix3 o b e)
  refine congrArg _ (funext fun a => Fin.ext ?_)
  match a with
  | ⟨0, _⟩ => show win0_1.index t (0 : Fin 3) * 128 + 1 * p.val = o.val; omega
  | ⟨1, _⟩ => show win0_1.index t (1 : Fin 3) * 32 + 1 * b.val = b.val; omega
  | ⟨2, _⟩ => show win0_1.index t (2 : Fin 3) * 2 + 1 * e.val = e.val; omega

/-- The matrix the call leaves: the dequantised matrix of the words and scales the call finds. -/
def W0 (c : Dev nD) : S11008x4096.Idx → EReal := fun i => deq0 (V c main_v0) (V c main_v1) (i 0) (i 1)

/-- What point `t` writes back is block `t` of that matrix. -/
theorem flushed0_eq (c : Dev nD) (t : Fin cfg0.N) :
    (dat0 (F := Ideal) V c).flushed 2 t = ((cfg0.win 2).blk t).view.read (Elt Ideal) (W0 V c) := by
  show (cfg0.win 2).cut (grid0.coords t) ((dat0 (F := Ideal) V c).after 2 t) = _
  rw [after0_2]
  unfold out0_2
  rw [View.canon_unit_zero hz2]
  simp only [View.ld_unit_zero (S := S128x32x64) hz3, View.ld_unit_zero (S := S128x32x2) hz3]
  obtain ⟨-, -, -, -, -, -, e0, e1⟩ := idx_facts0 t
  funext y
  have hp : (y 0).val < 128 := (y 0).isLt
  have hq : (y 1).val < 4096 := (y 1).isLt
  have ht : t.val < 86 := t.isLt
  obtain ⟨o, ho⟩ : ∃ o : Fin 11008, o.val = t.val * 128 + (y 0).val := ⟨⟨t.val * 128 + (y 0).val, by omega⟩, rfl⟩
  obtain ⟨p, hp'⟩ : ∃ p : Fin 128, p.val = (y 0).val := ⟨⟨(y 0).val, hp⟩, rfl⟩
  obtain ⟨q, hq'⟩ : ∃ q : Fin 4096, q.val = (y 1).val := ⟨⟨(y 1).val, hq⟩, rfl⟩
  have ey : (cfg0.win 2).xinj (grid0.coords t) y = ix2 p q :=
    funext fun a => Fin.ext (by
      match a with
      | ⟨0, _⟩ => exact hp'.symm
      | ⟨1, _⟩ => exact hq'.symm)
  show k0_pay1 (F := Ideal) (iblk0 V c 0 t) (iblk0 V c 1 t) ((cfg0.win 2).xinj (grid0.coords t) y) = W0 V c (((cfg0.win 2).blk t).view.emb y)
  rw [ey]
  have h0 : ∀ (b : Fin 32) (j : Fin 64), (iblk0 V c 0 t : Vec Ideal S128x32x64 .i32) (ix3 p b j) = (V c main_v0 : S11008x32x64.Idx → BitVec 32) (ix3 o b j) :=
    fun b j => iblk0_0_apply V c t p b j o (by omega)
  have h1 : ∀ (b : Fin 32) (e : Fin 2), (iblk0 V c 1 t : Vec Ideal S128x32x2 .f32) (ix3 p b e) = (V c main_v1 : S11008x32x2.Idx → EReal) (ix3 o b e) :=
    fun b e => iblk0_1_apply V c t p b e o (by omega)
  have hpay := pay0_eq (V c main_v0 : S11008x32x64.Idx → BitVec 32) (V c main_v1 : S11008x32x2.Idx → EReal) (iblk0 V c 0 t : Vec Ideal S128x32x64 .i32) (iblk0 V c 1 t : Vec Ideal S128x32x2 .f32) o p q h0 h1
  have eo : o = (((cfg0.win 2).blk t).view.emb y) 0 :=
    Fin.ext (by show o.val = win0_2.index t (0 : Fin 2) * 128 + 1 * (y 0).val; omega)
  have eq : q = (((cfg0.win 2).blk t).view.emb y) 1 :=
    Fin.ext (by show q.val = win0_2.index t (1 : Fin 2) * 4096 + 1 * (y 1).val; omega)
  exact hpay.trans (congrArg₂ (deq0 (V c main_v0 : S11008x32x64.Idx → BitVec 32) (V c main_v1 : S11008x32x2.Idx → EReal)) eo eq)

/-- The output array after the call is that matrix: the blocks of the 86 points tile the rows, the point covering row
    `r` being `r / 128`. -/
theorem arr0_eq (c : Dev nD) : (dat0 (F := Ideal) V c).arrAt 2 cfg0.N = W0 V c :=
  (dat0 (F := Ideal) V c).arrAt_eq_of_cover 2 (W0 V c) (fun t _ => flushed0_eq V c t) fun i => by
    have hi0 : (i 0).val < 11008 := (i 0).isLt
    have hi1 : (i 1).val < 4096 := (i 1).isLt
    obtain ⟨t, ht⟩ : ∃ t : Fin cfg0.N, t.val = (i 0).val / 128 :=
      ⟨⟨(i 0).val / 128, by rw [show cfg0.N = 86 from N_0]; omega⟩, rfl⟩
    obtain ⟨-, -, -, -, -, -, e0, e1⟩ := idx_facts0 t
    refine ⟨t, flush0_2 t, ?_⟩
    show i ∈ ((View.whole main_v2).slice (win0_2.rect t)).set
    rw [View.set_slice_whole, Rect.mem_set_unit]
    intro a
    match a with
    | ⟨0, _⟩ =>
      show win0_2.index t (0 : Fin 2) * 128 ≤ (i 0).val ∧ (i 0).val < win0_2.index t (0 : Fin 2) * 128 + 128
      omega
    | ⟨1, _⟩ =>
      show win0_2.index t (1 : Fin 2) * 4096 ≤ (i 1).val ∧ (i 1).val < win0_2.index t (1 : Fin 2) * 4096 + 4096
      omega

end Dq0

variable (V : (c : Dev nD) → (b : Ref sig .tc) → Buf (Elt Ideal) ((c : Thread nD τ).loc b))

/-- Entry `(o, q)` of the output array after the call: the dequantised matrix of the words and scales the call finds. -/
theorem arr0_apply (c : Dev nD) (o : Fin 11008) (q : Fin 4096) :
    (dat0 (F := Ideal) V c).arrAt 2 cfg0.N (ix2 o q)
      = Cert.Spec.Wa (fun r j => (V c main_v0 : S11008x32x64.Idx → BitVec 32) (ix3 (⟨r.val / 32, by omega⟩ : Fin 11008) (⟨r.val % 32, Nat.mod_lt _ (by decide)⟩ : Fin 32) j))
          (fun k => (V c main_v1 : S11008x32x2.Idx → EReal) (ix3 (⟨k.val / 64, by omega⟩ : Fin 11008) (⟨k.val / 2 % 32, Nat.mod_lt _ (by decide)⟩ : Fin 32) (⟨k.val % 2, Nat.mod_lt _ (by decide)⟩ : Fin 2))) o q := by
  rw [Dq0.arr0_eq]
  rfl

end Cert.KernelIdeal.Hand
end
-- ==== Proof.KI.Val1.lean ====
/-
  What the second dequantisation call leaves in its output array, entry by entry.

  A packed word carries two signed 4-bit values. At point `t` the call takes rows `128 t … 128 t + 127` of the words
  (as [128, 32, 64]) and of the scales (as [128, 32, 2]); entry `(p, q)` of the [128, 4096] block it stores lies in column
  block `q / 128` at position `q % 128`: below 64 it is the high value of word `q % 128` times the first scale of the pair,
  from 64 on the low value of word `q % 128 - 64` times the second. Row `p` of the block is row `128 t + p` of the arrays,
  the 86 blocks tile the 11008 rows (row `r` lies in block `r / 128`), so the array ends as the dequantised matrix of the
  words and scales the call found.
-/
import proofs.«424885_j32023276159510_1_alg».proof.Proof.KI.Reg1
import proofs.«424885_j32023276159510_1_alg».proof.Proof.Spec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

namespace Dq1

/-- On the vector unit an arithmetic shift right of a 32-bit word by four is the plain signed shift. -/
theorem shrsi_four (b : BitVec 32) : IntOp.shrsi .vector b 4#32 = b.sshiftRight' 4#32 := by
  unfold IntOp.shrsi
  rw [if_pos (by decide)]

theorem pay1_hi (x0 : Vec Ideal S128x32x64 .i32) (x1 : Vec Ideal S128x32x2 .f32) (p : Fin 128) (b : Fin 32) (j : Fin 128)
    (hj : j.val < 64) (q : Fin 4096) (hq : q.val = b.val * 128 + j.val) :
    k1_pay1 (F := Ideal) x0 x1 (ix2 p q) = Cert.Spec.hi (x0 (ix3 p b ⟨j.val, hj⟩)) * x1 (ix3 p b (0 : Fin 2)) := by
  unfold k1_pay1
  refine (truncf_apply _ bitsLt_bf16_f32 (ix2 p q)).trans ?_
  refine (shapeCast_apply _ _ (ix2 p q) (ix3 p b j) ?_).trans ?_
  · rw [Shape.rowMajor_val_three, Shape.rowMajor_val_two]
    show (p.val * 32 + b.val) * 128 + j.val = p.val * 4096 + q.val
    omega
  refine (concatenate_pair_apply_left (s₁ := S128x32x64) (s₂ := S128x32x64) _ _ _ _ (ix3 p b j) rfl (ix3 p b (⟨j.val, hj⟩ : Fin 64)) ?_).trans ?_
  · intro a
    match a with
    | ⟨0, _⟩ => rfl
    | ⟨1, _⟩ => rfl
    | ⟨2, _⟩ => rfl
  refine (mulf_apply _ _ _).trans ?_
  congr 1
  · show (((IntOp.shrsi .vector (shapeCast S128x32x64 x0 shapeCasts_S128x32x64_S128x32x64 (ix3 p b (⟨j.val, hj⟩ : Fin 64))) 4#32).toInt : ℝ) : EReal) = _
    rw [shapeCast_self, shrsi_four]
    rfl
  · refine (broadcastTo_apply _ _ _ (ix3 p b (0 : Fin 1)) ?_).trans ?_
    · intro a
      match a with
      | ⟨0, _⟩ => rfl
      | ⟨1, _⟩ => rfl
      | ⟨2, _⟩ => rfl
    refine (extractStridedSlice_apply _ _ _ _ (ix3 p b (0 : Fin 2)) ?_).trans ?_
    · intro a
      match a with
      | ⟨0, _⟩ => show p.val = 0 + p.val; omega
      | ⟨1, _⟩ => show b.val = 0 + b.val; omega
      | ⟨2, _⟩ => rfl
    rw [shapeCast_self]

theorem pay1_lo (x0 : Vec Ideal S128x32x64 .i32) (x1 : Vec Ideal S128x32x2 .f32) (p : Fin 128) (b : Fin 32) (j : Fin 128)
    (hj : 64 ≤ j.val) (q : Fin 4096) (hq : q.val = b.val * 128 + j.val) :
    k1_pay1 (F := Ideal) x0 x1 (ix2 p q) = Cert.Spec.lo (x0 (ix3 p b ⟨j.val - 64, by omega⟩)) * x1 (ix3 p b (1 : Fin 2)) := by
  unfold k1_pay1
  refine (truncf_apply _ bitsLt_bf16_f32 (ix2 p q)).trans ?_
  refine (shapeCast_apply _ _ (ix2 p q) (ix3 p b j) ?_).trans ?_
  · rw [Shape.rowMajor_val_three, Shape.rowMajor_val_two]
    show (p.val * 32 + b.val) * 128 + j.val = p.val * 4096 + q.val
    omega
  refine (concatenate_pair_apply_right (s₁ := S128x32x64) (s₂ := S128x32x64) _ _ _ _ (ix3 p b j) rfl rfl (ix3 p b (⟨j.val - 64, by omega⟩ : Fin 64)) ?_ ?_).trans ?_
  · intro a
    match a with
    | ⟨0, _⟩ => exact fun _ => rfl
    | ⟨1, _⟩ => exact fun _ => rfl
    | ⟨2, _⟩ => exact fun h => absurd rfl h
  · show j.val - 64 + 64 = j.val
    omega
  refine (mulf_apply _ _ _).trans ?_
  congr 1
  · show (((IntOp.subi (IntOp.xori (IntOp.andi (shapeCast S128x32x64 x0 shapeCasts_S128x32x64_S128x32x64 (ix3 p b (⟨j.val - 64, by omega⟩ : Fin 64))) 15#32) 8#32) 8#32).toInt : ℝ) : EReal) = _
    rw [shapeCast_self]
    rfl
  · refine (broadcastTo_apply _ _ _ (ix3 p b (0 : Fin 1)) ?_).trans ?_
    · intro a
      match a with
      | ⟨0, _⟩ => rfl
      | ⟨1, _⟩ => rfl
      | ⟨2, _⟩ => rfl
    refine (extractStridedSlice_apply _ _ _ _ (ix3 p b (1 : Fin 2)) ?_).trans ?_
    · intro a
      match a with
      | ⟨0, _⟩ => show p.val = 0 + p.val; omega
      | ⟨1, _⟩ => show b.val = 0 + b.val; omega
      | ⟨2, _⟩ => rfl
    rw [shapeCast_self]

/-- Two rank-3 indices with the same coordinates are the same index. -/
theorem ix3_congr {n0 n1 n2 : Nat} {a a' : Fin n0} {b b' : Fin n1} {e e' : Fin n2}
    (ha : a.val = a'.val) (hb : b.val = b'.val) (he : e.val = e'.val) : ix3 a b e = ix3 a' b' e' := by
  obtain rfl := Fin.ext ha
  obtain rfl := Fin.ext hb
  obtain rfl := Fin.ext he
  rfl

/-- The dequantised [11008, 4096] matrix of an array of packed words and an array of scales: packed row `r` is row
    `r / 32`, column block `r % 32` of the words; scale `k` is row `k / 64`, column block `k / 2 % 32`, entry `k % 2`
    of the scales. -/
def deq1 (A0 : S11008x32x64.Idx → BitVec 32) (A1 : S11008x32x2.Idx → EReal) (o : Fin 11008) (q : Fin 4096) : EReal :=
  Cert.Spec.Wa (fun r j => A0 (ix3 (⟨r.val / 32, by omega⟩ : Fin 11008) (⟨r.val % 32, Nat.mod_lt _ (by decide)⟩ : Fin 32) j))
    (fun k => A1 (ix3 (⟨k.val / 64, by omega⟩ : Fin 11008) (⟨k.val / 2 % 32, Nat.mod_lt _ (by decide)⟩ : Fin 32) (⟨k.val % 2, Nat.mod_lt _ (by decide)⟩ : Fin 2))) o q

/-- A block whose row `p` is row `o` of the arrays dequantises, at row `p`, to row `o` of the arrays' matrix. -/
theorem pay1_eq (A0 : S11008x32x64.Idx → BitVec 32) (A1 : S11008x32x2.Idx → EReal)
    (x0 : Vec Ideal S128x32x64 .i32) (x1 : Vec Ideal S128x32x2 .f32) (o : Fin 11008) (p : Fin 128) (q : Fin 4096)
    (h0 : ∀ (b : Fin 32) (j : Fin 64), x0 (ix3 p b j) = A0 (ix3 o b j))
    (h1 : ∀ (b : Fin 32) (e : Fin 2), x1 (ix3 p b e) = A1 (ix3 o b e)) :
    k1_pay1 (F := Ideal) x0 x1 (ix2 p q) = deq1 A0 A1 o q := by
  have hb : q.val / 128 < 32 := by have := q.isLt; omega
  have hq : q.val = (⟨q.val / 128, hb⟩ : Fin 32).val * 128 + (⟨q.val % 128, Nat.mod_lt _ (by decide)⟩ : Fin 128).val := by
    show q.val = q.val / 128 * 128 + q.val % 128
    omega
  have ho := o.isLt
  unfold deq1 Cert.Spec.Wa Cert.Spec.deq
  dsimp only
  split
  · next h =>
    rw [pay1_hi x0 x1 p ⟨q.val / 128, hb⟩ ⟨q.val % 128, Nat.mod_lt _ (by decide)⟩ h q hq, h0, h1]
    refine congrArg₂ (· * ·) (congrArg Cert.Spec.hi (congrArg A0 (ix3_congr ?_ ?_ rfl))) (congrArg A1 (ix3_congr ?_ ?_ ?_))
    all_goals dsimp only
    all_goals omega
  · next h =>
    rw [pay1_lo x0 x1 p ⟨q.val / 128, hb⟩ ⟨q.val % 128, Nat.mod_lt _ (by decide)⟩ (by dsimp only; omega) q hq, h0, h1]
    refine congrArg₂ (· * ·) (congrArg Cert.Spec.lo (congrArg A0 (ix3_congr ?_ ?_ rfl))) (congrArg A1 (ix3_congr ?_ ?_ ?_))
    all_goals dsimp only
    all_goals omega

variable (V : (c : Dev nD) → (b : Ref sig .tc) → Buf (Elt Ideal) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

/-- At point `t` every window sits at block `t` along the rows and at block 0 along the other axes. -/
theorem idx_facts1 : ∀ t : Fin cfg1.N, win1_0.index t (0 : Fin 3) = t.val ∧ win1_0.index t (1 : Fin 3) = 0 ∧ win1_0.index t (2 : Fin 3) = 0
    ∧ win1_1.index t (0 : Fin 3) = t.val ∧ win1_1.index t (1 : Fin 3) = 0 ∧ win1_1.index t (2 : Fin 3) = 0
    ∧ win1_2.index t (0 : Fin 2) = t.val ∧ win1_2.index t (1 : Fin 2) = 0 :=
  (by decide +kernel : ∀ t : Fin grid1.N, _)

/-- Row `p` of the words' block at point `t` is row `128 t + p` of the words' array. -/
theorem iblk1_0_apply (c : Dev nD) (t : Fin cfg1.N) (p : Fin 128) (b : Fin 32) (j : Fin 64) (o : Fin 11008)
    (ho : o.val = t.val * 128 + p.val) :
    (iblk1 V c 0 t : Vec Ideal S128x32x64 .i32) (ix3 p b j) = (V c main_v3 : S11008x32x64.Idx → BitVec 32) (ix3 o b j) := by
  obtain ⟨e0, e1, e2, -⟩ := idx_facts1 t
  show V c main_v3 (((cfg1.win 0).blk t).view.emb (ix3 p b j)) = V c main_v3 (ix3 o b j)
  refine congrArg _ (funext fun a => Fin.ext ?_)
  match a with
  | ⟨0, _⟩ => show win1_0.index t (0 : Fin 3) * 128 + 1 * p.val = o.val; omega
  | ⟨1, _⟩ => show win1_0.index t (1 : Fin 3) * 32 + 1 * b.val = b.val; omega
  | ⟨2, _⟩ => show win1_0.index t (2 : Fin 3) * 64 + 1 * j.val = j.val; omega

/-- Row `p` of the scales' block at point `t` is row `128 t + p` of the scales' array. -/
theorem iblk1_1_apply (c : Dev nD) (t : Fin cfg1.N) (p : Fin 128) (b : Fin 32) (e : Fin 2) (o : Fin 11008)
    (ho : o.val = t.val * 128 + p.val) :
    (iblk1 V c 1 t : Vec Ideal S128x32x2 .f32) (ix3 p b e) = (V c main_v4 : S11008x32x2.Idx → EReal) (ix3 o b e) := by
  obtain ⟨-, -, -, e0, e1, e2, -⟩ := idx_facts1 t
  show V c main_v4 (((cfg1.win 1).blk t).view.emb (ix3 p b e)) = V c main_v4 (ix3 o b e)
  refine congrArg _ (funext fun a => Fin.ext ?_)
  match a with
  | ⟨0, _⟩ => show win1_1.index t (0 : Fin 3) * 128 + 1 * p.val = o.val; omega
  | ⟨1, _⟩ => show win1_1.index t (1 : Fin 3) * 32 + 1 * b.val = b.val; omega
  | ⟨2, _⟩ => show win1_1.index t (2 : Fin 3) * 2 + 1 * e.val = e.val; omega

/-- The matrix the call leaves: the dequantised matrix of the words and scales the call finds. -/
def W0 (c : Dev nD) : S11008x4096.Idx → EReal := fun i => deq1 (V c main_v3) (V c main_v4) (i 0) (i 1)

/-- What point `t` writes back is block `t` of that matrix. -/
theorem flushed1_eq (c : Dev nD) (t : Fin cfg1.N) :
    (dat1 (F := Ideal) V c).flushed 2 t = ((cfg1.win 2).blk t).view.read (Elt Ideal) (W0 V c) := by
  show (cfg1.win 2).cut (grid1.coords t) ((dat1 (F := Ideal) V c).after 2 t) = _
  rw [after1_2]
  unfold out1_2
  rw [View.canon_unit_zero hz2]
  simp only [View.ld_unit_zero (S := S128x32x64) hz3, View.ld_unit_zero (S := S128x32x2) hz3]
  obtain ⟨-, -, -, -, -, -, e0, e1⟩ := idx_facts1 t
  funext y
  have hp : (y 0).val < 128 := (y 0).isLt
  have hq : (y 1).val < 4096 := (y 1).isLt
  have ht : t.val < 86 := t.isLt
  obtain ⟨o, ho⟩ : ∃ o : Fin 11008, o.val = t.val * 128 + (y 0).val := ⟨⟨t.val * 128 + (y 0).val, by omega⟩, rfl⟩
  obtain ⟨p, hp'⟩ : ∃ p : Fin 128, p.val = (y 0).val := ⟨⟨(y 0).val, hp⟩, rfl⟩
  obtain ⟨q, hq'⟩ : ∃ q : Fin 4096, q.val = (y 1).val := ⟨⟨(y 1).val, hq⟩, rfl⟩
  have ey : (cfg1.win 2).xinj (grid1.coords t) y = ix2 p q :=
    funext fun a => Fin.ext (by
      match a with
      | ⟨0, _⟩ => exact hp'.symm
      | ⟨1, _⟩ => exact hq'.symm)
  show k1_pay1 (F := Ideal) (iblk1 V c 0 t) (iblk1 V c 1 t) ((cfg1.win 2).xinj (grid1.coords t) y) = W0 V c (((cfg1.win 2).blk t).view.emb y)
  rw [ey]
  have h0 : ∀ (b : Fin 32) (j : Fin 64), (iblk1 V c 0 t : Vec Ideal S128x32x64 .i32) (ix3 p b j) = (V c main_v3 : S11008x32x64.Idx → BitVec 32) (ix3 o b j) :=
    fun b j => iblk1_0_apply V c t p b j o (by omega)
  have h1 : ∀ (b : Fin 32) (e : Fin 2), (iblk1 V c 1 t : Vec Ideal S128x32x2 .f32) (ix3 p b e) = (V c main_v4 : S11008x32x2.Idx → EReal) (ix3 o b e) :=
    fun b e => iblk1_1_apply V c t p b e o (by omega)
  have hpay := pay1_eq (V c main_v3 : S11008x32x64.Idx → BitVec 32) (V c main_v4 : S11008x32x2.Idx → EReal) (iblk1 V c 0 t : Vec Ideal S128x32x64 .i32) (iblk1 V c 1 t : Vec Ideal S128x32x2 .f32) o p q h0 h1
  have eo : o = (((cfg1.win 2).blk t).view.emb y) 0 :=
    Fin.ext (by show o.val = win1_2.index t (0 : Fin 2) * 128 + 1 * (y 0).val; omega)
  have eq : q = (((cfg1.win 2).blk t).view.emb y) 1 :=
    Fin.ext (by show q.val = win1_2.index t (1 : Fin 2) * 4096 + 1 * (y 1).val; omega)
  exact hpay.trans (congrArg₂ (deq1 (V c main_v3 : S11008x32x64.Idx → BitVec 32) (V c main_v4 : S11008x32x2.Idx → EReal)) eo eq)

/-- The output array after the call is that matrix: the blocks of the 86 points tile the rows, the point covering row
    `r` being `r / 128`. -/
theorem arr1_eq (c : Dev nD) : (dat1 (F := Ideal) V c).arrAt 2 cfg1.N = W0 V c :=
  (dat1 (F := Ideal) V c).arrAt_eq_of_cover 2 (W0 V c) (fun t _ => flushed1_eq V c t) fun i => by
    have hi0 : (i 0).val < 11008 := (i 0).isLt
    have hi1 : (i 1).val < 4096 := (i 1).isLt
    obtain ⟨t, ht⟩ : ∃ t : Fin cfg1.N, t.val = (i 0).val / 128 :=
      ⟨⟨(i 0).val / 128, by rw [show cfg1.N = 86 from N_1]; omega⟩, rfl⟩
    obtain ⟨-, -, -, -, -, -, e0, e1⟩ := idx_facts1 t
    refine ⟨t, flush1_2 t, ?_⟩
    show i ∈ ((View.whole main_v5).slice (win1_2.rect t)).set
    rw [View.set_slice_whole, Rect.mem_set_unit]
    intro a
    match a with
    | ⟨0, _⟩ =>
      show win1_2.index t (0 : Fin 2) * 128 ≤ (i 0).val ∧ (i 0).val < win1_2.index t (0 : Fin 2) * 128 + 128
      omega
    | ⟨1, _⟩ =>
      show win1_2.index t (1 : Fin 2) * 4096 ≤ (i 1).val ∧ (i 1).val < win1_2.index t (1 : Fin 2) * 4096 + 4096
      omega

end Dq1

variable (V : (c : Dev nD) → (b : Ref sig .tc) → Buf (Elt Ideal) ((c : Thread nD τ).loc b))

/-- Entry `(o, q)` of the output array after the call: the dequantised matrix of the words and scales the call finds. -/
theorem arr1_apply (c : Dev nD) (o : Fin 11008) (q : Fin 4096) :
    (dat1 (F := Ideal) V c).arrAt 2 cfg1.N (ix2 o q)
      = Cert.Spec.Wa (fun r j => (V c main_v3 : S11008x32x64.Idx → BitVec 32) (ix3 (⟨r.val / 32, by omega⟩ : Fin 11008) (⟨r.val % 32, Nat.mod_lt _ (by decide)⟩ : Fin 32) j))
          (fun k => (V c main_v4 : S11008x32x2.Idx → EReal) (ix3 (⟨k.val / 64, by omega⟩ : Fin 11008) (⟨k.val / 2 % 32, Nat.mod_lt _ (by decide)⟩ : Fin 32) (⟨k.val % 2, Nat.mod_lt _ (by decide)⟩ : Fin 2))) o q := by
  rw [Dq1.arr1_eq]
  rfl

end Cert.KernelIdeal.Hand
end
-- ==== Proof.KI.Val2.lean ====
/-
  What the third dequantisation call leaves in its output array, entry by entry.

  A packed word carries two signed 4-bit values. At point `t` the call takes rows `128 t … 128 t + 127` of the words
  (as [128, 86, 64]) and of the scales (as [128, 86, 2]); entry `(p, q)` of the [128, 11008] block it stores lies in column
  block `q / 128` at position `q % 128`: below 64 it is the high value of word `q % 128` times the first scale of the pair,
  from 64 on the low value of word `q % 128 - 64` times the second. Row `p` of the block is row `128 t + p` of the arrays,
  the 32 blocks tile the 4096 rows (row `r` lies in block `r / 128`), so the array ends as the dequantised matrix of the
  words and scales the call found.
-/
import proofs.«424885_j32023276159510_1_alg».proof.Proof.KI.Reg2
import proofs.«424885_j32023276159510_1_alg».proof.Proof.Spec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

namespace Dq2

/-- On the vector unit an arithmetic shift right of a 32-bit word by four is the plain signed shift. -/
theorem shrsi_four (b : BitVec 32) : IntOp.shrsi .vector b 4#32 = b.sshiftRight' 4#32 := by
  unfold IntOp.shrsi
  rw [if_pos (by decide)]

theorem pay2_hi (x0 : Vec Ideal S128x86x64 .i32) (x1 : Vec Ideal S128x86x2 .f32) (p : Fin 128) (b : Fin 86) (j : Fin 128)
    (hj : j.val < 64) (q : Fin 11008) (hq : q.val = b.val * 128 + j.val) :
    k2_pay1 (F := Ideal) x0 x1 (ix2 p q) = Cert.Spec.hi (x0 (ix3 p b ⟨j.val, hj⟩)) * x1 (ix3 p b (0 : Fin 2)) := by
  unfold k2_pay1
  refine (truncf_apply _ bitsLt_bf16_f32 (ix2 p q)).trans ?_
  refine (shapeCast_apply _ _ (ix2 p q) (ix3 p b j) ?_).trans ?_
  · rw [Shape.rowMajor_val_three, Shape.rowMajor_val_two]
    show (p.val * 86 + b.val) * 128 + j.val = p.val * 11008 + q.val
    omega
  refine (concatenate_pair_apply_left (s₁ := S128x86x64) (s₂ := S128x86x64) _ _ _ _ (ix3 p b j) rfl (ix3 p b (⟨j.val, hj⟩ : Fin 64)) ?_).trans ?_
  · intro a
    match a with
    | ⟨0, _⟩ => rfl
    | ⟨1, _⟩ => rfl
    | ⟨2, _⟩ => rfl
  refine (mulf_apply _ _ _).trans ?_
  congr 1
  · show (((IntOp.shrsi .vector (shapeCast S128x86x64 x0 shapeCasts_S128x86x64_S128x86x64 (ix3 p b (⟨j.val, hj⟩ : Fin 64))) 4#32).toInt : ℝ) : EReal) = _
    rw [shapeCast_self, shrsi_four]
    rfl
  · refine (broadcastTo_apply _ _ _ (ix3 p b (0 : Fin 1)) ?_).trans ?_
    · intro a
      match a with
      | ⟨0, _⟩ => rfl
      | ⟨1, _⟩ => rfl
      | ⟨2, _⟩ => rfl
    refine (extractStridedSlice_apply _ _ _ _ (ix3 p b (0 : Fin 2)) ?_).trans ?_
    · intro a
      match a with
      | ⟨0, _⟩ => show p.val = 0 + p.val; omega
      | ⟨1, _⟩ => show b.val = 0 + b.val; omega
      | ⟨2, _⟩ => rfl
    rw [shapeCast_self]

theorem pay2_lo (x0 : Vec Ideal S128x86x64 .i32) (x1 : Vec Ideal S128x86x2 .f32) (p : Fin 128) (b : Fin 86) (j : Fin 128)
    (hj : 64 ≤ j.val) (q : Fin 11008) (hq : q.val = b.val * 128 + j.val) :
    k2_pay1 (F := Ideal) x0 x1 (ix2 p q) = Cert.Spec.lo (x0 (ix3 p b ⟨j.val - 64, by omega⟩)) * x1 (ix3 p b (1 : Fin 2)) := by
  unfold k2_pay1
  refine (truncf_apply _ bitsLt_bf16_f32 (ix2 p q)).trans ?_
  refine (shapeCast_apply _ _ (ix2 p q) (ix3 p b j) ?_).trans ?_
  · rw [Shape.rowMajor_val_three, Shape.rowMajor_val_two]
    show (p.val * 86 + b.val) * 128 + j.val = p.val * 11008 + q.val
    omega
  refine (concatenate_pair_apply_right (s₁ := S128x86x64) (s₂ := S128x86x64) _ _ _ _ (ix3 p b j) rfl rfl (ix3 p b (⟨j.val - 64, by omega⟩ : Fin 64)) ?_ ?_).trans ?_
  · intro a
    match a with
    | ⟨0, _⟩ => exact fun _ => rfl
    | ⟨1, _⟩ => exact fun _ => rfl
    | ⟨2, _⟩ => exact fun h => absurd rfl h
  · show j.val - 64 + 64 = j.val
    omega
  refine (mulf_apply _ _ _).trans ?_
  congr 1
  · show (((IntOp.subi (IntOp.xori (IntOp.andi (shapeCast S128x86x64 x0 shapeCasts_S128x86x64_S128x86x64 (ix3 p b (⟨j.val - 64, by omega⟩ : Fin 64))) 15#32) 8#32) 8#32).toInt : ℝ) : EReal) = _
    rw [shapeCast_self]
    rfl
  · refine (broadcastTo_apply _ _ _ (ix3 p b (0 : Fin 1)) ?_).trans ?_
    · intro a
      match a with
      | ⟨0, _⟩ => rfl
      | ⟨1, _⟩ => rfl
      | ⟨2, _⟩ => rfl
    refine (extractStridedSlice_apply _ _ _ _ (ix3 p b (1 : Fin 2)) ?_).trans ?_
    · intro a
      match a with
      | ⟨0, _⟩ => show p.val = 0 + p.val; omega
      | ⟨1, _⟩ => show b.val = 0 + b.val; omega
      | ⟨2, _⟩ => rfl
    rw [shapeCast_self]

/-- Two rank-3 indices with the same coordinates are the same index. -/
theorem ix3_congr {n0 n1 n2 : Nat} {a a' : Fin n0} {b b' : Fin n1} {e e' : Fin n2}
    (ha : a.val = a'.val) (hb : b.val = b'.val) (he : e.val = e'.val) : ix3 a b e = ix3 a' b' e' := by
  obtain rfl := Fin.ext ha
  obtain rfl := Fin.ext hb
  obtain rfl := Fin.ext he
  rfl

/-- The dequantised [4096, 11008] matrix of an array of packed words and an array of scales: packed row `r` is row
    `r / 86`, column block `r % 86` of the words; scale `k` is row `k / 172`, column block `k / 2 % 86`, entry `k % 2`
    of the scales. -/
def deq2 (A0 : S4096x86x64.Idx → BitVec 32) (A1 : S4096x86x2.Idx → EReal) (o : Fin 4096) (q : Fin 11008) : EReal :=
  Cert.Spec.Wb (fun r j => A0 (ix3 (⟨r.val / 86, by omega⟩ : Fin 4096) (⟨r.val % 86, Nat.mod_lt _ (by decide)⟩ : Fin 86) j))
    (fun k => A1 (ix3 (⟨k.val / 172, by omega⟩ : Fin 4096) (⟨k.val / 2 % 86, Nat.mod_lt _ (by decide)⟩ : Fin 86) (⟨k.val % 2, Nat.mod_lt _ (by decide)⟩ : Fin 2))) o q

/-- A block whose row `p` is row `o` of the arrays dequantises, at row `p`, to row `o` of the arrays' matrix. -/
theorem pay2_eq (A0 : S4096x86x64.Idx → BitVec 32) (A1 : S4096x86x2.Idx → EReal)
    (x0 : Vec Ideal S128x86x64 .i32) (x1 : Vec Ideal S128x86x2 .f32) (o : Fin 4096) (p : Fin 128) (q : Fin 11008)
    (h0 : ∀ (b : Fin 86) (j : Fin 64), x0 (ix3 p b j) = A0 (ix3 o b j))
    (h1 : ∀ (b : Fin 86) (e : Fin 2), x1 (ix3 p b e) = A1 (ix3 o b e)) :
    k2_pay1 (F := Ideal) x0 x1 (ix2 p q) = deq2 A0 A1 o q := by
  have hb : q.val / 128 < 86 := by have := q.isLt; omega
  have hq : q.val = (⟨q.val / 128, hb⟩ : Fin 86).val * 128 + (⟨q.val % 128, Nat.mod_lt _ (by decide)⟩ : Fin 128).val := by
    show q.val = q.val / 128 * 128 + q.val % 128
    omega
  have ho := o.isLt
  unfold deq2 Cert.Spec.Wb Cert.Spec.deq
  dsimp only
  split
  · next h =>
    rw [pay2_hi x0 x1 p ⟨q.val / 128, hb⟩ ⟨q.val % 128, Nat.mod_lt _ (by decide)⟩ h q hq, h0, h1]
    refine congrArg₂ (· * ·) (congrArg Cert.Spec.hi (congrArg A0 (ix3_congr ?_ ?_ rfl))) (congrArg A1 (ix3_congr ?_ ?_ ?_))
    all_goals dsimp only
    all_goals omega
  · next h =>
    rw [pay2_lo x0 x1 p ⟨q.val / 128, hb⟩ ⟨q.val % 128, Nat.mod_lt _ (by decide)⟩ (by dsimp only; omega) q hq, h0, h1]
    refine congrArg₂ (· * ·) (congrArg Cert.Spec.lo (congrArg A0 (ix3_congr ?_ ?_ rfl))) (congrArg A1 (ix3_congr ?_ ?_ ?_))
    all_goals dsimp only
    all_goals omega

variable (V : (c : Dev nD) → (b : Ref sig .tc) → Buf (Elt Ideal) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

/-- At point `t` every window sits at block `t` along the rows and at block 0 along the other axes. -/
theorem idx_facts2 : ∀ t : Fin cfg2.N, win2_0.index t (0 : Fin 3) = t.val ∧ win2_0.index t (1 : Fin 3) = 0 ∧ win2_0.index t (2 : Fin 3) = 0
    ∧ win2_1.index t (0 : Fin 3) = t.val ∧ win2_1.index t (1 : Fin 3) = 0 ∧ win2_1.index t (2 : Fin 3) = 0
    ∧ win2_2.index t (0 : Fin 2) = t.val ∧ win2_2.index t (1 : Fin 2) = 0 :=
  (by decide +kernel : ∀ t : Fin grid2.N, _)

/-- Row `p` of the words' block at point `t` is row `128 t + p` of the words' array. -/
theorem iblk2_0_apply (c : Dev nD) (t : Fin cfg2.N) (p : Fin 128) (b : Fin 86) (j : Fin 64) (o : Fin 4096)
    (ho : o.val = t.val * 128 + p.val) :
    (iblk2 V c 0 t : Vec Ideal S128x86x64 .i32) (ix3 p b j) = (V c main_v6 : S4096x86x64.Idx → BitVec 32) (ix3 o b j) := by
  obtain ⟨e0, e1, e2, -⟩ := idx_facts2 t
  show V c main_v6 (((cfg2.win 0).blk t).view.emb (ix3 p b j)) = V c main_v6 (ix3 o b j)
  refine congrArg _ (funext fun a => Fin.ext ?_)
  match a with
  | ⟨0, _⟩ => show win2_0.index t (0 : Fin 3) * 128 + 1 * p.val = o.val; omega
  | ⟨1, _⟩ => show win2_0.index t (1 : Fin 3) * 86 + 1 * b.val = b.val; omega
  | ⟨2, _⟩ => show win2_0.index t (2 : Fin 3) * 64 + 1 * j.val = j.val; omega

/-- Row `p` of the scales' block at point `t` is row `128 t + p` of the scales' array. -/
theorem iblk2_1_apply (c : Dev nD) (t : Fin cfg2.N) (p : Fin 128) (b : Fin 86) (e : Fin 2) (o : Fin 4096)
    (ho : o.val = t.val * 128 + p.val) :
    (iblk2 V c 1 t : Vec Ideal S128x86x2 .f32) (ix3 p b e) = (V c main_v7 : S4096x86x2.Idx → EReal) (ix3 o b e) := by
  obtain ⟨-, -, -, e0, e1, e2, -⟩ := idx_facts2 t
  show V c main_v7 (((cfg2.win 1).blk t).view.emb (ix3 p b e)) = V c main_v7 (ix3 o b e)
  refine congrArg _ (funext fun a => Fin.ext ?_)
  match a with
  | ⟨0, _⟩ => show win2_1.index t (0 : Fin 3) * 128 + 1 * p.val = o.val; omega
  | ⟨1, _⟩ => show win2_1.index t (1 : Fin 3) * 86 + 1 * b.val = b.val; omega
  | ⟨2, _⟩ => show win2_1.index t (2 : Fin 3) * 2 + 1 * e.val = e.val; omega

/-- The matrix the call leaves: the dequantised matrix of the words and scales the call finds. -/
def W0 (c : Dev nD) : S4096x11008.Idx → EReal := fun i => deq2 (V c main_v6) (V c main_v7) (i 0) (i 1)

/-- What point `t` writes back is block `t` of that matrix. -/
theorem flushed2_eq (c : Dev nD) (t : Fin cfg2.N) :
    (dat2 (F := Ideal) V c).flushed 2 t = ((cfg2.win 2).blk t).view.read (Elt Ideal) (W0 V c) := by
  show (cfg2.win 2).cut (grid2.coords t) ((dat2 (F := Ideal) V c).after 2 t) = _
  rw [after2_2]
  unfold out2_2
  rw [View.canon_unit_zero hz2]
  simp only [View.ld_unit_zero (S := S128x86x64) hz3, View.ld_unit_zero (S := S128x86x2) hz3]
  obtain ⟨-, -, -, -, -, -, e0, e1⟩ := idx_facts2 t
  funext y
  have hp : (y 0).val < 128 := (y 0).isLt
  have hq : (y 1).val < 11008 := (y 1).isLt
  have ht : t.val < 32 := t.isLt
  obtain ⟨o, ho⟩ : ∃ o : Fin 4096, o.val = t.val * 128 + (y 0).val := ⟨⟨t.val * 128 + (y 0).val, by omega⟩, rfl⟩
  obtain ⟨p, hp'⟩ : ∃ p : Fin 128, p.val = (y 0).val := ⟨⟨(y 0).val, hp⟩, rfl⟩
  obtain ⟨q, hq'⟩ : ∃ q : Fin 11008, q.val = (y 1).val := ⟨⟨(y 1).val, hq⟩, rfl⟩
  have ey : (cfg2.win 2).xinj (grid2.coords t) y = ix2 p q :=
    funext fun a => Fin.ext (by
      match a with
      | ⟨0, _⟩ => exact hp'.symm
      | ⟨1, _⟩ => exact hq'.symm)
  show k2_pay1 (F := Ideal) (iblk2 V c 0 t) (iblk2 V c 1 t) ((cfg2.win 2).xinj (grid2.coords t) y) = W0 V c (((cfg2.win 2).blk t).view.emb y)
  rw [ey]
  have h0 : ∀ (b : Fin 86) (j : Fin 64), (iblk2 V c 0 t : Vec Ideal S128x86x64 .i32) (ix3 p b j) = (V c main_v6 : S4096x86x64.Idx → BitVec 32) (ix3 o b j) :=
    fun b j => iblk2_0_apply V c t p b j o (by omega)
  have h1 : ∀ (b : Fin 86) (e : Fin 2), (iblk2 V c 1 t : Vec Ideal S128x86x2 .f32) (ix3 p b e) = (V c main_v7 : S4096x86x2.Idx → EReal) (ix3 o b e) :=
    fun b e => iblk2_1_apply V c t p b e o (by omega)
  have hpay := pay2_eq (V c main_v6 : S4096x86x64.Idx → BitVec 32) (V c main_v7 : S4096x86x2.Idx → EReal) (iblk2 V c 0 t : Vec Ideal S128x86x64 .i32) (iblk2 V c 1 t : Vec Ideal S128x86x2 .f32) o p q h0 h1
  have eo : o = (((cfg2.win 2).blk t).view.emb y) 0 :=
    Fin.ext (by show o.val = win2_2.index t (0 : Fin 2) * 128 + 1 * (y 0).val; omega)
  have eq : q = (((cfg2.win 2).blk t).view.emb y) 1 :=
    Fin.ext (by show q.val = win2_2.index t (1 : Fin 2) * 11008 + 1 * (y 1).val; omega)
  exact hpay.trans (congrArg₂ (deq2 (V c main_v6 : S4096x86x64.Idx → BitVec 32) (V c main_v7 : S4096x86x2.Idx → EReal)) eo eq)

/-- The output array after the call is that matrix: the blocks of the 32 points tile the rows, the point covering row
    `r` being `r / 128`. -/
theorem arr2_eq (c : Dev nD) : (dat2 (F := Ideal) V c).arrAt 2 cfg2.N = W0 V c :=
  (dat2 (F := Ideal) V c).arrAt_eq_of_cover 2 (W0 V c) (fun t _ => flushed2_eq V c t) fun i => by
    have hi0 : (i 0).val < 4096 := (i 0).isLt
    have hi1 : (i 1).val < 11008 := (i 1).isLt
    obtain ⟨t, ht⟩ : ∃ t : Fin cfg2.N, t.val = (i 0).val / 128 :=
      ⟨⟨(i 0).val / 128, by rw [show cfg2.N = 32 from N_2]; omega⟩, rfl⟩
    obtain ⟨-, -, -, -, -, -, e0, e1⟩ := idx_facts2 t
    refine ⟨t, flush2_2 t, ?_⟩
    show i ∈ ((View.whole main_v8).slice (win2_2.rect t)).set
    rw [View.set_slice_whole, Rect.mem_set_unit]
    intro a
    match a with
    | ⟨0, _⟩ =>
      show win2_2.index t (0 : Fin 2) * 128 ≤ (i 0).val ∧ (i 0).val < win2_2.index t (0 : Fin 2) * 128 + 128
      omega
    | ⟨1, _⟩ =>
      show win2_2.index t (1 : Fin 2) * 11008 ≤ (i 1).val ∧ (i 1).val < win2_2.index t (1 : Fin 2) * 11008 + 11008
      omega

end Dq2

variable (V : (c : Dev nD) → (b : Ref sig .tc) → Buf (Elt Ideal) ((c : Thread nD τ).loc b))

/-- Entry `(o, q)` of the output array after the call: the dequantised matrix of the words and scales the call finds. -/
theorem arr2_apply (c : Dev nD) (o : Fin 4096) (q : Fin 11008) :
    (dat2 (F := Ideal) V c).arrAt 2 cfg2.N (ix2 o q)
      = Cert.Spec.Wb (fun r j => (V c main_v6 : S4096x86x64.Idx → BitVec 32) (ix3 (⟨r.val / 86, by omega⟩ : Fin 4096) (⟨r.val % 86, Nat.mod_lt _ (by decide)⟩ : Fin 86) j))
          (fun k => (V c main_v7 : S4096x86x2.Idx → EReal) (ix3 (⟨k.val / 172, by omega⟩ : Fin 4096) (⟨k.val / 2 % 86, Nat.mod_lt _ (by decide)⟩ : Fin 86) (⟨k.val % 2, Nat.mod_lt _ (by decide)⟩ : Fin 2))) o q := by
  rw [Dq2.arr2_eq]
  rfl

end Cert.KernelIdeal.Hand
end
-- ==== Proof.KI.Val3.lean ====
/-
  What the gate call leaves in its output array, entry by entry, on the extended reals.

  The call's grid is 4 × 43. Point `t = (i, j)` reads rows `1024 i …` of the [4096, 4096] input `x` and rows
  `256 j …` of the two [11008, 4096] matrices `W1`, `W3`, and stores the [1024, 256] block `(i, j)` of the output.
  On the extended reals the two products into a zero accumulator are plain sums over the 4096 features, the change of
  float format is the identity, and so entry `(p, q)` of the stored block is `a · logistic a · b` with
  `a = ∑ d, x (1024 i + p) d · W1 (256 j + q) d` and `b` the same with `W3`: the block is the restriction of ONE
  [4096, 11008] array, `silu (x W1ᵀ) · (x W3ᵀ)`, to its rows and features. The 172 blocks tile that array (entry
  `(r, k)` lies in the block of point `(r / 1024) · 43 + k / 256`), so after the call the output array is that array.
-/
import proofs.«424885_j32023276159510_1_alg».proof.Proof.KI.Reg3
import proofs.«424885_j32023276159510_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 eq_ix2)

/-! ## The contraction of the two products: x · wᵀ over the 4096 input features -/

theorem zero_off2 : (![0, 0] : Fin 2 → Nat) = fun _ => 0 := funext fun a => by fin_cases a <;> rfl

/-- The left operand is read at the output's row … -/
theorem gate_lhs_0 (i : S1024x256.Idx) (q : dot_S1024x4096_S256x4096_S1024x256_1_1_0_0_n_n.contr.Idx) :
    (dot_S1024x4096_S256x4096_S1024x256_1_1_0_0_n_n.lhsIdx i q 0).val = (i 0).val := by
  unfold DotDims.lhsIdx
  rw [dif_neg (show ¬(0 : Fin S1024x4096.rank) ∈ dot_S1024x4096_S256x4096_S1024x256_1_1_0_0_n_n.lhsBatch by decide), dif_pos (show (0 : Fin S1024x4096.rank) ∈ dot_S1024x4096_S256x4096_S1024x256_1_1_0_0_n_n.lhsNonContracting by decide)]
  rfl
/-- … and the contracted feature; -/
theorem gate_lhs_1 (i : S1024x256.Idx) (q : dot_S1024x4096_S256x4096_S1024x256_1_1_0_0_n_n.contr.Idx) :
    (dot_S1024x4096_S256x4096_S1024x256_1_1_0_0_n_n.lhsIdx i q 1).val = (q ⟨0, by decide⟩).val :=
  dot_S1024x4096_S256x4096_S1024x256_1_1_0_0_n_n.lhsIdx_val_of_single rfl i q
/-- the right operand at the output's column, as its row, … -/
theorem gate_rhs_0 (i : S1024x256.Idx) (q : dot_S1024x4096_S256x4096_S1024x256_1_1_0_0_n_n.contr.Idx) :
    (dot_S1024x4096_S256x4096_S1024x256_1_1_0_0_n_n.rhsIdx i q 0).val = (i 1).val := by
  unfold DotDims.rhsIdx
  rw [dif_neg (show ¬(0 : Fin S256x4096.rank) ∈ dot_S1024x4096_S256x4096_S1024x256_1_1_0_0_n_n.rhsBatch by decide), dif_pos (show (0 : Fin S256x4096.rank) ∈ dot_S1024x4096_S256x4096_S1024x256_1_1_0_0_n_n.rhsNonContracting by decide)]
  rfl
/-- … and the contracted feature. -/
theorem gate_rhs_1 (i : S1024x256.Idx) (q : dot_S1024x4096_S256x4096_S1024x256_1_1_0_0_n_n.contr.Idx) :
    (dot_S1024x4096_S256x4096_S1024x256_1_1_0_0_n_n.rhsIdx i q 1).val = (q ⟨0, by decide⟩).val :=
  dot_S1024x4096_S256x4096_S1024x256_1_1_0_0_n_n.rhsIdx_val_of_single rfl i q

/-- A product into the zero accumulator, at row `p` and column `q`: the sum over the features of row `p` of the left
    block times row `q` of the right block. -/
theorem gate_dot_apply (x : FVec Ideal S1024x4096 .bf16) (w : FVec Ideal S256x4096 .bf16) (p : Fin 1024) (q : Fin 256) :
    matmul dot_S1024x4096_S256x4096_S1024x256_1_1_0_0_n_n none x w (constant (F := Ideal) S1024x256 .f32 0x00000000#32) (ix2 p q)
      = ∑ d : Fin 4096, x (ix2 p d) * w (ix2 q d) := by
  simp only [matmul]
  rw [Ideal.matmul_constant_zero_apply, ← Equiv.sum_comp (ValueIdx.contrEquiv1 dot_S1024x4096_S256x4096_S1024x256_1_1_0_0_n_n 4096 rfl rfl).symm]
  refine Finset.sum_congr rfl fun k _ => ?_
  have hk := ValueIdx.contrEquiv1_symm_val dot_S1024x4096_S256x4096_S1024x256_1_1_0_0_n_n 4096 rfl rfl k
  have el : dot_S1024x4096_S256x4096_S1024x256_1_1_0_0_n_n.lhsIdx (ix2 p q) ((ValueIdx.contrEquiv1 dot_S1024x4096_S256x4096_S1024x256_1_1_0_0_n_n 4096 rfl rfl).symm k) = ix2 p k := funext fun a => Fin.ext (by
    match a with
    | ⟨0, _⟩ => exact gate_lhs_0 _ _
    | ⟨1, _⟩ => exact (gate_lhs_1 _ _).trans hk)
  have er : dot_S1024x4096_S256x4096_S1024x256_1_1_0_0_n_n.rhsIdx (ix2 p q) ((ValueIdx.contrEquiv1 dot_S1024x4096_S256x4096_S1024x256_1_1_0_0_n_n 4096 rfl rfl).symm k) = ix2 q k := funext fun a => Fin.ext (by
    match a with
    | ⟨0, _⟩ => exact gate_rhs_0 _ _
    | ⟨1, _⟩ => exact (gate_rhs_1 _ _).trans hk)
  rw [el, er]

/-- The body's arithmetic at row `p`, column `q` of the stored block: with `a` and `b` the two products there,
    `a · logistic a · b`. -/
theorem gate_pay_apply (x0 : Vec Ideal S1024x4096 .bf16) (x1 x2 : Vec Ideal S256x4096 .bf16) (p : Fin 1024) (q : Fin 256) :
    k3_pay1 (F := Ideal) x0 x1 x2 (ix2 p q)
      = ((∑ d : Fin 4096, x0 (ix2 p d) * x1 (ix2 q d)) * Ideal.logistic (∑ d : Fin 4096, x0 (ix2 p d) * x1 (ix2 q d)))
          * (∑ d : Fin 4096, x0 (ix2 p d) * x2 (ix2 q d)) := by
  unfold k3_pay1
  simp only [shapeCast_self]
  show (truncf .bf16 (mulf (mulf _ (logistic _)) _) _ : FVec Ideal S1024x256 .bf16) (ix2 p q) = _
  rw [ValueIdx.truncf_apply, ValueIdx.mulf_apply, ValueIdx.mulf_apply]
  show (_ * Ideal.logistic _) * _ = _
  rw [gate_dot_apply, gate_dot_apply]

variable (V : (c : Dev nD) → (b : Ref sig .tc) → Buf (Elt Ideal) ((c : Thread nD τ).loc b))

/-! ## The three input blocks of a point, as rows of the arrays -/

/-- The call has 172 points. -/
theorem point_lt (t : Fin cfg3.N) : t.val < 172 := lt_of_lt_of_eq t.isLt N_3

/-- Point `t` is `(t / 43, t % 43)`: the input rows' block index is `t / 43`, the two weight matrices' `t % 43`, the
    output block's `(t / 43, t % 43)`; the feature axis is never cut. Decided over the grid. -/
theorem blocks_at : ∀ t : Fin cfg3.N,
    win3_0.index t (0 : Fin 2) = t.val / 43 ∧ win3_0.index t (1 : Fin 2) = 0
    ∧ win3_1.index t (0 : Fin 2) = t.val % 43 ∧ win3_1.index t (1 : Fin 2) = 0
    ∧ win3_2.index t (0 : Fin 2) = t.val % 43 ∧ win3_2.index t (1 : Fin 2) = 0
    ∧ win3_3.index t (0 : Fin 2) = t.val / 43 ∧ win3_3.index t (1 : Fin 2) = t.val % 43 :=
  (by decide +kernel : ∀ t : Fin grid3.N, _)

/-- Row `p` of the input block at point `t` is row `1024 (t / 43) + p` of the input. -/
theorem xrows_apply (c : Dev nD) (t : Fin cfg3.N) (p : Fin 1024) (d : Fin 4096) :
    (iblk3 V c 0 t : Vec Ideal S1024x4096 .bf16) (ix2 p d)
      = (V c main_v10 : S4096x4096.Idx → EReal) (ix2 ⟨t.val / 43 * 1024 + p.val, by have := point_lt t; omega⟩ d) := by
  obtain ⟨e0, e1, -⟩ := blocks_at t
  unfold iblk3
  rw [View.read_apply]
  show (V c main_v10 : S4096x4096.Idx → EReal) (((cfg3.win 0).blk t).view.emb (ix2 p d)) = (V c main_v10 : S4096x4096.Idx → EReal) _
  refine congrArg (V c main_v10 : S4096x4096.Idx → EReal) (funext fun a => Fin.ext ?_)
  match a with
  | ⟨0, _⟩ => show win3_0.index t (0 : Fin 2) * 1024 + 1 * p.val = t.val / 43 * 1024 + p.val; rw [e0]; omega
  | ⟨1, _⟩ => show win3_0.index t (1 : Fin 2) * 4096 + 1 * d.val = d.val; rw [e1]; omega

/-- Row `q` of the first weight block at point `t` is row `256 (t % 43) + q` of the first matrix, -/
theorem w1rows_apply (c : Dev nD) (t : Fin cfg3.N) (q : Fin 256) (d : Fin 4096) :
    (iblk3 V c 1 t : Vec Ideal S256x4096 .bf16) (ix2 q d)
      = (V c main_v2 : S11008x4096.Idx → EReal) (ix2 ⟨t.val % 43 * 256 + q.val, by omega⟩ d) := by
  obtain ⟨-, -, e2, e3, -⟩ := blocks_at t
  unfold iblk3
  rw [View.read_apply]
  show (V c main_v2 : S11008x4096.Idx → EReal) (((cfg3.win 1).blk t).view.emb (ix2 q d)) = (V c main_v2 : S11008x4096.Idx → EReal) _
  refine congrArg (V c main_v2 : S11008x4096.Idx → EReal) (funext fun a => Fin.ext ?_)
  match a with
  | ⟨0, _⟩ => show win3_1.index t (0 : Fin 2) * 256 + 1 * q.val = t.val % 43 * 256 + q.val; rw [e2]; omega
  | ⟨1, _⟩ => show win3_1.index t (1 : Fin 2) * 4096 + 1 * d.val = d.val; rw [e3]; omega

/-- and of the second weight block, of the second matrix. -/
theorem w3rows_apply (c : Dev nD) (t : Fin cfg3.N) (q : Fin 256) (d : Fin 4096) :
    (iblk3 V c 2 t : Vec Ideal S256x4096 .bf16) (ix2 q d)
      = (V c main_v5 : S11008x4096.Idx → EReal) (ix2 ⟨t.val % 43 * 256 + q.val, by omega⟩ d) := by
  obtain ⟨-, -, -, -, e4, e5, -⟩ := blocks_at t
  unfold iblk3
  rw [View.read_apply]
  show (V c main_v5 : S11008x4096.Idx → EReal) (((cfg3.win 2).blk t).view.emb (ix2 q d)) = (V c main_v5 : S11008x4096.Idx → EReal) _
  refine congrArg (V c main_v5 : S11008x4096.Idx → EReal) (funext fun a => Fin.ext ?_)
  match a with
  | ⟨0, _⟩ => show win3_2.index t (0 : Fin 2) * 256 + 1 * q.val = t.val % 43 * 256 + q.val; rw [e4]; omega
  | ⟨1, _⟩ => show win3_2.index t (1 : Fin 2) * 4096 + 1 * d.val = d.val; rw [e5]; omega

/-! ## The stored block is a block of the gated activations -/

/-- A block of 1024 rows from row `r0` against 256 hidden features from feature `k0`: the body's arithmetic on the
    blocks is the gated activation of the whole arrays at row `r0 + p`, feature `k0 + q`. -/
theorem gate_block (x0 : Vec Ideal S1024x4096 .bf16) (x1 x2 : Vec Ideal S256x4096 .bf16)
    (X : S4096x4096.Idx → EReal) (W1 W3 : S11008x4096.Idx → EReal) (r0 k0 : Nat) (hr : r0 + 1024 ≤ 4096) (hk : k0 + 256 ≤ 11008)
    (h0 : ∀ (p : Fin 1024) (d : Fin 4096), x0 (ix2 p d) = X (ix2 ⟨r0 + p.val, by omega⟩ d))
    (h1 : ∀ (q : Fin 256) (d : Fin 4096), x1 (ix2 q d) = W1 (ix2 ⟨k0 + q.val, by omega⟩ d))
    (h2 : ∀ (q : Fin 256) (d : Fin 4096), x2 (ix2 q d) = W3 (ix2 ⟨k0 + q.val, by omega⟩ d))
    (p : Fin 1024) (q : Fin 256) :
    k3_pay1 (F := Ideal) x0 x1 x2 (ix2 p q)
      = Cert.Spec.gate (fun p d => X (ix2 p d)) (fun k d => W1 (ix2 k d)) (fun k d => W3 (ix2 k d))
          ⟨r0 + p.val, by omega⟩ ⟨k0 + q.val, by omega⟩ := by
  rw [gate_pay_apply]
  unfold Cert.Spec.gate
  simp only [h0, h1, h2]

/-- The gated activations of the arrays the call finds, as one [4096, 11008] array. -/
def gateArr (c : Dev nD) : S4096x11008.Idx → EReal := fun i =>
  Cert.Spec.gate (fun p d => (V c main_v10 : S4096x4096.Idx → EReal) (ix2 p d)) (fun k d => (V c main_v2 : S11008x4096.Idx → EReal) (ix2 k d))
    (fun k d => (V c main_v5 : S11008x4096.Idx → EReal) (ix2 k d)) ⟨(i 0).val, (i 0).isLt⟩ ⟨(i 1).val, (i 1).isLt⟩

/-- What point `t` writes back is its block of that array. -/
theorem flushed3_eq (c : Dev nD) (t : Fin cfg3.N) :
    (dat3 V c).flushed 3 t = ((cfg3.win 3).blk t).view.read (Elt Ideal) (gateArr V c) := by
  have ht := point_lt t
  obtain ⟨-, -, -, -, -, -, e6, e7⟩ := blocks_at t
  show (cfg3.win 3).cut (grid3.coords t) ((dat3 V c).after 3 t) = _
  rw [after3_3]
  unfold out3_3
  rw [View.canon_unit_zero zero_off2]
  simp only [View.ld_unit_zero (S := S1024x4096) zero_off2, View.ld_unit_zero (S := S256x4096) zero_off2]
  funext j
  have hp : (j 0).val < 1024 := (j 0).isLt
  have hq : (j 1).val < 256 := (j 1).isLt
  have ej : (cfg3.win 3).xinj (grid3.coords t) j = ix2 ⟨(j 0).val, hp⟩ ⟨(j 1).val, hq⟩ :=
    funext fun a => by match a with | ⟨0, _⟩ => rfl | ⟨1, _⟩ => rfl
  show k3_pay1 (F := Ideal) (iblk3 V c 0 t) (iblk3 V c 1 t) (iblk3 V c 2 t) ((cfg3.win 3).xinj (grid3.coords t) j)
    = gateArr V c (((cfg3.win 3).blk t).view.emb j)
  rw [ej]
  refine (gate_block (iblk3 V c 0 t) (iblk3 V c 1 t) (iblk3 V c 2 t) (V c main_v10) (V c main_v2) (V c main_v5)
    (t.val / 43 * 1024) (t.val % 43 * 256) (by omega) (by omega) (xrows_apply V c t) (w1rows_apply V c t) (w3rows_apply V c t)
    ⟨(j 0).val, hp⟩ ⟨(j 1).val, hq⟩).trans ?_
  unfold gateArr
  refine congrArg₂ (Cert.Spec.gate (fun p d => (V c main_v10 : S4096x4096.Idx → EReal) (ix2 p d))
    (fun k d => (V c main_v2 : S11008x4096.Idx → EReal) (ix2 k d)) (fun k d => (V c main_v5 : S11008x4096.Idx → EReal) (ix2 k d)))
    (Fin.ext ?_) (Fin.ext ?_)
  · show t.val / 43 * 1024 + (j 0).val = win3_3.index t (0 : Fin 2) * 1024 + 1 * (j 0).val; rw [e6]; omega
  · show t.val % 43 * 256 + (j 1).val = win3_3.index t (1 : Fin 2) * 256 + 1 * (j 1).val; rw [e7]; omega

/-! ## The blocks tile the array -/

/-- An entry is in point `t`'s block iff each coordinate is in the block's range on its axis. -/
theorem mem_blk3 (t : Fin cfg3.N) (i : S4096x11008.Idx) :
    i ∈ ((cfg3.win 3).blk t).view.set ↔ ∀ a : Fin 2, win3_3.index t a * S1024x256.size a ≤ (i a).val ∧ (i a).val < win3_3.index t a * S1024x256.size a + S1024x256.size a := by
  show i ∈ ((View.whole main_v11).slice (win3_3.rect t)).set ↔ _
  rw [View.set_slice_whole, Rect.mem_set_unit]
  exact Iff.rfl

/-- Entry `(r, k)` is in the block of point `(r / 1024) · 43 + k / 256`. -/
theorem covered3 (i : S4096x11008.Idx) : ∃ t : Fin cfg3.N, (cfg3.win 3).flush t = true ∧ i ∈ ((cfg3.win 3).blk t).view.set := by
  have h0 : (i 0).val < 4096 := (i 0).isLt
  have h1 : (i 1).val < 11008 := (i 1).isLt
  obtain ⟨t, ht⟩ : ∃ t : Fin cfg3.N, t.val = (i 0).val / 1024 * 43 + (i 1).val / 256 :=
    ⟨⟨(i 0).val / 1024 * 43 + (i 1).val / 256, lt_of_lt_of_eq (show (i 0).val / 1024 * 43 + (i 1).val / 256 < 172 by omega) N_3.symm⟩, rfl⟩
  obtain ⟨-, -, -, -, -, -, e6, e7⟩ := blocks_at t
  refine ⟨t, flush3_3 t, ?_⟩
  rw [mem_blk3]
  intro a
  match a with
  | ⟨0, _⟩ => show win3_3.index t (0 : Fin 2) * 1024 ≤ (i 0).val ∧ (i 0).val < win3_3.index t (0 : Fin 2) * 1024 + 1024; rw [e6, ht]; omega
  | ⟨1, _⟩ => show win3_3.index t (1 : Fin 2) * 256 ≤ (i 1).val ∧ (i 1).val < win3_3.index t (1 : Fin 2) * 256 + 256; rw [e7, ht]; omega

/-! ## The array the call leaves -/

/-- After the call the output array holds the gated activations of the arrays the call found. -/
theorem final3 (c : Dev nD) : (dat3 V c).arrAt 3 cfg3.N = gateArr V c :=
  (dat3 V c).arrAt_eq_of_cover 3 (gateArr V c) (fun t _ => flushed3_eq V c t) covered3

/-- Entry by entry: row `p`, hidden feature `k`. -/
theorem arr3_apply (c : Dev nD) (p : Fin 4096) (k : Fin 11008) :
    (dat3 V c).arrAt 3 cfg3.N (ix2 p k)
      = Cert.Spec.gate (fun p d => (V c main_v10 : S4096x4096.Idx → EReal) (ix2 p d)) (fun k d => (V c main_v2 : S11008x4096.Idx → EReal) (ix2 k d))
          (fun k d => (V c main_v5 : S11008x4096.Idx → EReal) (ix2 k d)) p k :=
  (congrFun (final3 V c) (ix2 p k)).trans rfl

end Cert.KernelIdeal.Hand

end
-- ==== Proof.KI.Val4.lean ====
import proofs.«424885_j32023276159510_1_alg».proof.Proof.KI.Defs4
import proofs.«424885_j32023276159510_1_alg».proof.Proof.Spec
import Idealize.ShloMosaic.Lib.Pipeline.Value
import Idealize.ShloMosaic.Lib.ValueIdx
import Idealize.ShloMosaic.Lib.ValueIdxCoords
import Idealize.ShloMosaic.PureOps.Ideal.Laws
import Mathlib.Algebra.BigOperators.Fin
import Mathlib.Logic.Equiv.Fin.Basic

/-! # Region 4 (the down projection): what the output array holds, entry by entry

Over the extended reals. The grid is (i, j, k) ∈ 4 × 4 × 43 with k innermost. At point (i, j, k) the body adds to a
1024 × 1024 accumulator the product A · Bᵀ of block (i, k) of the left operand h and block (j, k) of the right
operand w, both [4096, 11008] cut into 1024 × 256 blocks; the accumulator restarts from zero at k = 0 and is written
to output block (i, j) at k = 42.

Entry (p, q) of A · Bᵀ is Σ_{r < 256} A(p, r) · B(q, r). So after point (i, j, k) the accumulator's entry (p, q) is

    Σ_{s ≤ k} Σ_{r < 256} h(1024 i + p, 256 s + r) · w(1024 j + q, 256 s + r),

by induction on the point: consecutive points of one run share i and j. At k = 42 all 43 blocks are in, and since
11008 = 43 · 256 the double sum is Σ_{k < 11008} h(P, k) · w(D, k) with P = 1024 i + p, D = 1024 j + q — only the
associativity and commutativity of + are used, so nothing is asked of the entries. Every (P, D) lies in exactly the output block (P / 1024, D / 1024), whose
last point is ((P / 1024) · 4 + D / 1024) · 43 + 42; hence the array ends holding h · wᵀ everywhere. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open Idealize.SL Idealize.SL.Sem
open Idealize.ShloMosaic.Pipeline (Dat Cfg Window)

namespace Down4

/-! ## One step of the accumulator at an entry -/

/-- The zero block read anywhere is the extended real 0. -/
theorem zero_block_apply (p q : Fin 1024) : k4_pay1 (F := Ideal) (ix2 p q) = 0 := by
  unfold k4_pay1
  rw [shapeCast_self]
  exact Ideal.ofBits_zero_f32

/-- The contraction h·wᵀ of two [1024, 256] blocks: both contract their second axis. -/
abbrev dotBlk : DotDims S1024x256 S1024x256 S1024x1024 := dot_S1024x256_S1024x256_S1024x1024_1_1_0_0_n_n

theorem dotBlk_lhs_row (i : S1024x1024.Idx) (q : dotBlk.contr.Idx) : (dotBlk.lhsIdx i q 0).val = (i 0).val := by
  unfold DotDims.lhsIdx
  rw [dif_neg (show ¬(0 : Fin S1024x256.rank) ∈ dotBlk.lhsBatch by decide), dif_pos (show (0 : Fin S1024x256.rank) ∈ dotBlk.lhsNonContracting by decide)]
  rfl
theorem dotBlk_lhs_col (i : S1024x1024.Idx) (q : dotBlk.contr.Idx) : (dotBlk.lhsIdx i q 1).val = (q ⟨0, by decide⟩).val :=
  dotBlk.lhsIdx_val_of_single rfl i q
theorem dotBlk_rhs_row (i : S1024x1024.Idx) (q : dotBlk.contr.Idx) : (dotBlk.rhsIdx i q 0).val = (i 1).val := by
  unfold DotDims.rhsIdx
  rw [dif_neg (show ¬(0 : Fin S1024x256.rank) ∈ dotBlk.rhsBatch by decide), dif_pos (show (0 : Fin S1024x256.rank) ∈ dotBlk.rhsNonContracting by decide)]
  rfl
theorem dotBlk_rhs_col (i : S1024x1024.Idx) (q : dotBlk.contr.Idx) : (dotBlk.rhsIdx i q 1).val = (q ⟨0, by decide⟩).val :=
  dotBlk.rhsIdx_val_of_single rfl i q

/-- One accumulation step at an entry: the old entry plus the 256-term dot product of row p of the left
    block with row q of the right block. -/
theorem step_apply (x y : Vec Ideal S1024x256 .bf16) (a : Vec Ideal S1024x1024 .f32) (p q : Fin 1024) :
    k4_pay2 (F := Ideal) x y a (ix2 p q) = a (ix2 p q) + ∑ k : Fin 256, x (ix2 p k) * y (ix2 q k) := by
  unfold k4_pay2
  rw [shapeCast_self, shapeCast_self, shapeCast_self]
  show a (ix2 p q) + FloatOps.matmul (F := Ideal) dotBlk none x y (constant (F := Ideal) S1024x1024 .f32 0x00000000#32) (ix2 p q) = _
  refine congrArg (a (ix2 p q) + ·) ?_
  refine (Ideal.matmul_constant_zero_apply (φ₁ := FTy.bf16) (φ₂ := FTy.bf16) dotBlk none x y (ix2 p q)).trans ?_
  rw [← Equiv.sum_comp (contrEquiv1 dotBlk 256 rfl rfl).symm]
  refine Finset.sum_congr rfl fun k _ => ?_
  have hk := contrEquiv1_symm_val dotBlk 256 rfl rfl k
  have el : dotBlk.lhsIdx (ix2 p q) ((contrEquiv1 dotBlk 256 rfl rfl).symm k) = ix2 p k := funext fun a => Fin.ext (by
    match a with
    | ⟨0, _⟩ => exact dotBlk_lhs_row _ _
    | ⟨1, _⟩ => exact (dotBlk_lhs_col _ _).trans hk)
  have er : dotBlk.rhsIdx (ix2 p q) ((contrEquiv1 dotBlk 256 rfl rfl).symm k) = ix2 q k := funext fun a => Fin.ext (by
    match a with
    | ⟨0, _⟩ => exact dotBlk_rhs_row _ _
    | ⟨1, _⟩ => exact (dotBlk_rhs_col _ _).trans hk)
  rw [el, er]

/-! ## 11008 = 43 · 256: a sum taken block by block -/

/-- A sum over 11008 = 43 · 256 indices, taken block by block: 43 consecutive runs of 256. -/
private theorem sum_by_blocks {M : Type*} [AddCommMonoid M] (f : Fin 11008 → M) :
    ∑ k : Fin 11008, f k
      = ∑ s : Fin 43, ∑ r : Fin 256, f ⟨s.val * 256 + r.val, by have := s.isLt; have := r.isLt; omega⟩ := by
  rw [← Equiv.sum_comp (finProdFinEquiv (m := 43) (n := 256)) f, Fintype.sum_prod_type]
  refine Finset.sum_congr rfl fun s _ => Finset.sum_congr rfl fun r _ => ?_
  refine congrArg f (Fin.ext ?_)
  show r.val + 256 * s.val = s.val * 256 + r.val
  omega

/-- What block s of the 43 contributes to a sum over 11008 indices; past the last block, nothing. -/
private def blockTerm (f : Fin 11008 → EReal) (s : ℕ) : EReal :=
  if h : s < 43 then ∑ r : Fin 256, f ⟨s * 256 + r.val, by have := r.isLt; omega⟩ else 0

private theorem blockTerm_of_lt (f : Fin 11008 → EReal) (s : ℕ) (h : s < 43) :
    blockTerm f s = ∑ r : Fin 256, f ⟨s * 256 + r.val, by have := r.isLt; omega⟩ := dif_pos h

/-- All 43 blocks together are the whole sum. -/
private theorem sum_blockTerm (f : Fin 11008 → EReal) : ∑ s ∈ Finset.range 43, blockTerm f s = ∑ k : Fin 11008, f k := by
  rw [sum_by_blocks f, ← Fin.sum_univ_eq_sum_range (fun s => blockTerm f s) 43]
  exact Finset.sum_congr rfl fun s _ => blockTerm_of_lt f s.val s.isLt

/-! ## The operands, their blocks, and where a block's entry sits in its operand -/

variable (V : (c : Dev nD) → (b : Ref sig .tc) → Buf (Elt Ideal) ((c : Thread nD τ).loc b))

/-- The hidden activations, the [4096, 11008] left operand, as the call finds it. -/
abbrev harr (c : Dev nD) : Vec Ideal S4096x11008 .bf16 := V c main_v11
/-- The down-projection weights, the [4096, 11008] right operand, as the call finds it. -/
abbrev warr (c : Dev nD) : Vec Ideal S4096x11008 .bf16 := V c main_v8
/-- The left operand's block at point t. -/
abbrev hblk (c : Dev nD) (t : Fin cfg4.N) : Vec Ideal S1024x256 .bf16 := iblk4 V c 0 t
/-- The right operand's block at point t. -/
abbrev wblk (c : Dev nD) (t : Fin cfg4.N) : Vec Ideal S1024x256 .bf16 := iblk4 V c 1 t

/-- Point t = (i, j, k) in row-major order over [4, 4, 43]: the left block is (i, k), the right block (j, k),
    the output block (i, j), with i = t / 172, j = t / 43 % 4, k = t % 43. -/
theorem block_indices : ∀ t : Fin cfg4.N,
    win4_0.index t (0 : Fin 2) = t.val / 172 ∧ win4_0.index t (1 : Fin 2) = t.val % 43
    ∧ win4_1.index t (0 : Fin 2) = t.val / 43 % 4 ∧ win4_1.index t (1 : Fin 2) = t.val % 43
    ∧ win4_2.index t (0 : Fin 2) = t.val / 172 ∧ win4_2.index t (1 : Fin 2) = t.val / 43 % 4 :=
  (by decide +kernel : ∀ t : Fin grid4.N, _)

/-- Entry (p, k) of the left block at point t is entry (1024 i + p, 256 k' + k) of the left operand. -/
theorem hblk_apply (c : Dev nD) (t : Fin cfg4.N) (p : Fin 1024) (k : Fin 256) (i : S4096x11008.Idx)
    (h0 : (i 0).val = t.val / 172 * 1024 + p.val) (h1 : (i 1).val = t.val % 43 * 256 + k.val) :
    hblk V c t (ix2 p k) = harr V c i := by
  obtain ⟨e0, e1, -, -, -, -⟩ := block_indices t
  show V c main_v11 (((cfg4.win 0).blk t).view.emb (ix2 p k)) = V c main_v11 i
  refine congrArg (V c main_v11) (funext fun a => Fin.ext ?_)
  match a with
  | ⟨0, _⟩ => show win4_0.index t (0 : Fin 2) * 1024 + 1 * p.val = (i 0).val; rw [e0, h0]; omega
  | ⟨1, _⟩ => show win4_0.index t (1 : Fin 2) * 256 + 1 * k.val = (i 1).val; rw [e1, h1]; omega

/-- Entry (q, k) of the right block at point t is entry (1024 j + q, 256 k' + k) of the right operand. -/
theorem wblk_apply (c : Dev nD) (t : Fin cfg4.N) (q : Fin 1024) (k : Fin 256) (i : S4096x11008.Idx)
    (h0 : (i 0).val = t.val / 43 % 4 * 1024 + q.val) (h1 : (i 1).val = t.val % 43 * 256 + k.val) :
    wblk V c t (ix2 q k) = warr V c i := by
  obtain ⟨-, -, e0, e1, -, -⟩ := block_indices t
  show V c main_v8 (((cfg4.win 1).blk t).view.emb (ix2 q k)) = V c main_v8 i
  refine congrArg (V c main_v8) (funext fun a => Fin.ext ?_)
  match a with
  | ⟨0, _⟩ => show win4_1.index t (0 : Fin 2) * 1024 + 1 * q.val = (i 0).val; rw [e0, h0]; omega
  | ⟨1, _⟩ => show win4_1.index t (1 : Fin 2) * 256 + 1 * k.val = (i 1).val; rw [e1, h1]; omega

/-! ## The invariant -/

/-- The products along row P of the left operand and row D of the right one: the terms of entry (P, D). -/
abbrev prods (c : Dev nD) (P D : Fin 4096) : Fin 11008 → EReal := fun k => harr V c (ix2 P k) * warr V c (ix2 D k)

/-- The 256-term dot product the step at point t adds at (p, q) is block t % 43 of row P against row D,
    where P = 1024 i + p and D = 1024 j + q. -/
theorem point_term (c : Dev nD) (t : Fin cfg4.N) (p q : Fin 1024) (P D : Fin 4096)
    (hP : P.val = t.val / 172 * 1024 + p.val) (hD : D.val = t.val / 43 % 4 * 1024 + q.val) :
    ∑ k : Fin 256, hblk V c t (ix2 p k) * wblk V c t (ix2 q k) = blockTerm (prods V c P D) (t.val % 43) := by
  rw [blockTerm_of_lt _ _ (Nat.mod_lt _ (by decide))]
  refine Finset.sum_congr rfl fun k _ => ?_
  exact congrArg₂ (· * ·)
    (hblk_apply V c t p k (ix2 P ⟨t.val % 43 * 256 + k.val, by have := k.isLt; have := Nat.mod_lt t.val (show 0 < 43 by decide); omega⟩) hP rfl)
    (wblk_apply V c t q k (ix2 D ⟨t.val % 43 * 256 + k.val, by have := k.isLt; have := Nat.mod_lt t.val (show 0 < 43 by decide); omega⟩) hD rfl)

/-- THE INVARIANT. After point n = (i, j, k) the accumulator's entry (p, q) is the sum of the first k + 1 blocks
    of row 1024 i + p against row 1024 j + q. By induction on the point: at k = 0 the accumulator restarts from
    zero; at any other point the points n - 1 and n share i and j, and k has gone up by one. -/
theorem acc_partial (c : Dev nD) (P D : Fin 4096) (p q : Fin 1024) :
    ∀ (n : ℕ) (hn : n < cfg4.N), P.val = n / 172 * 1024 + p.val → D.val = n / 43 % 4 * 1024 + q.val →
      acc4 V c n hn (ix2 p q) = ∑ s ∈ Finset.range (n % 43 + 1), blockTerm (prods V c P D) s := by
  intro n
  induction n with
  | zero =>
    intro hn hP hD
    refine (congrFun (acc4_reset V c ⟨0, hn⟩ rfl) (ix2 p q)).trans ?_
    refine (step_apply (hblk V c ⟨0, hn⟩) (wblk V c ⟨0, hn⟩) (k4_pay1 (F := Ideal)) p q).trans ?_
    rw [zero_block_apply, zero_add, point_term V c ⟨0, hn⟩ p q P D hP hD]
    show blockTerm _ (0 % 43) = ∑ s ∈ Finset.range (0 % 43 + 1), _
    rw [Nat.zero_mod, Finset.sum_range_one]
  | succ n ih =>
    intro hn hP hD
    have hN : n + 1 < 688 := hn
    by_cases h0 : (n + 1) % 43 = 0
    · refine (congrFun (acc4_reset V c ⟨n + 1, hn⟩ h0) (ix2 p q)).trans ?_
      refine (step_apply (hblk V c ⟨n + 1, hn⟩) (wblk V c ⟨n + 1, hn⟩) (k4_pay1 (F := Ideal)) p q).trans ?_
      rw [zero_block_apply, zero_add, point_term V c ⟨n + 1, hn⟩ p q P D hP hD]
      show blockTerm _ ((n + 1) % 43) = _
      rw [h0, Finset.sum_range_one]
    · have e1 : n / 172 = (n + 1) / 172 := by omega
      have e2 : n / 43 % 4 = (n + 1) / 43 % 4 := by omega
      have e3 : (n + 1) % 43 = n % 43 + 1 := by omega
      have ihn := ih (Nat.lt_of_succ_lt hn) (by rw [e1]; exact hP) (by rw [e2]; exact hD)
      refine (congrFun (acc4_step V c ⟨n + 1, hn⟩ h0) (ix2 p q)).trans ?_
      refine (step_apply (hblk V c ⟨n + 1, hn⟩) (wblk V c ⟨n + 1, hn⟩) _ p q).trans ?_
      rw [point_term V c ⟨n + 1, hn⟩ p q P D hP hD]
      show acc4 V c n _ (ix2 p q) + blockTerm _ ((n + 1) % 43) = _
      rw [ihn, e3, Finset.sum_range_succ _ (n % 43 + 1)]

/-! ## From the written-back blocks to the array -/

/-- The down projection of the two operands as the call finds them: the whole [4096, 4096] array, entry by entry. -/
abbrev downArr (c : Dev nD) : Vec Ideal S4096x4096 .f32 := fun i =>
  Cert.Spec.down (fun p k => harr V c (ix2 p k)) (fun d k => warr V c (ix2 d k)) (i 0) (i 1)

/-- WHAT A FLUSHING POINT WRITES BACK. At k = 42 the accumulator holds all 43 blocks' contributions, that is the
    whole sum over 11008 terms: block (i, j) of the down projection. -/
theorem flushed_eq (c : Dev nD) (t : Fin cfg4.N) (hf : (cfg4.win 2).flush t = true) :
    (dat4 V c).flushed 2 t = ((cfg4.win 2).blk t).view.read (Elt Ideal) (downArr V c) := by
  have h42 : t.val % 43 = 42 := (flush4_2 t).mp hf
  obtain ⟨-, -, -, -, e0, e1⟩ := block_indices t
  show (cfg4.win 2).cut (grid4.coords t) ((dat4 V c).after 2 t) = _
  rw [after4_2]
  funext j
  have hj0 : (j 0).val < 1024 := (j 0).isLt
  have hj1 : (j 1).val < 1024 := (j 1).isLt
  have hi0 : ((((cfg4.win 2).blk t).view.emb j) 0).val = t.val / 172 * 1024 + (j 0).val := by
    show win4_2.index t (0 : Fin 2) * 1024 + 1 * (j 0).val = _
    rw [e0]; omega
  have hi1 : ((((cfg4.win 2).blk t).view.emb j) 1).val = t.val / 43 % 4 * 1024 + (j 1).val := by
    show win4_2.index t (1 : Fin 2) * 1024 + 1 * (j 1).val = _
    rw [e1]; omega
  have ej : ((cfg4.win 2).xinj (grid4.coords t) j : S1024x1024.Idx) = ix2 ⟨(j 0).val, hj0⟩ ⟨(j 1).val, hj1⟩ :=
    funext fun a => by
      match a with
      | ⟨0, _⟩ => rfl
      | ⟨1, _⟩ => rfl
  show acc4 V c t.val t.isLt ((cfg4.win 2).xinj (grid4.coords t) j) = downArr V c (((cfg4.win 2).blk t).view.emb j)
  rw [ej]
  refine (acc_partial V c ((((cfg4.win 2).blk t).view.emb j) 0) ((((cfg4.win 2).blk t).view.emb j) 1)
    ⟨(j 0).val, hj0⟩ ⟨(j 1).val, hj1⟩ t.val t.isLt hi0 hi1).trans ?_
  rw [h42]
  exact sum_blockTerm _

/-- An index of the output array lies in point t's block iff each coordinate lies in the block's range. -/
theorem mem_out_blk (t : Fin cfg4.N) (i : S4096x4096.Idx) :
    i ∈ ((cfg4.win 2).blk t).view.set ↔ ∀ a : Fin 2, win4_2.index t a * S1024x1024.size a ≤ (i a).val
      ∧ (i a).val < win4_2.index t a * S1024x1024.size a + S1024x1024.size a := by
  show i ∈ ((View.whole main_v12).slice (win4_2.rect t)).set ↔ _
  rw [View.set_slice_whole, Rect.mem_set_unit]
  exact Iff.rfl

/-- THE COVER. Entry (P, D) lies in output block (P / 1024, D / 1024), which is written back at that block's last
    point, k = 42. -/
theorem covered (i : S4096x4096.Idx) :
    ∃ t : Fin cfg4.N, (cfg4.win 2).flush t = true ∧ i ∈ ((cfg4.win 2).blk t).view.set := by
  have h0 : (i 0).val < 4096 := (i 0).isLt
  have h1 : (i 1).val < 4096 := (i 1).isLt
  have hb : ((i 0).val / 1024 * 4 + (i 1).val / 1024) * 43 + 42 < cfg4.N := by show _ < 688; omega
  obtain ⟨-, -, -, -, e0, e1⟩ := block_indices ⟨((i 0).val / 1024 * 4 + (i 1).val / 1024) * 43 + 42, hb⟩
  refine ⟨⟨((i 0).val / 1024 * 4 + (i 1).val / 1024) * 43 + 42, hb⟩, (flush4_2 _).mpr ?_, ?_⟩
  · show (((i 0).val / 1024 * 4 + (i 1).val / 1024) * 43 + 42) % 43 = 42
    omega
  · rw [mem_out_blk]
    intro a
    match a with
    | ⟨0, _⟩ =>
      show win4_2.index ⟨((i 0).val / 1024 * 4 + (i 1).val / 1024) * 43 + 42, hb⟩ (0 : Fin 2) * 1024 ≤ (i 0).val
        ∧ (i 0).val < win4_2.index ⟨((i 0).val / 1024 * 4 + (i 1).val / 1024) * 43 + 42, hb⟩ (0 : Fin 2) * 1024 + 1024
      rw [e0]
      show (((i 0).val / 1024 * 4 + (i 1).val / 1024) * 43 + 42) / 172 * 1024 ≤ (i 0).val
        ∧ (i 0).val < (((i 0).val / 1024 * 4 + (i 1).val / 1024) * 43 + 42) / 172 * 1024 + 1024
      omega
    | ⟨1, _⟩ =>
      show win4_2.index ⟨((i 0).val / 1024 * 4 + (i 1).val / 1024) * 43 + 42, hb⟩ (1 : Fin 2) * 1024 ≤ (i 1).val
        ∧ (i 1).val < win4_2.index ⟨((i 0).val / 1024 * 4 + (i 1).val / 1024) * 43 + 42, hb⟩ (1 : Fin 2) * 1024 + 1024
      rw [e1]
      show (((i 0).val / 1024 * 4 + (i 1).val / 1024) * 43 + 42) / 43 % 4 * 1024 ≤ (i 1).val
        ∧ (i 1).val < (((i 0).val / 1024 * 4 + (i 1).val / 1024) * 43 + 42) / 43 % 4 * 1024 + 1024
      omega

/-- THE ARRAY after the call: the down projection of the operands it was entered with. -/
theorem arr4_eq (c : Dev nD) : (dat4 V c).arrAt 2 cfg4.N = downArr V c :=
  (dat4 V c).arrAt_eq_of_cover 2 (downArr V c) (flushed_eq V c) covered

end Down4

variable (V : (c : Dev nD) → (b : Ref sig .tc) → Buf (Elt Ideal) ((c : Thread nD τ).loc b))

/-- After the call, entry (p, d) of the output array is the down projection Σ_k h(p, k) · w(d, k) of the two
    operands the call was entered with. -/
theorem arr4_apply (c : Dev nD) (p d : Fin 4096) :
    (dat4 (F := Ideal) V c).arrAt 2 cfg4.N (ix2 p d)
      = Cert.Spec.down (fun p k => V c main_v11 (ix2 p k)) (fun d k => V c main_v8 (ix2 d k)) p d :=
  congrFun (Down4.arr4_eq V c) (ix2 p d)

end Cert.KernelIdeal.Hand

end
-- ==== Proof.KI.Bridge.lean ====
/-
  The result buffer of the idealized program, index by index, is the specification's `result` of its argument arrays.

  Walking back from the return: the result is the reshape of the down projection's output, whose entry `(p, d)` is
  `down h W2` with `h` the gate call's output and `W2` the third dequantisation's; the gate's output is `gate` of the
  input read as 4096 rows and of the first two dequantisations' outputs; and each dequantisation's output is `Wa`
  or `Wb` of the packed words and scales it was handed, which are reshapes of argument arrays.
-/
import proofs.«424885_j32023276159510_1_alg».proof.Proof.KI.Frame
import proofs.«424885_j32023276159510_1_alg».proof.Proof.KI.Walk
import proofs.«424885_j32023276159510_1_alg».proof.Proof.KI.Val0
import proofs.«424885_j32023276159510_1_alg».proof.Proof.KI.Val1
import proofs.«424885_j32023276159510_1_alg».proof.Proof.KI.Val2
import proofs.«424885_j32023276159510_1_alg».proof.Proof.KI.Val3
import proofs.«424885_j32023276159510_1_alg».proof.Proof.KI.Val4
import proofs.«424885_j32023276159510_1_alg».proof.Proof.Spec

noncomputable section

namespace Cert.Spec

/-! ## The specification's functions depend on their array arguments only through their values -/

theorem Wa_congr {w w' : Fin 352256 → Fin 64 → BitVec 32} {s s' : Fin 704512 → EReal}
    (hw : ∀ r j, w r j = w' r j) (hs : ∀ k, s k = s' k) (o : Fin 11008) (q : Fin 4096) : Wa w s o q = Wa w' s' o q := by
  rw [show w = w' from funext fun r => funext (hw r), show s = s' from funext hs]

theorem Wb_congr {w w' : Fin 352256 → Fin 64 → BitVec 32} {s s' : Fin 704512 → EReal}
    (hw : ∀ r j, w r j = w' r j) (hs : ∀ k, s k = s' k) (o : Fin 4096) (q : Fin 11008) : Wb w s o q = Wb w' s' o q := by
  rw [show w = w' from funext fun r => funext (hw r), show s = s' from funext hs]

theorem gate_congr {x x' : Fin 4096 → Fin 4096 → EReal} {W1 W1' W3 W3' : Fin 11008 → Fin 4096 → EReal}
    (hx : ∀ p e, x p e = x' p e) (h1 : ∀ k e, W1 k e = W1' k e) (h3 : ∀ k e, W3 k e = W3' k e) (p : Fin 4096) (k : Fin 11008) :
    gate x W1 W3 p k = gate x' W1' W3' p k := by
  rw [show x = x' from funext fun p => funext (hx p), show W1 = W1' from funext fun k => funext (h1 k),
    show W3 = W3' from funext fun k => funext (h3 k)]

theorem down_congr {h h' W2 W2' : Fin 4096 → Fin 11008 → EReal}
    (hh : ∀ p k, h p k = h' p k) (h2 : ∀ d k, W2 d k = W2' d k) (p d : Fin 4096) : down h W2 p d = down h' W2' p d := by
  rw [show h = h' from funext fun p => funext (hh p), show W2 = W2' from funext fun d => funext (h2 d)]

end Cert.Spec

namespace Cert.KernelIdeal.Hand

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ)

/-- The first dequantised matrix, as the gate call finds it, is `Wa` of the first packed words and scales. -/
theorem v2_apply (c : Dev nD) (k : Fin 11008) (e : Fin 4096) :
    U7 m c main_v2 (ix2 k e) = Cert.Spec.Wa (fun r j => m ((c : Thread nD τ).loc main_arg1) (ix2 r j)) (fun k => m ((c : Thread nD τ).loc main_arg2) (ix1 k)) k e :=
  (congrFun (U7_v2 m c) (ix2 k e)).trans
    ((arr0_apply (U1 m) c k e).trans (Cert.Spec.Wa_congr (U1_v0_apply m c) (U1_v1_apply m c) k e))

/-- The second, of the third packed words and scales. -/
theorem v5_apply (c : Dev nD) (k : Fin 11008) (e : Fin 4096) :
    U7 m c main_v5 (ix2 k e) = Cert.Spec.Wa (fun r j => m ((c : Thread nD τ).loc main_arg5) (ix2 r j)) (fun k => m ((c : Thread nD τ).loc main_arg6) (ix1 k)) k e :=
  (congrFun (U7_v5 m c) (ix2 k e)).trans
    ((arr1_apply (U3 m) c k e).trans (Cert.Spec.Wa_congr (U3_v3_apply m c) (U3_v4_apply m c) k e))

/-- The down projection's weights, as its call finds them, are `Wb` of the second packed words and scales. -/
theorem v8_apply (c : Dev nD) (d : Fin 4096) (k : Fin 11008) :
    U8 m c main_v8 (ix2 d k) = Cert.Spec.Wb (fun r j => m ((c : Thread nD τ).loc main_arg3) (ix2 r j)) (fun k => m ((c : Thread nD τ).loc main_arg4) (ix1 k)) d k :=
  (congrFun (U8_v8 m c) (ix2 d k)).trans
    ((arr2_apply (U5 m) c d k).trans (Cert.Spec.Wb_congr (U5_v6_apply m c) (U5_v7_apply m c) d k))

/-- The gated activations, as the down projection finds them. -/
theorem v11_apply (c : Dev nD) (p : Fin 4096) (k : Fin 11008) :
    U8 m c main_v11 (ix2 p k)
      = Cert.Spec.gate (Cert.Spec.rows fun b t d => m ((c : Thread nD τ).loc main_arg0) (ix3 b t d))
          (Cert.Spec.Wa (fun r j => m ((c : Thread nD τ).loc main_arg1) (ix2 r j)) (fun k => m ((c : Thread nD τ).loc main_arg2) (ix1 k)))
          (Cert.Spec.Wa (fun r j => m ((c : Thread nD τ).loc main_arg5) (ix2 r j)) (fun k => m ((c : Thread nD τ).loc main_arg6) (ix1 k))) p k :=
  (congrFun (U8_v11 m c) (ix2 p k)).trans
    ((arr3_apply (U7 m) c p k).trans
      (Cert.Spec.gate_congr (fun p e => U7_v10_apply m c p e) (v2_apply m c) (v5_apply m c) p k))

/-- The result buffer at batch `b`, position `t`, feature `d`. -/
theorem result_apply (c : Dev nD) (b : Fin 2) (t : Fin 2048) (d : Fin 4096) :
    W10 m c main_v13 (ix3 b t d)
      = Cert.Spec.result (fun b t d => m ((c : Thread nD τ).loc main_arg0) (ix3 b t d)) (fun r j => m ((c : Thread nD τ).loc main_arg1) (ix2 r j)) (fun k => m ((c : Thread nD τ).loc main_arg2) (ix1 k))
          (fun r j => m ((c : Thread nD τ).loc main_arg3) (ix2 r j)) (fun k => m ((c : Thread nD τ).loc main_arg4) (ix1 k)) (fun r j => m ((c : Thread nD τ).loc main_arg5) (ix2 r j)) (fun k => m ((c : Thread nD τ).loc main_arg6) (ix1 k)) b t d :=
  (W10_v13_apply m c b t d).trans
    ((arr4_apply (U8 m) c _ d).trans (Cert.Spec.down_congr (v11_apply m c) (v8_apply m c) _ d))

end Cert.KernelIdeal.Hand

end
-- ==== Proof.RefValue.lean ====
/-
  The reference program's result, read index by index, is the specification of `Spec.lean`.

  The reference dequantises three packed weight tensors the same way. A packed word `b` carries a high value, its
  arithmetic shift right by four, and a low value, `((b &&& 15) ^^^ 8) - 8`. The 64 high values of packed row `r` and its
  64 low values are laid side by side as one row of 128, and the [352256, 128] array is read again as [704512, 64]:
  row `2r` holds the high values of packed row `r`, row `2r + 1` its low values. Each row `g` of that array is scaled by
  `s g`, and the flat array is read as an [out, in] matrix, entry `(o, q)` at flat position `in · o + q`. With
  `in = 128 · ncb` that position lies in group `2 · (ncb · o + q / 128) + (if q % 128 < 64 then 0 else 1)` at lane
  `q % 64`: packed row `ncb · o + q / 128`, position `q % 128` of its 128 values — the specification's `Wa` (ncb = 32) and
  `Wb` (ncb = 86).
  The two up projections contract the input's last axis with the rows of `W1` and `W3`; the outlined activation is
  `a · (1 / (1 + e^(-a)))`, whose quotient is the logistic's definition; the down projection contracts the hidden axis
  with the rows of `W2`. Batch `b`, position `t` of the input is row `2048 · b + t` of its reading as 4096 rows.
-/
import proofs.«424885_j32023276159510_1_alg».proof.Defs
import proofs.«424885_j32023276159510_1_alg».proof.Proof.Gen.ReferenceIdeal.Run
import proofs.«424885_j32023276159510_1_alg».proof.Proof.Gen.ReferenceIdeal.Read
import proofs.«424885_j32023276159510_1_alg».proof.Proof.Spec

noncomputable section

namespace Cert.ReferenceIdeal.RefValue

open Cert.ReferenceIdeal Cert.ReferenceIdeal.Gen Cert.ReferenceIdeal.Read Idealize.ShloMosaic Idealize.ShloMosaic.TcCoe Idealize.SL.Sem

/-- The reference's result array as a function of its seven argument arrays: the composed term of its operations. -/
def out (x : (⟨S2x2048x4096, .f32⟩ : BufTy).Contents (Elt Ideal))
    (w1 : (⟨S352256x64, .i32⟩ : BufTy).Contents (Elt Ideal)) (s1 : (⟨S704512, .f32⟩ : BufTy).Contents (Elt Ideal))
    (w2 : (⟨S352256x64, .i32⟩ : BufTy).Contents (Elt Ideal)) (s2 : (⟨S704512, .f32⟩ : BufTy).Contents (Elt Ideal))
    (w3 : (⟨S352256x64, .i32⟩ : BufTy).Contents (Elt Ideal)) (s3 : (⟨S704512, .f32⟩ : BufTy).Contents (Elt Ideal)) :
    (⟨S2x2048x4096, .f32⟩ : BufTy).Contents (Elt Ideal) :=
  val_main_v49 (F := Ideal) x w1 s1 w2 s2 w3 s3

/-- Every weakly fair execution of the reference terminates with its result at `out` of the arguments, the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v49)
        = out (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run (defs (F := Ideal)) _ _).mono
    (fun _ h c => ⟨(h c).1.trans (val_main_v49_eq (F := Ideal) _ _ _ _ _ _ _), (h c).2⟩)
    (Cert.ReferenceIdeal.Value.run (F := Ideal) m ρ)

/-! ## One dequantisation, read at an index -/

/-- The shift of a word by the broadcast constant four is its arithmetic shift right by four. -/
theorem shrsi_four (b : BitVec 32) : IntOp.shrsi .host b 4#32 = b.sshiftRight' 4#32 := by
  unfold IntOp.shrsi
  exact if_pos (by decide)

/-- Row `r` of the side-by-side array: its 64 high nibbles, then its 64 low nibbles sign-extended. -/
theorem v8_apply (w : (⟨S352256x64, .i32⟩ : BufTy).Contents (Elt Ideal)) (r : Fin 352256) (j : Fin 128) :
    val_main_v8 (F := Ideal) w (ValueIdx.ix2 r j)
      = if h : j.val < 64 then (w (ValueIdx.ix2 r (⟨j.val, h⟩ : Fin 64))).sshiftRight' 4#32
        else ((w (ValueIdx.ix2 r (⟨j.val - 64, by omega⟩ : Fin 64)) &&& 15#32) ^^^ 8#32) - 8#32 := by
  unfold val_main_v8
  by_cases h : j.val < 64
  · rw [dif_pos h]
    refine (concatenate_pair_apply_left (t := S352256x128) (s₁ := S352256x64) (s₂ := S352256x64) _ _ _ _ (ValueIdx.ix2 r j) rfl
      (ValueIdx.ix2 r (⟨j.val, h⟩ : Fin 64)) ?_).trans ?_
    · intro b
      match b with
      | ⟨0, _⟩ => rfl
      | ⟨1, _⟩ => rfl
    · rw [val_main_v1_apply, val_main_v0_apply, val_main_c_apply, shrsi_four]
  · rw [dif_neg h]
    refine (concatenate_pair_apply_right (t := S352256x128) (s₁ := S352256x64) (s₂ := S352256x64) _ _ _ _ (ValueIdx.ix2 r j) rfl rfl
      (ValueIdx.ix2 r (⟨j.val - 64, by omega⟩ : Fin 64)) ?_ ?_).trans ?_
    · intro b hb
      match b with
      | ⟨0, _⟩ => rfl
      | ⟨1, _⟩ => exact absurd rfl hb
    · show j.val - 64 + 64 = j.val
      omega
    · rw [val_main_v7_apply, val_main_v5_apply, val_main_v3_apply, val_main_v2_apply, val_main_c_0_apply,
        val_main_v4_apply, val_main_c_1_apply, val_main_v6_apply, val_main_c_2_apply]
      rfl

/-- The [11008, 4096] matrix of the first dequantisation is the specification's `Wa`: entry `(o, q)` is flat position
    `4096·o + q`, group `64·o + q / 64`, lane `q % 64`; the group's packed row is `32·o + q / 128` and it is a high
    group exactly when `q % 128 < 64`. -/
theorem v14_apply (w : (⟨S352256x64, .i32⟩ : BufTy).Contents (Elt Ideal)) (s : (⟨S704512, .f32⟩ : BufTy).Contents (Elt Ideal))
    (o : Fin 11008) (q : Fin 4096) :
    val_main_v14 (F := Ideal) w s (ValueIdx.ix2 o q)
      = Cert.Spec.Wa (fun r j => w (ValueIdx.ix2 r j)) (fun k => s (ValueIdx.ix1 k)) o q := by
  have ho := o.isLt
  have hq := q.isLt
  rw [val_main_v14_apply, val_main_v13_apply, val_main_v10_apply, val_main_v12_apply, val_main_v11_apply, val_main_v9_apply]
  have e8 : idx_main_v9 (idx_main_v14 (ValueIdx.ix2 o q))
      = ValueIdx.ix2 (⟨o.val * 32 + q.val / 128, by omega⟩ : Fin 352256) (⟨q.val % 128, Nat.mod_lt _ (by decide)⟩ : Fin 128) := by
    funext a
    match a with
    | ⟨0, _⟩ =>
      refine Fin.ext ?_
      show ((o.val * 4096 + q.val) / 64 * 64 + (o.val * 4096 + q.val) % 64) / 128 = o.val * 32 + q.val / 128
      omega
    | ⟨1, _⟩ =>
      refine Fin.ext ?_
      show ((o.val * 4096 + q.val) / 64 * 64 + (o.val * 4096 + q.val) % 64) % 128 = q.val % 128
      omega
  rw [e8, v8_apply]
  unfold Cert.Spec.Wa Cert.Spec.deq
  by_cases h : q.val % 128 < 64
  · have es : idx_main_v11 (idx_main_v12 (idx_main_v14 (ValueIdx.ix2 o q)))
        = ValueIdx.ix1 (⟨2 * (o.val * 32 + q.val / 128), by omega⟩ : Fin 704512) := by
      funext a
      match a with
      | ⟨0, _⟩ =>
        refine Fin.ext ?_
        show (o.val * 4096 + q.val) / 64 = 2 * (o.val * 32 + q.val / 128)
        omega
    rw [es, dif_pos h, dif_pos h]
    rfl
  · have es : idx_main_v11 (idx_main_v12 (idx_main_v14 (ValueIdx.ix2 o q)))
        = ValueIdx.ix1 (⟨2 * (o.val * 32 + q.val / 128) + 1, by omega⟩ : Fin 704512) := by
      funext a
      match a with
      | ⟨0, _⟩ =>
        refine Fin.ext ?_
        show (o.val * 4096 + q.val) / 64 = 2 * (o.val * 32 + q.val / 128) + 1
        omega
    rw [es, dif_neg h, dif_neg h]
    rfl

/-- The second and third dequantisations are the first one's term at their own arguments. -/
theorem v29_eq (w : (⟨S352256x64, .i32⟩ : BufTy).Contents (Elt Ideal)) (s : (⟨S704512, .f32⟩ : BufTy).Contents (Elt Ideal)) :
    val_main_v29 (F := Ideal) w s = val_main_v14 (F := Ideal) w s := rfl

theorem v38_eq (w : (⟨S352256x64, .i32⟩ : BufTy).Contents (Elt Ideal)) :
    val_main_v38 (F := Ideal) w = val_main_v8 (F := Ideal) w := rfl

/-- The [4096, 11008] matrix of the last dequantisation is the specification's `Wb`: entry `(o, q)` is flat position
    `11008·o + q` with `11008 = 86 · 128`, so its packed row is `86·o + q / 128` and it is a high group exactly when
    `q % 128 < 64`. -/
theorem v44_apply (w : (⟨S352256x64, .i32⟩ : BufTy).Contents (Elt Ideal)) (s : (⟨S704512, .f32⟩ : BufTy).Contents (Elt Ideal))
    (o : Fin 4096) (q : Fin 11008) :
    val_main_v44 (F := Ideal) w s (ValueIdx.ix2 o q)
      = Cert.Spec.Wb (fun r j => w (ValueIdx.ix2 r j)) (fun k => s (ValueIdx.ix1 k)) o q := by
  have ho := o.isLt
  have hq := q.isLt
  rw [val_main_v44_apply, val_main_v43_apply, val_main_v40_apply, val_main_v42_apply, val_main_v41_apply, val_main_v39_apply,
    v38_eq]
  have e8 : idx_main_v39 (idx_main_v44 (ValueIdx.ix2 o q))
      = ValueIdx.ix2 (⟨o.val * 86 + q.val / 128, by omega⟩ : Fin 352256) (⟨q.val % 128, Nat.mod_lt _ (by decide)⟩ : Fin 128) := by
    funext a
    match a with
    | ⟨0, _⟩ =>
      refine Fin.ext ?_
      show ((o.val * 11008 + q.val) / 64 * 64 + (o.val * 11008 + q.val) % 64) / 128 = o.val * 86 + q.val / 128
      omega
    | ⟨1, _⟩ =>
      refine Fin.ext ?_
      show ((o.val * 11008 + q.val) / 64 * 64 + (o.val * 11008 + q.val) % 64) % 128 = q.val % 128
      omega
  rw [e8, v8_apply]
  unfold Cert.Spec.Wb Cert.Spec.deq
  by_cases h : q.val % 128 < 64
  · have es : idx_main_v41 (idx_main_v42 (idx_main_v44 (ValueIdx.ix2 o q)))
        = ValueIdx.ix1 (⟨2 * (o.val * 86 + q.val / 128), by omega⟩ : Fin 704512) := by
      funext a
      match a with
      | ⟨0, _⟩ =>
        refine Fin.ext ?_
        show (o.val * 11008 + q.val) / 64 = 2 * (o.val * 86 + q.val / 128)
        omega
    rw [es, dif_pos h, dif_pos h]
    rfl
  · have es : idx_main_v41 (idx_main_v42 (idx_main_v44 (ValueIdx.ix2 o q)))
        = ValueIdx.ix1 (⟨2 * (o.val * 86 + q.val / 128) + 1, by omega⟩ : Fin 704512) := by
      funext a
      match a with
      | ⟨0, _⟩ =>
        refine Fin.ext ?_
        show (o.val * 11008 + q.val) / 64 = 2 * (o.val * 86 + q.val / 128) + 1
        omega
    rw [es, dif_neg h, dif_neg h]
    rfl

/-! ## The layer -/

/-- Row `2048·b + t` of the input read as 4096 rows is its batch `b`, position `t`. -/
theorem rows_apply (x : Fin 2 → Fin 2048 → Fin 4096 → EReal) (b : Fin 2) (t : Fin 2048) (e : Fin 4096)
    (h : b.val * 2048 + t.val < 4096) : Cert.Spec.rows x ⟨b.val * 2048 + t.val, h⟩ e = x b t e := by
  have hb := b.isLt
  have ht := t.isLt
  have e0 : (b.val * 2048 + t.val) / 2048 = b.val := by omega
  have e1 : (b.val * 2048 + t.val) % 2048 = t.val := by omega
  unfold Cert.Spec.rows
  simp only [e0, e1, Fin.eta]

/-- An up projection: entry `(b, t, k)` of `x · Wᵀ` is the inner product of the input's row with row `k` of `Wa`. -/
theorem v45_apply (x : (⟨S2x2048x4096, .f32⟩ : BufTy).Contents (Elt Ideal))
    (w : (⟨S352256x64, .i32⟩ : BufTy).Contents (Elt Ideal)) (s : (⟨S704512, .f32⟩ : BufTy).Contents (Elt Ideal))
    (b : Fin 2) (t : Fin 2048) (k : Fin 11008) (h : b.val * 2048 + t.val < 4096) :
    val_main_v45 (F := Ideal) x w s (ValueIdx.ix3 b t k)
      = ∑ e : Fin 4096, Cert.Spec.rows (fun b t d => x (ValueIdx.ix3 b t d)) ⟨b.val * 2048 + t.val, h⟩ e
          * Cert.Spec.Wa (fun r j => w (ValueIdx.ix2 r j)) (fun k => s (ValueIdx.ix1 k)) k e := by
  rw [val_main_v45_apply]
  refine Finset.sum_congr rfl fun e _ => ?_
  have el : lidx_main_v45 (ValueIdx.ix3 b t k) e = ValueIdx.ix3 b t e := by
    funext a
    match a with
    | ⟨0, _⟩ => rfl
    | ⟨1, _⟩ => rfl
    | ⟨2, _⟩ => rfl
  have er : ridx_main_v45 (ValueIdx.ix3 b t k) e = ValueIdx.ix2 k e := by
    funext a
    match a with
    | ⟨0, _⟩ => rfl
    | ⟨1, _⟩ => rfl
  rw [el, er, v14_apply, rows_apply]

theorem v46_eq (x : (⟨S2x2048x4096, .f32⟩ : BufTy).Contents (Elt Ideal))
    (w : (⟨S352256x64, .i32⟩ : BufTy).Contents (Elt Ideal)) (s : (⟨S704512, .f32⟩ : BufTy).Contents (Elt Ideal)) :
    val_main_v46 (F := Ideal) x w s = val_main_v45 (F := Ideal) x w s := rfl

/-- `a · (1 / (1 + e^(-a)))` is `a · logistic a`: the constant's pattern is the real one, and the quotient is the
    logistic's own definition. -/
theorem silu_gate (a c : Ideal .f32) :
    FloatOps.mulf (FloatOps.mulf a (FloatOps.hostDivf (FloatOps.ofBits .f32 0x3F800000#32)
        (FloatOps.addf (FloatOps.ofBits .f32 0x3F800000#32) (FloatOps.hostUnary .exp (FloatOps.hostNegf a))))) c
      = (a * Ideal.logistic a) * c := by
  rw [show FloatOps.ofBits (F := Ideal) .f32 0x3F800000#32 = 1 from IdealRules.sign_bit.ideal_onePat .f32]
  rfl

/-- The gated activations: entry `(b, t, k)` is the specification's `gate` at row `2048·b + t`. -/
theorem v48_apply (x : (⟨S2x2048x4096, .f32⟩ : BufTy).Contents (Elt Ideal))
    (w1 : (⟨S352256x64, .i32⟩ : BufTy).Contents (Elt Ideal)) (s1 : (⟨S704512, .f32⟩ : BufTy).Contents (Elt Ideal))
    (w3 : (⟨S352256x64, .i32⟩ : BufTy).Contents (Elt Ideal)) (s3 : (⟨S704512, .f32⟩ : BufTy).Contents (Elt Ideal))
    (b : Fin 2) (t : Fin 2048) (k : Fin 11008) (h : b.val * 2048 + t.val < 4096) :
    val_main_v48 (F := Ideal) x w1 s1 w3 s3 (ValueIdx.ix3 b t k)
      = Cert.Spec.gate (Cert.Spec.rows (fun b t d => x (ValueIdx.ix3 b t d)))
          (Cert.Spec.Wa (fun r j => w1 (ValueIdx.ix2 r j)) (fun k => s1 (ValueIdx.ix1 k)))
          (Cert.Spec.Wa (fun r j => w3 (ValueIdx.ix2 r j)) (fun k => s3 (ValueIdx.ix1 k))) ⟨b.val * 2048 + t.val, h⟩ k := by
  rw [val_main_v48_apply, val_main_v47_apply, val_main_call0_v5_apply, val_main_call0_v4_apply, val_main_call0_cst_0_apply,
    val_main_call0_v3_apply, val_main_call0_v2_apply, val_main_call0_cst_apply, val_main_call0_v1_apply,
    val_main_call0_v0_apply, v46_eq, v45_apply x w1 s1 b t k h, v45_apply x w3 s3 b t k h]
  exact silu_gate _ _

/-- The reference's result at batch `b`, position `t`, feature `d` is the specification's. -/
theorem out_apply (x : (⟨S2x2048x4096, .f32⟩ : BufTy).Contents (Elt Ideal))
    (w1 : (⟨S352256x64, .i32⟩ : BufTy).Contents (Elt Ideal)) (s1 : (⟨S704512, .f32⟩ : BufTy).Contents (Elt Ideal))
    (w2 : (⟨S352256x64, .i32⟩ : BufTy).Contents (Elt Ideal)) (s2 : (⟨S704512, .f32⟩ : BufTy).Contents (Elt Ideal))
    (w3 : (⟨S352256x64, .i32⟩ : BufTy).Contents (Elt Ideal)) (s3 : (⟨S704512, .f32⟩ : BufTy).Contents (Elt Ideal))
    (b : Fin 2) (t : Fin 2048) (d : Fin 4096) :
    out x w1 s1 w2 s2 w3 s3 (ValueIdx.ix3 b t d)
      = Cert.Spec.result (fun b t d => x (ValueIdx.ix3 b t d)) (fun r j => w1 (ValueIdx.ix2 r j)) (fun k => s1 (ValueIdx.ix1 k))
          (fun r j => w2 (ValueIdx.ix2 r j)) (fun k => s2 (ValueIdx.ix1 k)) (fun r j => w3 (ValueIdx.ix2 r j))
          (fun k => s3 (ValueIdx.ix1 k)) b t d := by
  have hb := b.isLt
  have ht := t.isLt
  have h : b.val * 2048 + t.val < 4096 := by omega
  unfold out
  rw [val_main_v49_apply]
  unfold Cert.Spec.result Cert.Spec.down
  refine Finset.sum_congr rfl fun k _ => ?_
  have el : lidx_main_v49 (ValueIdx.ix3 b t d) k = ValueIdx.ix3 b t k := by
    funext a
    match a with
    | ⟨0, _⟩ => rfl
    | ⟨1, _⟩ => rfl
    | ⟨2, _⟩ => rfl
  have er : ridx_main_v49 (ValueIdx.ix3 b t d) k = ValueIdx.ix2 d k := by
    funext a
    match a with
    | ⟨0, _⟩ => rfl
    | ⟨1, _⟩ => rfl
  rw [el, er, v44_apply, v48_apply x w1 s1 w3 s3 b t k h]

end Cert.ReferenceIdeal.RefValue

end
-- ==== Proof.lean ====
/-
  Dequantise-and-project: a Q4_0 feed-forward layer, `down (silu (x W1ᵀ) · (x W3ᵀ))`, computed by five kernel calls
  (three dequantisations of packed 4-bit weights, the gated up projection, the down projection accumulated over 43
  blocks of the hidden axis) against the same layer written with whole-array operations.

  Over the extended reals both programs compute the specification's `result` (Proof/Spec.lean) of their argument
  arrays: the reference by reading its operations one at a time (Proof/RefValue.lean), the kernel program by reading
  what each call leaves in its output array off that call's own run — a block of a dequantised matrix depends only on
  the packed rows and scales it was handed, a block of gated activations only on its rows and features, and a block
  of the down projection is the sum over the 43 steps of the products of the blocks the steps were handed, which
  regroups into one sum over the hidden axis (additions commute and associate on the extended reals; nothing needs
  finiteness). The frames of the two kernel programs are the same run with the result forgotten; the reference's
  is its run with the result forgotten. The idealization rewrote nothing, so `preserves` holds trivially.
-/
import proofs.«424885_j32023276159510_1_alg».proof.Defs
import proofs.«424885_j32023276159510_1_alg».proof.Proof.Gen.Kernel
import proofs.«424885_j32023276159510_1_alg».proof.Proof.Gen.KernelIdeal
import proofs.«424885_j32023276159510_1_alg».proof.Proof.Gen.ReferenceIdeal
import proofs.«424885_j32023276159510_1_alg».proof.Proof.Gen.Pre_finite_inputs
import proofs.«424885_j32023276159510_1_alg».proof.Proof.K.Frame
import proofs.«424885_j32023276159510_1_alg».proof.Proof.KI.Bridge
import proofs.«424885_j32023276159510_1_alg».proof.Proof.RefValue

noncomputable section

namespace Cert.Proof

open Idealize.ShloMosaic Idealize.ShloMosaic.TcCoe Idealize.SL.Sem

/-- The word-level program runs to its end and leaves its arguments as launched. -/
theorem frame_k : Cert.frame_Kernel (hKernel := Cert.Kernel.Gen.facts) (hPre_finite_inputs := Cert.Pre_finite_inputs.Gen.facts) :=
  fun m ρ _ => Cert.Kernel.Hand.frame (F := Bits) m ρ

/-- So does the idealized program. -/
theorem frame_ki : Cert.frame_KernelIdeal (hKernelIdeal := Cert.KernelIdeal.Gen.facts) (hPre_finite_inputs := Cert.Pre_finite_inputs.Gen.facts) :=
  fun m ρ _ => Cert.KernelIdeal.Hand.frame (F := Ideal) m ρ

/-- The reference's frame is its run with the result forgotten. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RefValue.run m ρ)

/-- From memories agreeing on the arguments both idealized programs end with the same result: entry `(b, t, d)` of
    either is the specification's `result` of the argument arrays. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Hand.W10 m c Cert.KernelIdeal.main_v13, Cert.KernelIdeal.Hand.run_result (F := Ideal) m ρ, ?_⟩
  refine (θ_run Cert.ReferenceIdeal.defs _ _).mono (fun _ h c => ⟨(h c).1.trans ?_, (h c).2⟩)
    (Cert.ReferenceIdeal.RefValue.run m' ρ')
  rw [(hagree c).1, (hagree c).2.1, (hagree c).2.2.1, (hagree c).2.2.2.1, (hagree c).2.2.2.2.1, (hagree c).2.2.2.2.2.1,
    (hagree c).2.2.2.2.2.2]
  funext i
  obtain ⟨b, t, d, rfl⟩ : ∃ (b : Fin 2) (t : Fin 2048) (d : Fin 4096), i = ValueIdx.ix3 b t d := ⟨i 0, i 1, i 2, ValueIdx.eq_ix3 i⟩
  exact (Cert.ReferenceIdeal.RefValue.out_apply _ _ _ _ _ _ _ b t d).trans (Cert.KernelIdeal.Hand.result_apply m c b t d).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
